-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x2048 : Shape := ⟨2, ![256, 2048]⟩
abbrev S2048x2048 : Shape := ⟨2, ![2048, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S256x2048 .f32) (main_arg1 : FVec F S2048x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Pre_finite_inputs_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel

variable [Facts]

def fn {F : FTy → Type} [FloatOps F] (main_arg0 : FVec F S2048x2048 .f32) (main_arg1 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S256x2048 : Shape := ⟨2, ![256, 2048]⟩
abbrev S2048x2048 : Shape := ⟨2, ![2048, 2048]⟩
abbrev S2048x256 : Shape := ⟨2, ![2048, 256]⟩
abbrev S256x256 : Shape := ⟨2, ![256, 256]⟩
abbrev S7 : Shape := ⟨1, ![7]⟩
abbrev S_ : Shape := ⟨0, ![]⟩
abbrev S1 : Shape := ⟨1, ![1]⟩

abbrev nBuf : Space → Nat
  | .hbm => 3
  | .vmem => 17
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S2048x256, .f32⟩
  | .local _ .vmem, ⟨0, _⟩ => ⟨S256x2048, .f32⟩
  | .local _ .vmem, ⟨1, _⟩ => ⟨S2048x2048, .f32⟩
  | .local _ .vmem, ⟨2, _⟩ => ⟨S2048x256, .f32⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c1_i32_92 : BitVec 32) (c1_i32_91 : BitVec 32) (c1_i32_90 : BitVec 32) : Fin 2 → Nat :=
  let c0_126 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let v152 : BitVec 32 := Scalar.xori v111 c1_i32_92
  let c4_i32_93 : BitVec 32 := 4#32
  let v153 : BitVec 32 := Scalar.muli v152 c4_i32_93
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let v151 : BitVec 32 := Scalar.xori v138 c1_i32_91
  let c2_i32_94 : BitVec 32 := 2#32
  let v154 : BitVec 32 := Scalar.muli v151 c2_i32_94
  let v155 : BitVec 32 := Scalar.addi v153 v154
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let v150 : BitVec 32 := Scalar.xori v149 c1_i32_90
  let v156 : BitVec 32 := Scalar.xori v150 v151
  let v157 : BitVec 32 := Scalar.addi v155 v156
  let c256_i32 : BitVec 32 := 256#32
  let v208 : BitVec 32 := Scalar.muli v157 c256_i32
  let v209 : Index := Scalar.indexCast v208
  ![0, v209.toNat]
def k0_off1_at (r : Fin 7) : BitVec 32 × BitVec 32 × BitVec 32 :=
  if r.val < 3 then
    if r.val < 1 then
      (1#32, 1#32, 1#32)
    else
      if r.val < 2 then
        (0#32, 1#32, 1#32)
      else
        (1#32, 0#32, 1#32)
  else
    if r.val < 5 then
      if r.val < 4 then
        (1#32, 1#32, 0#32)
      else
        (0#32, 0#32, 1#32)
    else
      if r.val < 6 then
        (0#32, 1#32, 0#32)
      else
        (1#32, 0#32, 0#32)
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c1_i32_92 : BitVec 32 := 1#32
  let v152 : BitVec 32 := Scalar.xori v111 c1_i32_92
  let c4_i32_93 : BitVec 32 := 4#32
  let v153 : BitVec 32 := Scalar.muli v152 c4_i32_93
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c1_i32_91 : BitVec 32 := 1#32
  let v151 : BitVec 32 := Scalar.xori v138 c1_i32_91
  let c2_i32_94 : BitVec 32 := 2#32
  let v154 : BitVec 32 := Scalar.muli v151 c2_i32_94
  let v155 : BitVec 32 := Scalar.addi v153 v154
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c1_i32_90 : BitVec 32 := 1#32
  let v150 : BitVec 32 := Scalar.xori v149 c1_i32_90
  let v156 : BitVec 32 := Scalar.xori v150 v151
  let v157 : BitVec 32 := Scalar.addi v155 v156
  let c1_i32_131 : BitVec 32 := 1#32
  let v217 : BitVec 32 := Scalar.muli v157 c1_i32_131
  let v218 : BitVec 32 := Scalar.addi c0_i32_132 v217
  v218.toNat
def k0_dev9 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c0_i32_97 : BitVec 32 := 0#32
  let v160 : BitVec 32 := Scalar.xori v111 c0_i32_97
  let c4_i32_98 : BitVec 32 := 4#32
  let v161 : BitVec 32 := Scalar.muli v160 c4_i32_98
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c1_i32_96 : BitVec 32 := 1#32
  let v159 : BitVec 32 := Scalar.xori v138 c1_i32_96
  let c2_i32_99 : BitVec 32 := 2#32
  let v162 : BitVec 32 := Scalar.muli v159 c2_i32_99
  let v163 : BitVec 32 := Scalar.addi v161 v162
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c1_i32_95 : BitVec 32 := 1#32
  let v158 : BitVec 32 := Scalar.xori v149 c1_i32_95
  let v164 : BitVec 32 := Scalar.xori v158 v159
  let v165 : BitVec 32 := Scalar.addi v163 v164
  let c1_i32_140 : BitVec 32 := 1#32
  let v232 : BitVec 32 := Scalar.muli v165 c1_i32_140
  let v233 : BitVec 32 := Scalar.addi c0_i32_141 v232
  v233.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c1_i32_102 : BitVec 32 := 1#32
  let v168 : BitVec 32 := Scalar.xori v111 c1_i32_102
  let c4_i32_103 : BitVec 32 := 4#32
  let v169 : BitVec 32 := Scalar.muli v168 c4_i32_103
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c0_i32_101 : BitVec 32 := 0#32
  let v167 : BitVec 32 := Scalar.xori v138 c0_i32_101
  let c2_i32_104 : BitVec 32 := 2#32
  let v170 : BitVec 32 := Scalar.muli v167 c2_i32_104
  let v171 : BitVec 32 := Scalar.addi v169 v170
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c1_i32_100 : BitVec 32 := 1#32
  let v166 : BitVec 32 := Scalar.xori v149 c1_i32_100
  let v172 : BitVec 32 := Scalar.xori v166 v167
  let v173 : BitVec 32 := Scalar.addi v171 v172
  let c1_i32_149 : BitVec 32 := 1#32
  let v247 : BitVec 32 := Scalar.muli v173 c1_i32_149
  let v248 : BitVec 32 := Scalar.addi c0_i32_150 v247
  v248.toNat
def k0_dev11 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c1_i32_107 : BitVec 32 := 1#32
  let v176 : BitVec 32 := Scalar.xori v111 c1_i32_107
  let c4_i32_108 : BitVec 32 := 4#32
  let v177 : BitVec 32 := Scalar.muli v176 c4_i32_108
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c1_i32_106 : BitVec 32 := 1#32
  let v175 : BitVec 32 := Scalar.xori v138 c1_i32_106
  let c2_i32_109 : BitVec 32 := 2#32
  let v178 : BitVec 32 := Scalar.muli v175 c2_i32_109
  let v179 : BitVec 32 := Scalar.addi v177 v178
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c0_i32_105 : BitVec 32 := 0#32
  let v174 : BitVec 32 := Scalar.xori v149 c0_i32_105
  let v180 : BitVec 32 := Scalar.xori v174 v175
  let v181 : BitVec 32 := Scalar.addi v179 v180
  let c1_i32_158 : BitVec 32 := 1#32
  let v262 : BitVec 32 := Scalar.muli v181 c1_i32_158
  let v263 : BitVec 32 := Scalar.addi c0_i32_159 v262
  v263.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c0_i32_112 : BitVec 32 := 0#32
  let v184 : BitVec 32 := Scalar.xori v111 c0_i32_112
  let c4_i32_113 : BitVec 32 := 4#32
  let v185 : BitVec 32 := Scalar.muli v184 c4_i32_113
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c0_i32_111 : BitVec 32 := 0#32
  let v183 : BitVec 32 := Scalar.xori v138 c0_i32_111
  let c2_i32_114 : BitVec 32 := 2#32
  let v186 : BitVec 32 := Scalar.muli v183 c2_i32_114
  let v187 : BitVec 32 := Scalar.addi v185 v186
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c1_i32_110 : BitVec 32 := 1#32
  let v182 : BitVec 32 := Scalar.xori v149 c1_i32_110
  let v188 : BitVec 32 := Scalar.xori v182 v183
  let v189 : BitVec 32 := Scalar.addi v187 v188
  let c1_i32_167 : BitVec 32 := 1#32
  let v277 : BitVec 32 := Scalar.muli v189 c1_i32_167
  let v278 : BitVec 32 := Scalar.addi c0_i32_168 v277
  v278.toNat
def k0_dev13 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c0_i32_117 : BitVec 32 := 0#32
  let v192 : BitVec 32 := Scalar.xori v111 c0_i32_117
  let c4_i32_118 : BitVec 32 := 4#32
  let v193 : BitVec 32 := Scalar.muli v192 c4_i32_118
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c1_i32_116 : BitVec 32 := 1#32
  let v191 : BitVec 32 := Scalar.xori v138 c1_i32_116
  let c2_i32_119 : BitVec 32 := 2#32
  let v194 : BitVec 32 := Scalar.muli v191 c2_i32_119
  let v195 : BitVec 32 := Scalar.addi v193 v194
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c0_i32_115 : BitVec 32 := 0#32
  let v190 : BitVec 32 := Scalar.xori v149 c0_i32_115
  let v196 : BitVec 32 := Scalar.xori v190 v191
  let v197 : BitVec 32 := Scalar.addi v195 v196
  let c1_i32_176 : BitVec 32 := 1#32
  let v292 : BitVec 32 := Scalar.muli v197 c1_i32_176
  let v293 : BitVec 32 := Scalar.addi c0_i32_177 v292
  v293.toNat
def k0_dev14 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let c1_i32_122 : BitVec 32 := 1#32
  let v200 : BitVec 32 := Scalar.xori v111 c1_i32_122
  let c4_i32_123 : BitVec 32 := 4#32
  let v201 : BitVec 32 := Scalar.muli v200 c4_i32_123
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let c0_i32_121 : BitVec 32 := 0#32
  let v199 : BitVec 32 := Scalar.xori v138 c0_i32_121
  let c2_i32_124 : BitVec 32 := 2#32
  let v202 : BitVec 32 := Scalar.muli v199 c2_i32_124
  let v203 : BitVec 32 := Scalar.addi v201 v202
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let c0_i32_120 : BitVec 32 := 0#32
  let v198 : BitVec 32 := Scalar.xori v149 c0_i32_120
  let v204 : BitVec 32 := Scalar.xori v198 v199
  let v205 : BitVec 32 := Scalar.addi v203 v204
  let c1_i32_185 : BitVec 32 := 1#32
  let v307 : BitVec 32 := Scalar.muli v205 c1_i32_185
  let v308 : BitVec 32 := Scalar.addi c0_i32_186 v307
  v308.toNat
def k0_off2 (d0 : Dev nD) : Fin 2 → Nat :=
  let c0_188 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_187 : BitVec 32 := 256#32
  let v313 : BitVec 32 := Scalar.muli v2 c256_i32_187
  let v314 : Index := Scalar.indexCast v313
  ![0, v314.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_190 : BitVec 32 := 256#32
  let v318 : BitVec 32 := Scalar.muli v2 c256_i32_190
  let v319 : Index := Scalar.indexCast v318
  let c0_191 : Index := 0#32
  ![v319.toNat, 0]
def k0_off4 (d0 : Dev nD) (c1_i32_92 : BitVec 32) (c1_i32_91 : BitVec 32) (c1_i32_90 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_65 : BitVec 32 := 0#32
  let v96 : BitVec 1 := Scalar.cmpi .sgt v2 c0_i32_65
  let v97 : BitVec 32 := Scalar.extui v96
  let c0_i32_66 : BitVec 32 := 0#32
  let v98 : BitVec 1 := Scalar.cmpi .slt v2 c0_i32_66
  let v99 : BitVec 32 := Scalar.extui v98
  let v100 : BitVec 32 := Scalar.subi v97 v99
  let c4_i32_64 : BitVec 32 := 4#32
  let c0_i32_67 : BitVec 32 := 0#32
  let v101 : BitVec 1 := Scalar.cmpi .sgt c4_i32_64 c0_i32_67
  let v102 : BitVec 32 := Scalar.extui v101
  let c0_i32_68 : BitVec 32 := 0#32
  let v103 : BitVec 1 := Scalar.cmpi .slt c4_i32_64 c0_i32_68
  let v104 : BitVec 32 := Scalar.extui v103
  let v105 : BitVec 32 := Scalar.subi v102 v104
  let v106 : BitVec 1 := Scalar.cmpi .ne v100 v105
  let v107 : BitVec 32 := Scalar.remsi v2 c4_i32_64
  let c0_i32_69 : BitVec 32 := 0#32
  let v108 : BitVec 1 := Scalar.cmpi .ne v107 c0_i32_69
  let v109 : BitVec 1 := Scalar.andi v106 v108
  let v95 : BitVec 32 := Scalar.divsi v2 c4_i32_64
  let c1_i32_70 : BitVec 32 := 1#32
  let v110 : BitVec 32 := Scalar.subi v95 c1_i32_70
  let v111 : BitVec 32 := Scalar.select v109 v110 v95
  let v152 : BitVec 32 := Scalar.xori v111 c1_i32_92
  let c4_i32_93 : BitVec 32 := 4#32
  let v153 : BitVec 32 := Scalar.muli v152 c4_i32_93
  let c4_i32_71 : BitVec 32 := 4#32
  let c0_i32_72 : BitVec 32 := 0#32
  let v112 : BitVec 1 := Scalar.cmpi .eq c4_i32_71 c0_i32_72
  let c1_i32_73 : BitVec 32 := 1#32
  let v113 : BitVec 32 := Scalar.select v112 c1_i32_73 c4_i32_71
  let v114 : BitVec 32 := Scalar.remsi v2 v113
  let c0_i32_75 : BitVec 32 := 0#32
  let v116 : BitVec 1 := Scalar.cmpi .slt v114 c0_i32_75
  let c0_i32_76 : BitVec 32 := 0#32
  let v117 : BitVec 1 := Scalar.cmpi .slt v113 c0_i32_76
  let v118 : BitVec 1 := Scalar.xori v116 v117
  let c0_i32_74 : BitVec 32 := 0#32
  let v115 : BitVec 1 := Scalar.cmpi .ne v114 c0_i32_74
  let v119 : BitVec 1 := Scalar.andi v118 v115
  let v120 : BitVec 32 := Scalar.addi v114 v113
  let v121 : BitVec 32 := Scalar.select v119 v120 v114
  let c0_i32_78 : BitVec 32 := 0#32
  let v123 : BitVec 1 := Scalar.cmpi .sgt v121 c0_i32_78
  let v124 : BitVec 32 := Scalar.extui v123
  let c0_i32_79 : BitVec 32 := 0#32
  let v125 : BitVec 1 := Scalar.cmpi .slt v121 c0_i32_79
  let v126 : BitVec 32 := Scalar.extui v125
  let v127 : BitVec 32 := Scalar.subi v124 v126
  let c2_i32_77 : BitVec 32 := 2#32
  let c0_i32_80 : BitVec 32 := 0#32
  let v128 : BitVec 1 := Scalar.cmpi .sgt c2_i32_77 c0_i32_80
  let v129 : BitVec 32 := Scalar.extui v128
  let c0_i32_81 : BitVec 32 := 0#32
  let v130 : BitVec 1 := Scalar.cmpi .slt c2_i32_77 c0_i32_81
  let v131 : BitVec 32 := Scalar.extui v130
  let v132 : BitVec 32 := Scalar.subi v129 v131
  let v133 : BitVec 1 := Scalar.cmpi .ne v127 v132
  let v134 : BitVec 32 := Scalar.remsi v121 c2_i32_77
  let c0_i32_82 : BitVec 32 := 0#32
  let v135 : BitVec 1 := Scalar.cmpi .ne v134 c0_i32_82
  let v136 : BitVec 1 := Scalar.andi v133 v135
  let v122 : BitVec 32 := Scalar.divsi v121 c2_i32_77
  let c1_i32_83 : BitVec 32 := 1#32
  let v137 : BitVec 32 := Scalar.subi v122 c1_i32_83
  let v138 : BitVec 32 := Scalar.select v136 v137 v122
  let v151 : BitVec 32 := Scalar.xori v138 c1_i32_91
  let c2_i32_94 : BitVec 32 := 2#32
  let v154 : BitVec 32 := Scalar.muli v151 c2_i32_94
  let v155 : BitVec 32 := Scalar.addi v153 v154
  let c2_i32_84 : BitVec 32 := 2#32
  let c0_i32_85 : BitVec 32 := 0#32
  let v139 : BitVec 1 := Scalar.cmpi .eq c2_i32_84 c0_i32_85
  let c1_i32_86 : BitVec 32 := 1#32
  let v140 : BitVec 32 := Scalar.select v139 c1_i32_86 c2_i32_84
  let v141 : BitVec 32 := Scalar.remsi v121 v140
  let c0_i32_88 : BitVec 32 := 0#32
  let v143 : BitVec 1 := Scalar.cmpi .slt v141 c0_i32_88
  let c0_i32_89 : BitVec 32 := 0#32
  let v144 : BitVec 1 := Scalar.cmpi .slt v140 c0_i32_89
  let v145 : BitVec 1 := Scalar.xori v143 v144
  let c0_i32_87 : BitVec 32 := 0#32
  let v142 : BitVec 1 := Scalar.cmpi .ne v141 c0_i32_87
  let v146 : BitVec 1 := Scalar.andi v145 v142
  let v147 : BitVec 32 := Scalar.addi v141 v140
  let v148 : BitVec 32 := Scalar.select v146 v147 v141
  let v149 : BitVec 32 := Scalar.xori v148 v138
  let v150 : BitVec 32 := Scalar.xori v149 c1_i32_90
  let v156 : BitVec 32 := Scalar.xori v150 v151
  let v157 : BitVec 32 := Scalar.addi v155 v156
  let c256_i32_198 : BitVec 32 := 256#32
  let v327 : BitVec 32 := Scalar.muli v157 c256_i32_198
  let v328 : Index := Scalar.indexCast v327
  let c0_199 : Index := 0#32
  ![v328.toNat, 0]
def k0_off4_at (r : Fin 7) : BitVec 32 × BitVec 32 × BitVec 32 :=
  if r.val < 3 then
    if r.val < 1 then
      (1#32, 1#32, 1#32)
    else
      if r.val < 2 then
        (0#32, 1#32, 1#32)
      else
        (1#32, 0#32, 1#32)
  else
    if r.val < 5 then
      if r.val < 4 then
        (1#32, 1#32, 0#32)
      else
        (0#32, 0#32, 1#32)
    else
      if r.val < 6 then
        (0#32, 1#32, 0#32)
      else
        (1#32, 0#32, 0#32)
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  hamt_7 : (7#32 : BitVec 32).msb = false
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S256x256_S256x256_0_0 : (Rect.unit (s := S256x256) ![0, 0] S256x256.size inb_S256x256_S256x256_0_0).PackedRows (EltTy.packing .bf16)
  inb_S7_S1_0 : ∀ a, (![0] : Fin 1 → Nat) a + S1.size a ≤ S7.size a
  squeezes_S1_S_ : S1.Squeezes S_
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  dot_S256x2048_S2048x256_S256x256_1_0_0_1_n_n_wf : DotDims.WF S256x2048 S2048x256 S256x256 [1] [0] [0] [1] [] []
  hcc0_scratch14 : 3 + S7.numel ≤ 17
  hcc0_scratch15 : 10 + S7.numel ≤ 17
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ (r : Fin 7), ∀ a, (k0_off1 d0 (k0_off1_at r).1 (k0_off1_at r).2.1 (k0_off1_at r).2.2) a + S2048x256.size a ≤ S2048x2048.size a
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off2_inb : ∀ d0 : Dev nD, ∀ a, (k0_off2 d0) a + S2048x256.size a ≤ S2048x2048.size a
  k0_off3_inb : ∀ d0 : Dev nD, ∀ a, (k0_off3 d0) a + S256x256.size a ≤ S2048x256.size a
  k0_off4_inb : ∀ d0 : Dev nD, ∀ (r : Fin 7), ∀ a, (k0_off4 d0 (k0_off4_at r).1 (k0_off4_at r).2.1 (k0_off4_at r).2.2) a + S256x256.size a ≤ S2048x256.size a
  hstage0_0 : ∀ j, (stage0_0 j).IsWhole
  hstage0_1 : ∀ j, (stage0_1 j).IsWhole
  hstage0_2 : ∀ j, (stage0_2 j).IsWhole

variable [Facts₀]

abbrev cc0_scratch14 : DmaSems sig S7 := SemArray.consecutive 3 S7 hcc0_scratch14
abbrev cc0_scratch15 : DmaSems sig S7 := SemArray.consecutive 10 S7 hcc0_scratch15
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S2048x2048_S2048x2048_S2048x2048_1_0_0_1_n_n_wf : DotDims.WF S2048x2048 S2048x2048 S2048x2048 [1] [0] [0] [1] [] []

variable [Facts₀]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.Mesh8.lean ====
/-
  The mesh of eight devices as this kernel addresses it.

  A device's position `c` is read as three binary coordinates `(z, y, x)` with `z = c / 4`,
  `y = (c % 4) / 2` and `x = (c % 2) xor y` (a Gray code inside each plane of four).  The kernel
  talks to its seven peers in two different orders:

  * the entry handshake walks the ring: signal number `j` goes to `bsig j c = (c + j + 1) % 8`;
  * the data exchange walks the cube: slot `σ` exchanges with `tgt σ c`, the device whose
    coordinates differ from `c`'s by the mask `[7, 6, 5, 3, 4, 2, 1] σ` (bit 2 flips `x`, bit 1
    flips `y`, bit 0 flips `z`).

  `tgt σ` is an involution without fixed points, and for a fixed device the seven slots reach the
  seven other devices.  `slot j c` is the slot by which `c` exchanges with the device its signal
  number `j` goes to; `jof σ c` is the inverse reading.  Everything here is decided by running
  over the 8 × 7 cases.
-/
import Mathlib.Data.Fin.Basic
import Mathlib.Logic.Equiv.Defs
import Mathlib.Data.Fintype.Basic
import Mathlib.Data.Fintype.Prod

namespace Cert.A2A

/-- The coordinate masks of the seven slots, in the kernel's order. -/
def mask (σ : Fin 7) : Nat := [7, 6, 5, 3, 4, 2, 1].getD σ.val 0

/-- Slot `σ`'s peer of device `c`: the coordinates of `c` with the mask's bits flipped. -/
def tgt (σ : Fin 7) (c : Fin 8) : Fin 8 :=
  let z := c.val / 4
  let q := c.val % 4
  let y := q / 2
  let x := (q % 2) ^^^ y
  let m := mask σ
  let tx := x ^^^ ((m >>> 2) &&& 1)
  let ty := y ^^^ ((m >>> 1) &&& 1)
  let tz := z ^^^ (m &&& 1)
  ⟨(tz * 4 + ty * 2 + (tx ^^^ ty)) % 8, Nat.mod_lt _ (by decide)⟩

/-- The device signal number `j` of the entry handshake goes to. -/
def bsig (j : Fin 7) (c : Fin 8) : Fin 8 := ⟨(c.val + j.val + 1) % 8, Nat.mod_lt _ (by decide)⟩

/-- The slot by which `c` exchanges with `bsig j c`. -/
def slot (j : Fin 7) (c : Fin 8) : Fin 7 :=
  ((List.finRange 7).find? fun σ => tgt σ c = bsig j c).getD 0

/-- The signal number by which `c` reaches `tgt σ c`. -/
def jof (σ : Fin 7) (c : Fin 8) : Fin 7 :=
  ((List.finRange 7).find? fun j => bsig j c = tgt σ c).getD 0

theorem tgt_tgt : ∀ (σ : Fin 7) (c : Fin 8), tgt σ (tgt σ c) = c := by decide
theorem tgt_ne : ∀ (σ : Fin 7) (c : Fin 8), tgt σ c ≠ c := by decide
theorem tgt_inj : ∀ (c : Fin 8) (σ σ' : Fin 7), tgt σ c = tgt σ' c → σ = σ' := by decide
theorem tgt_slot : ∀ (j : Fin 7) (c : Fin 8), tgt (slot j c) c = bsig j c := by decide
theorem tgt_slot_bsig : ∀ (j : Fin 7) (c : Fin 8), tgt (slot j c) (bsig j c) = c := by decide
theorem bsig_jof : ∀ (σ : Fin 7) (c : Fin 8), bsig (jof σ c) c = tgt σ c := by decide
theorem slot_jof : ∀ (σ : Fin 7) (c : Fin 8), slot (jof σ c) c = σ := by decide
theorem jof_slot : ∀ (j : Fin 7) (c : Fin 8), jof (slot j c) c = j := by decide
theorem bsig_ne : ∀ (j : Fin 7) (c : Fin 8), bsig j c ≠ c := by decide
theorem bsig_inj : ∀ (c : Fin 8) (j j' : Fin 7), bsig j c = bsig j' c → j = j' := by decide
/-- Every device other than `c` is some slot's peer of `c`. -/
theorem exists_tgt : ∀ (c b : Fin 8), b ≠ c → ∃ σ : Fin 7, tgt σ c = b := by decide

/-- The seven slots of a device, reordered by the signal that reaches the same peer. -/
def slotEquiv (c : Fin 8) : Fin 7 ≃ Fin 7 := ⟨fun j => slot j c, fun σ => jof σ c, fun j => jof_slot j c, fun σ => slot_jof σ c⟩

/-- Slot `σ`'s exchange as a permutation of the devices. -/
def tgtEquiv (σ : Fin 7) : Fin 8 ≃ Fin 8 := ⟨tgt σ, tgt σ, tgt_tgt σ, tgt_tgt σ⟩

/-- A handshake signal `(c, j)` is the duty `(bsig j c, slot j c)` of the receiver's cell: the pairing is a
    permutation of device–index pairs, with inverse `(d, δ) ↦ (tgt δ d, jof δ (tgt δ d))`. -/
def sigEquiv : Fin 8 × Fin 7 ≃ Fin 8 × Fin 7 where
  toFun p := (bsig p.2 p.1, slot p.2 p.1)
  invFun p := (tgt p.2 p.1, jof p.2 (tgt p.2 p.1))
  left_inv := by decide
  right_inv := by decide

end Cert.A2A
-- ==== Proof.Kernel.Chains.lean ====
/-
  The printed device chains and offset chains of the kernel in closed form over the mesh maps:
  the seven handshake signals address `bsig j c`, the seven transfers `tgt σ c`; the column block of
  `w` a transfer's product reads is the peer's, `256 · tgt σ c`, the one the local product reads is the
  device's own; the row block of the result a received block is stored at is the peer's.
-/
import proofs.«900795_g7700000000000796_dist_gemm_a2a_m2048_k2048_n2048_f32_none_v7x_i8_1_alg».proof.Proof.Mesh8
import proofs.«900795_g7700000000000796_dist_gemm_a2a_m2048_k2048_n2048_f32_none_v7x_i8_1_alg».proof.Proof.Gen.Kernel

set_option Elab.async false

namespace Cert.Kernel.A2A

open Idealize.ShloMosaic Idealize.SL.Sem Cert.Kernel Cert.Kernel.Gen Cert.A2A
open Facts₀ Facts

theorem dev_sig0 : ∀ c : Dev nD, (⟨k0_dev1 c, Facts₀.k0_dev1_lt c⟩ : Dev nD) = bsig 0 c := by decide +kernel
theorem dev_sig1 : ∀ c : Dev nD, (⟨k0_dev2 c, Facts₀.k0_dev2_lt c⟩ : Dev nD) = bsig 1 c := by decide +kernel
theorem dev_sig2 : ∀ c : Dev nD, (⟨k0_dev3 c, Facts₀.k0_dev3_lt c⟩ : Dev nD) = bsig 2 c := by decide +kernel
theorem dev_sig3 : ∀ c : Dev nD, (⟨k0_dev4 c, Facts₀.k0_dev4_lt c⟩ : Dev nD) = bsig 3 c := by decide +kernel
theorem dev_sig4 : ∀ c : Dev nD, (⟨k0_dev5 c, Facts₀.k0_dev5_lt c⟩ : Dev nD) = bsig 4 c := by decide +kernel
theorem dev_sig5 : ∀ c : Dev nD, (⟨k0_dev6 c, Facts₀.k0_dev6_lt c⟩ : Dev nD) = bsig 5 c := by decide +kernel
theorem dev_sig6 : ∀ c : Dev nD, (⟨k0_dev7 c, Facts₀.k0_dev7_lt c⟩ : Dev nD) = bsig 6 c := by decide +kernel
theorem dev_tgt0 : ∀ c : Dev nD, (⟨k0_dev8 c, Facts₀.k0_dev8_lt c⟩ : Dev nD) = tgt 0 c := by decide +kernel
theorem dev_tgt1 : ∀ c : Dev nD, (⟨k0_dev9 c, Facts₀.k0_dev9_lt c⟩ : Dev nD) = tgt 1 c := by decide +kernel
theorem dev_tgt2 : ∀ c : Dev nD, (⟨k0_dev10 c, Facts₀.k0_dev10_lt c⟩ : Dev nD) = tgt 2 c := by decide +kernel
theorem dev_tgt3 : ∀ c : Dev nD, (⟨k0_dev11 c, Facts₀.k0_dev11_lt c⟩ : Dev nD) = tgt 3 c := by decide +kernel
theorem dev_tgt4 : ∀ c : Dev nD, (⟨k0_dev12 c, Facts₀.k0_dev12_lt c⟩ : Dev nD) = tgt 4 c := by decide +kernel
theorem dev_tgt5 : ∀ c : Dev nD, (⟨k0_dev13 c, Facts₀.k0_dev13_lt c⟩ : Dev nD) = tgt 5 c := by decide +kernel
theorem dev_tgt6 : ∀ c : Dev nD, (⟨k0_dev14 c, Facts₀.k0_dev14_lt c⟩ : Dev nD) = tgt 6 c := by decide +kernel

/-- The columns of `w` slot `σ`'s product reads: the peer's block. -/
theorem off1_eq : ∀ (c : Dev nD) (σ : Fin 7),
    k0_off1 c (k0_off1_at σ).1 (k0_off1_at σ).2.1 (k0_off1_at σ).2.2 = ![0, 256 * (tgt σ c).val] := by decide +kernel
/-- The rows of the result slot `σ`'s received block is stored at: the peer's block. -/
theorem off4_eq : ∀ (c : Dev nD) (σ : Fin 7),
    k0_off4 c (k0_off4_at σ).1 (k0_off4_at σ).2.1 (k0_off4_at σ).2.2 = ![256 * (tgt σ c).val, 0] := by decide +kernel

end Cert.Kernel.A2A
-- ==== Proof.Kernel.Proto.lean ====
/-
  The cross-device protocol of the all-to-all product, as a schedule of the rounds library, and the pipeline's
  proof data over it.

  Device `c` holds its 256 rows `x_c` of `x` and a copy of `w`.  For each slot `σ` it forms the
  256 × 256 product of `x_c` with the column block of `w` that belongs to its peer `tgt σ c`, narrows it,
  and copies it into the peer's landing buffer `σ`; it keeps the product with its own column block.  What lands
  in its own landing buffer `σ` is therefore the peer's rows times the device's own columns, and it is
  stored widened at the peer's row block of the result.

  Cells, one round each.  The barrier cell of `d` has seven duties of one unit: duty `δ` is paid by
  `tgt δ d` and hands `d` that device's landing buffer `δ` (the buffer `d` is about to fill) together with the
  fact that the buffer's receive cell has reached round 0.  A send cell has one duty, paid by the copy's
  reading end: it hands the send buffer back.  A receive cell has one duty, paid by the copy's writing end on
  the peer: it hands the landing buffer holding the peer's product.
  Levels: barrier cells 1, receive cells 2, everything else 0 — a device waits on its barrier owing only
  receive credit, and on its transfers owing nothing.
-/
import proofs.«900795_g7700000000000796_dist_gemm_a2a_m2048_k2048_n2048_f32_none_v7x_i8_1_alg».proof.Proof.Kernel.Chains
import proofs.«900795_g7700000000000796_dist_gemm_a2a_m2048_k2048_n2048_f32_none_v7x_i8_1_alg».proof.Proof.Gen.Kernel.Skeleton
import proofs.«900795_g7700000000000796_dist_gemm_a2a_m2048_k2048_n2048_f32_none_v7x_i8_1_alg».proof.Proof.Gen.Kernel.Launch
import Idealize.ShloMosaic.Lib.Pipeline.Launch
import Idealize.ShloMosaic.Lib.Pipeline.Kit
import Idealize.ShloMosaic.Lib.Tactic
import Idealize.ShloMosaic.Lib.ValueIdx

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, duties named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers, semaphores, cells -/

/-- Slot `σ`'s send buffer and landing buffer. -/
abbrev sbuf : Fin 7 → Ref sig .tc
  | ⟨0, _⟩ => cc0_scratch0 | ⟨1, _⟩ => cc0_scratch1 | ⟨2, _⟩ => cc0_scratch2 | ⟨3, _⟩ => cc0_scratch3
  | ⟨4, _⟩ => cc0_scratch4 | ⟨5, _⟩ => cc0_scratch5 | ⟨6, _⟩ => cc0_scratch6
  | ⟨_ + 7, h⟩ => absurd h (Nat.not_lt.2 (Nat.le_add_left _ _))
abbrev rbuf : Fin 7 → Ref sig .tc
  | ⟨0, _⟩ => cc0_scratch7 | ⟨1, _⟩ => cc0_scratch8 | ⟨2, _⟩ => cc0_scratch9 | ⟨3, _⟩ => cc0_scratch10
  | ⟨4, _⟩ => cc0_scratch11 | ⟨5, _⟩ => cc0_scratch12 | ⟨6, _⟩ => cc0_scratch13
  | ⟨_ + 7, h⟩ => absurd h (Nat.not_lt.2 (Nat.le_add_left _ _))

/-- A 256 × 256 block of narrow floats: what a send buffer or a landing buffer holds. -/
abbrev Blk (F : FTy → Type) : Type := Vec F S256x256 .bf16

abbrev barS : Sem sig := (SemArray.scalar (sig.barrier 0 rfl) : Sems sig S_).sem
abbrev sendSem (σ : Fin 7) : DmaSem sig := ⟨3 + σ.val, by have := σ.isLt; show _ < 17; omega⟩
abbrev recvSem (σ : Fin 7) : DmaSem sig := ⟨10 + σ.val, by have := σ.isLt; show _ < 17; omega⟩

abbrev barCell (c : Dev nD) : GSem nD τ sig := ((c : Thread nD τ), .reg barS)
abbrev sendCell (c : Dev nD) (σ : Fin 7) : GSem nD τ sig := ((c : Thread nD τ), .dma (sendSem σ))
abbrev recvCell (c : Dev nD) (σ : Fin 7) : GSem nD τ sig := ((c : Thread nD τ), .dma (recvSem σ))

/-- The kernel's own (scoped) semaphores as the launch indexes them: the seven send ones, then the seven receive ones; -/
abbrev osem : Fin 14 → SemLoc sig := fun k => .dma ⟨3 + k.val, by have := k.isLt; show _ < 17; omega⟩
/-- all fifteen of the protocol's: the barrier, then those. -/
abbrev csem : Fin 15 → SemLoc sig := fun k => if h : k.val = 0 then .reg barS else .dma ⟨2 + k.val, by have := k.isLt; show _ < 17; omega⟩
abbrev kcell (ck : Dev nD × Fin 15) : GSem nD τ sig := ((ck.1 : Thread nD τ), csem ck.2)
abbrev sIdx (σ : Fin 7) : Fin 15 := ⟨1 + σ.val, by omega⟩
abbrev rIdx (σ : Fin 7) : Fin 15 := ⟨8 + σ.val, by omega⟩

/-- The credit of one 256 × 256 block of narrow floats. -/
abbrev N : ℕ := (Memref.whole cc0_scratch7 : Memref sig .tc .vmem S256x256 .bf16).view.dmaCredit
theorem N_pos : 0 < N := View.dmaCredit_pos _ (by decide)

/-- A send buffer / a landing buffer of device `c` whole at contents `f`. -/
def sPts (c : Dev nD) : (σ : Fin 7) → Blk F → sProp 𝕄
  | ⟨0, _⟩, f => (((c : Thread nD τ).loc cc0_scratch0) ↦{fullShare} f)
  | ⟨1, _⟩, f => (((c : Thread nD τ).loc cc0_scratch1) ↦{fullShare} f)
  | ⟨2, _⟩, f => (((c : Thread nD τ).loc cc0_scratch2) ↦{fullShare} f)
  | ⟨3, _⟩, f => (((c : Thread nD τ).loc cc0_scratch3) ↦{fullShare} f)
  | ⟨4, _⟩, f => (((c : Thread nD τ).loc cc0_scratch4) ↦{fullShare} f)
  | ⟨5, _⟩, f => (((c : Thread nD τ).loc cc0_scratch5) ↦{fullShare} f)
  | ⟨6, _⟩, f => (((c : Thread nD τ).loc cc0_scratch6) ↦{fullShare} f)
  | ⟨_ + 7, h⟩, _ => absurd h (Nat.not_lt.2 (Nat.le_add_left _ _))
def rPts (c : Dev nD) : (σ : Fin 7) → Blk F → sProp 𝕄
  | ⟨0, _⟩, f => (((c : Thread nD τ).loc cc0_scratch7) ↦{fullShare} f)
  | ⟨1, _⟩, f => (((c : Thread nD τ).loc cc0_scratch8) ↦{fullShare} f)
  | ⟨2, _⟩, f => (((c : Thread nD τ).loc cc0_scratch9) ↦{fullShare} f)
  | ⟨3, _⟩, f => (((c : Thread nD τ).loc cc0_scratch10) ↦{fullShare} f)
  | ⟨4, _⟩, f => (((c : Thread nD τ).loc cc0_scratch11) ↦{fullShare} f)
  | ⟨5, _⟩, f => (((c : Thread nD τ).loc cc0_scratch12) ↦{fullShare} f)
  | ⟨6, _⟩, f => (((c : Thread nD τ).loc cc0_scratch13) ↦{fullShare} f)
  | ⟨_ + 7, h⟩, _ => absurd h (Nat.not_lt.2 (Nat.le_add_left _ _))

/-! ## Contents -/

/-- Device `c`'s staged rows of `x` and staged copy of `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

abbrev xM : Memref sig .tc .vmem S256x2048 .f32 := Memref.whole cc0_stg0_0
abbrev wM : Memref sig .tc .vmem S2048x2048 .f32 := Memref.whole cc0_stg1_0
abbrev oM : Memref sig .tc .vmem S2048x256 .f32 := Memref.whole cc0_stg2_0

/-- The rows as the body's first load reads them. -/
def xv (c : Dev nD) : FVec F S256x2048 .f32 :=
  k0_pay1 ((xM : Memref sig .tc .vmem S256x2048 .f32).view.readAt (Elt F)
    (Rect.unit (s := S256x2048) ![0, 0] S256x2048.size inb_S256x2048_S256x2048_0_0).toLoadRect (xstg m ρ c))
/-- The column block of `w` at offsets `o`, as a load of the body reads it. -/
def wcolAt (c : Dev nD) (o : Fin 2 → ℕ) (h : ∀ a, o a + S2048x256.size a ≤ S2048x2048.size a) : Vec F S2048x256 .f32 :=
  (wM : Memref sig .tc .vmem S2048x2048 .f32).view.readAt (Elt F) (Rect.unit (s := S2048x2048) o S2048x256.size h).toLoadRect (wstg m ρ c)
/-- Slot `σ`'s column block: the peer's. -/
def wcol (c : Dev nD) (σ : Fin 7) : Vec F S2048x256 .f32 :=
  wcolAt m ρ c (k0_off1 c (k0_off1_at σ).1 (k0_off1_at σ).2.1 (k0_off1_at σ).2.2) (k0_off1_inb c σ)

/-- What device `c` puts in its send buffer `σ`: its rows times the peer's columns, narrowed. -/
def sent (c : Dev nD) : Fin 7 → Blk F
  | ⟨0, _⟩ => k0_pay3 (xv m ρ c) (k0_pay2 (wcol m ρ c 0))
  | ⟨1, _⟩ => k0_pay4 (xv m ρ c) (wcol m ρ c 1)
  | ⟨2, _⟩ => k0_pay5 (xv m ρ c) (wcol m ρ c 2)
  | ⟨3, _⟩ => k0_pay6 (xv m ρ c) (wcol m ρ c 3)
  | ⟨4, _⟩ => k0_pay7 (xv m ρ c) (wcol m ρ c 4)
  | ⟨5, _⟩ => k0_pay8 (xv m ρ c) (wcol m ρ c 5)
  | ⟨6, _⟩ => k0_pay9 (xv m ρ c) (wcol m ρ c 6)
  | ⟨_ + 7, h⟩ => absurd h (Nat.not_lt.2 (Nat.le_add_left _ _))

/-- What lands in device `c`'s landing buffer `σ`: the peer's send buffer `σ`. -/
def landed (c : Dev nD) (σ : Fin 7) : Blk F := sent m ρ (tgt σ c) σ

/-- The product device `c` keeps: its rows times its own columns. -/
def own (c : Dev nD) : FVec F S256x256 .f32 :=
  k0_pay10 (xv m ρ c) (wcolAt m ρ c (k0_off2 c) (k0_off2_inb c))

/-- The landed block of slot `σ`, widened, as it is stored in the result. -/
def widened (c : Dev nD) : Fin 7 → FVec F S256x256 .f32
  | ⟨0, _⟩ => k0_pay11 (landed m ρ c 0) | ⟨1, _⟩ => k0_pay12 (landed m ρ c 1) | ⟨2, _⟩ => k0_pay13 (landed m ρ c 2)
  | ⟨3, _⟩ => k0_pay14 (landed m ρ c 3) | ⟨4, _⟩ => k0_pay15 (landed m ρ c 4) | ⟨5, _⟩ => k0_pay16 (landed m ρ c 5)
  | ⟨6, _⟩ => k0_pay17 (landed m ρ c 6)
  | ⟨_ + 7, h⟩ => absurd h (Nat.not_lt.2 (Nat.le_add_left _ _))

/-- The slot by which `c` exchanges with device `b` (any slot if `b = c`). -/
def slotTo (c b : Fin 8) : Fin 7 := ((List.finRange 7).find? fun σ => tgt σ c = b).getD 0
theorem tgt_slotTo : ∀ c b : Fin 8, b ≠ c → tgt (slotTo c b) c = b := by decide
theorem slotTo_tgt : ∀ (c : Fin 8) (σ : Fin 7), slotTo c (tgt σ c) = σ := by decide

/-- The row block an index of the result lies in, and its place inside the block. -/
def rowBlk (i : S2048x256.Idx) : Fin 8 := ⟨(i 0).val / 256, by have := (i 0).isLt; exact Nat.div_lt_of_lt_mul (by simpa using this)⟩
def inBlk (i : S2048x256.Idx) : S256x256.Idx := ValueIdx.ix2 (⟨(i 0).val % 256, Nat.mod_lt _ (by decide)⟩ : Fin 256) (i 1)

/-- The result block device `c` leaves staged: at its own row block its own product, at a peer's row block
    the peer's rows times its own columns. -/
def outAt (c : Dev nD) : (cc0_stg2_0 : Ref sig .tc).ty.Contents (Elt F) := fun i =>
  if rowBlk i = c then own m ρ c (inBlk i) else widened m ρ c (slotTo c (rowBlk i)) (inBlk i)

/-! ## The schedule -/

/-- Duty `δ` of `d`'s barrier cell: the payer `tgt δ d`'s landing buffer `δ`, and its receive cell at round 0. -/
def barPay (d : Dev nD) (δ : Fin 7) : sProp 𝕄 :=
  iprop((∃ f, rPts (F := F) (tgt δ d) δ f) ∗ reached ER (recvCell (tgt δ d) δ) 0)
def recvPay (c : Dev nD) (σ : Fin 7) : sProp 𝕄 := rPts c σ (landed m ρ c σ)
/-- The send cell's duty hands the send buffer back; nobody reads it again, so at some contents. -/
def sendPay (c : Dev nD) (σ : Fin 7) : sProp 𝕄 := iprop(∃ f, sPts (F := F) c σ f)

abbrev IsBar (g : GSem nD τ sig) : Prop := g.1.2 = .tc ∧ g.2 = .reg barS
abbrev IsXfer (g : GSem nD τ sig) : Prop := g.1.2 = .tc ∧ ∃ q : DmaSem sig, g.2 = .dma q ∧ 3 ≤ q.val

/-- The slot of a transfer semaphore. -/
def slotOf (q : DmaSem sig) : Fin 7 := ⟨(q.val - 3) % 7, Nat.mod_lt _ (by decide)⟩

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := match g.2 with
    | .reg _ => barPay g.1.1 d
    | .dma q => if 10 ≤ q.val then recvPay m ρ g.1.1 (slotOf q) else if 3 ≤ q.val then sendPay (F := F) g.1.1 (slotOf q) else iprop(emp)
  amount_pos g _ _ _ := by
    by_cases h : g.2 = .reg barS
    · rw [if_pos h]; exact Nat.one_pos
    · rw [if_neg h]; exact N_pos

/-! ### The schedule's payloads can be stored in an invariant -/

omit [FloatOps F] in
instance sPts_storable (c : Dev nD) : (σ : Fin 7) → (f : Blk F) → BI.Storable (upEmb : UEmb _ 𝕄) (sPts (F := F) c σ f)
  | ⟨0, _⟩, f => (inferInstance : BI.Storable upEmb ((((c : Thread nD τ).loc cc0_scratch0) ↦{fullShare} f : sProp 𝕄)))
  | ⟨1, _⟩, f => (inferInstance : BI.Storable upEmb ((((c : Thread nD τ).loc cc0_scratch1) ↦{fullShare} f : sProp 𝕄)))
  | ⟨2, _⟩, f => (inferInstance : BI.Storable upEmb ((((c : Thread nD τ).loc cc0_scratch2) ↦{fullShare} f : sProp 𝕄)))
  | ⟨3, _⟩, f => (inferInstance : BI.Storable upEmb ((((c : Thread nD τ).loc cc0_scratch3) ↦{fullShare} f : sProp 𝕄)))
  | ⟨4, _⟩, f => (inferInstance : BI.Storable upEmb ((((c : Thread nD τ).loc cc0_scratch4) ↦{fullShare} f : sProp 𝕄)))
  | ⟨5, _⟩, f => (inferInstance : BI.Storable upEmb ((((c : Thread nD τ).loc cc0_scratch5) ↦{fullShare} f : sProp 𝕄)))
  | ⟨6, _⟩, f => (inferInstance : BI.Storable upEmb ((((c : Thread nD τ).loc cc0_scratch6) ↦{fullShare} f : sProp 𝕄)))
  | ⟨_ + 7, h⟩, _ => absurd h (Nat.not_lt.2 (Nat.le_add_left _ _))
omit [FloatOps F] in
instance rPts_storable (c : Dev nD) : (σ : Fin 7) → (f : Blk F) → BI.Storable (upEmb : UEmb _ 𝕄) (rPts (F := F) c σ f)
  | ⟨0, _⟩, f => (inferInstance : BI.Storable upEmb ((((c : Thread nD τ).loc cc0_scratch7) ↦{fullShare} f : sProp 𝕄)))
  | ⟨1, _⟩, f => (inferInstance : BI.Storable upEmb ((((c : Thread nD τ).loc cc0_scratch8) ↦{fullShare} f : sProp 𝕄)))
  | ⟨2, _⟩, f => (inferInstance : BI.Storable upEmb ((((c : Thread nD τ).loc cc0_scratch9) ↦{fullShare} f : sProp 𝕄)))
  | ⟨3, _⟩, f => (inferInstance : BI.Storable upEmb ((((c : Thread nD τ).loc cc0_scratch10) ↦{fullShare} f : sProp 𝕄)))
  | ⟨4, _⟩, f => (inferInstance : BI.Storable upEmb ((((c : Thread nD τ).loc cc0_scratch11) ↦{fullShare} f : sProp 𝕄)))
  | ⟨5, _⟩, f => (inferInstance : BI.Storable upEmb ((((c : Thread nD τ).loc cc0_scratch12) ↦{fullShare} f : sProp 𝕄)))
  | ⟨6, _⟩, f => (inferInstance : BI.Storable upEmb ((((c : Thread nD τ).loc cc0_scratch13) ↦{fullShare} f : sProp 𝕄)))
  | ⟨_ + 7, h⟩, _ => absurd h (Nat.not_lt.2 (Nat.le_add_left _ _))

instance sched_payload_storable (g : GSem nD τ sig) (r : ℕ) (d : Fin 7) :
    BI.Storable (upEmb : UEmb _ 𝕄) ((sched (F := F) m ρ).payload g r d) := by
  show BI.Storable upEmb (match g.2 with
    | .reg _ => barPay g.1.1 d
    | .dma q => if 10 ≤ q.val then recvPay m ρ g.1.1 (slotOf q) else if 3 ≤ q.val then sendPay (F := F) g.1.1 (slotOf q) else iprop(emp))
  unfold barPay recvPay sendPay
  (repeat' split) <;> infer_instance

/-! ## The schedule's tables -/

section Sched
variable (c : Dev nD) (σ : Fin 7)

omit [FloatOps F] in
theorem send_ne_bar : (SemLoc.dma (sendSem σ) : SemLoc sig) ≠ .reg barS := fun h => by cases h
omit [FloatOps F] in
theorem recv_ne_bar : (SemLoc.dma (recvSem σ) : SemLoc sig) ≠ .reg barS := fun h => by cases h
omit [FloatOps F] in
theorem isXfer_send : IsXfer (sendCell c σ) := ⟨rfl, sendSem σ, rfl, by show 3 ≤ 3 + σ.val; omega⟩
omit [FloatOps F] in
theorem isXfer_recv : IsXfer (recvCell c σ) := ⟨rfl, recvSem σ, rfl, by show 3 ≤ 10 + σ.val; omega⟩
omit [FloatOps F] in
theorem not_bar_send : ¬ IsBar (sendCell c σ) := fun h => send_ne_bar σ h.2
omit [FloatOps F] in
theorem not_bar_recv : ¬ IsBar (recvCell c σ) := fun h => recv_ne_bar σ h.2
omit [FloatOps F] in
theorem slotOf_send : slotOf (sendSem σ) = σ := Fin.ext (by show (3 + σ.val - 3) % 7 = σ.val; have := σ.isLt; omega)
omit [FloatOps F] in
theorem slotOf_recv : slotOf (recvSem σ) = σ := Fin.ext (by show (10 + σ.val - 3) % 7 = σ.val; have := σ.isLt; omega)

theorem duties_bar : (sched (F := F) m ρ).duties (barCell c) 0 = Finset.univ := by dsimp only [sched]; exact if_pos ⟨rfl, rfl, rfl⟩
theorem duties_send : (sched (F := F) m ρ).duties (sendCell c σ) 0 = {0} := by
  dsimp only [sched]; rw [if_neg (fun h => not_bar_send c σ h.2)]; exact if_pos ⟨rfl, isXfer_send c σ⟩
theorem duties_recv : (sched (F := F) m ρ).duties (recvCell c σ) 0 = {0} := by
  dsimp only [sched]; rw [if_neg (fun h => not_bar_recv c σ h.2)]; exact if_pos ⟨rfl, isXfer_recv c σ⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 7) : (sched (F := F) m ρ).amount (barCell c) 0 d = 1 := by dsimp only [sched]; exact if_pos rfl
theorem amount_send (d : Fin 7) : (sched (F := F) m ρ).amount (sendCell c σ) 0 d = N := by dsimp only [sched]; exact if_neg (send_ne_bar σ)
theorem amount_recv (d : Fin 7) : (sched (F := F) m ρ).amount (recvCell c σ) 0 d = N := by dsimp only [sched]; exact if_neg (recv_ne_bar σ)

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c σ) 0 = N := by
  unfold Schedule.expect Schedule.amountOf; rw [duties_send, Finset.sum_singleton, amount_send]
theorem expect_recv : (sched (F := F) m ρ).expect (recvCell c σ) 0 = N := by
  unfold Schedule.expect Schedule.amountOf; rw [duties_recv, Finset.sum_singleton, amount_recv]

theorem payload_bar (δ : Fin 7) : (sched (F := F) m ρ).payload (barCell c) 0 δ = barPay c δ := rfl
theorem payload_send (d : Fin 7) : (sched (F := F) m ρ).payload (sendCell c σ) 0 d = sendPay (F := F) c σ := by
  show (if 10 ≤ (sendSem σ).val then recvPay m ρ c (slotOf (sendSem σ)) else if 3 ≤ (sendSem σ).val then sendPay (F := F) c (slotOf (sendSem σ)) else iprop(emp)) = _
  rw [if_neg (by show ¬ 10 ≤ 3 + σ.val; have := σ.isLt; omega), if_pos (by show 3 ≤ 3 + σ.val; omega), slotOf_send]
theorem payload_recv (d : Fin 7) : (sched (F := F) m ρ).payload (recvCell c σ) 0 d = recvPay m ρ c σ := by
  show (if 10 ≤ (recvSem σ).val then recvPay m ρ c (slotOf (recvSem σ)) else if 3 ≤ (recvSem σ).val then sendPay (F := F) c (slotOf (recvSem σ)) else iprop(emp)) = _
  rw [if_pos (by show 10 ≤ 10 + σ.val; omega), slotOf_recv]

/-- The whole round of the barrier cell: the seven peers' landing buffers. -/
theorem rest_bar : bigSep ((sched (F := F) m ρ).duties (barCell c) 0 \ ∅) (fun d => (sched (F := F) m ρ).payload (barCell c) 0 d)
    = bigSep Finset.univ (fun δ => barPay (F := F) c δ) := by
  rw [Finset.sdiff_empty, duties_bar]; rfl
theorem rest_send : bigSep ((sched (F := F) m ρ).duties (sendCell c σ) 0 \ ∅) (fun d => (sched (F := F) m ρ).payload (sendCell c σ) 0 d) = sendPay (F := F) c σ := by
  rw [Finset.sdiff_empty, duties_send, bigSep_singleton, payload_send]
theorem rest_recv : bigSep ((sched (F := F) m ρ).duties (recvCell c σ) 0 \ ∅) (fun d => (sched (F := F) m ρ).payload (recvCell c σ) 0 d) = recvPay m ρ c σ := by
  rw [Finset.sdiff_empty, duties_recv, bigSep_singleton, payload_recv]

end Sched

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## What each device owes at launch; the levels -/

/-- The credit of slot `σ`'s transfer, owed to the peer's receive cell; the unit of signal `j`, owed to its target's barrier cell. -/
abbrev tR (c : Dev nD) (σ : Fin 7) : CellTallies nD τ sig Unit := tallyAt (recvCell (tgt σ c) σ) () N
abbrev tB (c : Dev nD) (j : Fin 7) : CellTallies nD τ sig Unit := tallyAt (barCell (bsig j c)) () 1

/-- The transfers' credit, summed so that slot 0's is the last summand, slot 1's the one before, …: each transfer
    peels the last one left. -/
def Orecv (c : Dev nD) : CellTallies nD τ sig Unit := (0 : CellTallies nD τ sig Unit) + tR c 6 + tR c 5 + tR c 4 + tR c 3 + tR c 2 + tR c 1 + tR c 0
/-- Everything owed at launch: the transfers' credit, then the seven handshake units, signal 0's last. -/
def O₀ (c : Dev nD) : CellTallies nD τ sig Unit := Orecv c + tB c 6 + tB c 5 + tB c 4 + tB c 3 + tB c 2 + tB c 1 + tB c 0

def L (g : GSem nD τ sig) : Finset Unit := if g.1.2 = .tc then {()} else ∅
/-- Whether a semaphore is one of the seven receive semaphores. -/
def isRecv : SemLoc sig → Bool
  | .dma q => decide (10 ≤ q.val)
  | _ => false
/-- barrier cells at 1, receive cells at 2, everything else (staging, send) at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from, and the pipeline's proof data -/

/-- Everything of the protocol's ghost state device `c`'s body uses, under the names `K` the launch allocated the
    cells' invariants at: the invariants of its own fifteen cells, of the seven barrier cells it signals and of the
    seven receive cells it fills; its positions at round 0 of its own cells; that round 0 is reached of every
    cell it pays, of its send cells, and of its own receive cells (read in the order the handshake hands their
    buffers out); and the duty tokens it pays with. -/
def ghost (K : Dev nD × Fin 15 → ℕ) (c : Dev nD) : sProp 𝕄 :=
  iprop(cellInv ER (sched m ρ) (K (c, 0)) (barCell c)
    ∗ (bigSep Finset.univ fun σ : Fin 7 => cellInv ER (sched m ρ) (K (c, sIdx σ)) (sendCell c σ))
    ∗ (bigSep Finset.univ fun σ : Fin 7 => cellInv ER (sched m ρ) (K (c, rIdx σ)) (recvCell c σ))
    ∗ (bigSep Finset.univ fun j : Fin 7 => cellInv ER (sched m ρ) (K (bsig j c, 0)) (barCell (bsig j c)))
    ∗ (bigSep Finset.univ fun σ : Fin 7 => cellInv ER (sched m ρ) (K (tgt σ c, rIdx σ)) (recvCell (tgt σ c) σ))
    ∗ atPos ER (barCell c) 0 ∅ 0
    ∗ (bigSep Finset.univ fun σ : Fin 7 => atPos ER (sendCell c σ) 0 ∅ 0)
    ∗ (bigSep Finset.univ fun σ : Fin 7 => atPos ER (recvCell c σ) 0 ∅ 0)
    ∗ (bigSep Finset.univ fun j : Fin 7 => reached ER (barCell (bsig j c)) 0)
    ∗ (bigSep Finset.univ fun σ : Fin 7 => reached ER (recvCell (tgt σ c) σ) 0)
    ∗ (bigSep Finset.univ fun σ : Fin 7 => reached ER (sendCell c σ) 0)
    ∗ (bigSep Finset.univ fun j : Fin 7 => reached ER (recvCell c (slot j c)) 0)
    ∗ (bigSep Finset.univ fun j : Fin 7 => dutyTok ER (barCell (bsig j c)) 0 (slot j c))
    ∗ (bigSep Finset.univ fun σ : Fin 7 => dutyTok ER (recvCell (tgt σ c) σ) 0 (0 : Fin 7))
    ∗ (bigSep Finset.univ fun σ : Fin 7 => dutyTok ER (sendCell c σ) 0 (0 : Fin 7)))

/-- What device `c`'s body starts from: that at some names, the credit tokens of its barrier cell (seven units) and of
    its seven receive cells, and the level facts. -/
def start (c : Dev nD) : sProp 𝕄 :=
  iprop((∃ K, ghost m ρ K c) ∗ cred (tallyAt (barCell c) () 7)
    ∗ (bigSep Finset.univ fun σ : Fin 7 => cred (tallyAt (recvCell c σ) () N)) ∗ levAts L lv)

/-- Before the point: that, the seven send buffers at some contents, and the seven landing buffers at some contents,
    read in the order the handshake hands them out. -/
def Φ₀ (c : Dev nD) : sProp 𝕄 :=
  iprop(start m ρ c ∗ (bigSep Finset.univ fun σ : Fin 7 => iprop(∃ f, sPts (F := F) c σ f))
    ∗ (bigSep Finset.univ fun j : Fin 7 => iprop(∃ f, rPts (F := F) c (slot j c) f)))
/-- After the point: the send buffers back, the landing buffers filled, the fourteen own cells at zero, closed. -/
def Φ₁ (c : Dev nD) : sProp 𝕄 :=
  iprop((bigSep Finset.univ fun σ : Fin 7 => iprop(∃ f, sPts (F := F) c σ f))
    ∗ (bigSep Finset.univ fun σ : Fin 7 => iprop(∃ f, rPts (F := F) c σ f))
    ∗ (bigSep Finset.univ fun k : Fin 14 => semVal ((c : Thread nD τ), osem k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
    | ⟨_ + 3, h⟩ => absurd h (Nat.not_lt.2 (Nat.le_add_left _ _))
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.Kernel.A2A

end
-- ==== Proof.Kernel.Launch.lean ====
/- The launch: the protocol's ghost state funded and dealt, the cells allocated, and the run of @main. -/
import proofs.«900795_g7700000000000796_dist_gemm_a2a_m2048_k2048_n2048_f32_none_v7x_i8_1_alg».proof.Proof.Kernel.Proto

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The fifteen cells of a device and the tokens they mint -/

omit [FloatOps F] in
theorem kcell_zero (c : Dev nD) : kcell (c, 0) = barCell c := rfl
omit [FloatOps F] in
theorem kcell_sIdx (c : Dev nD) (σ : Fin 7) : kcell (c, sIdx σ) = sendCell c σ := by fin_cases σ <;> rfl
omit [FloatOps F] in
theorem kcell_rIdx (c : Dev nD) (σ : Fin 7) : kcell (c, rIdx σ) = recvCell c σ := by fin_cases σ <;> rfl
omit [FloatOps F] in
/-- The cells after the barrier's are the kernel's own fourteen, in the launch's order. -/
theorem kcell_succ (c : Dev nD) (k : Fin 14) : kcell (c, k.succ) = ((c : Thread nD τ), osem k) := by fin_cases k <;> rfl

omit [FloatOps F] in
theorem csem_injective : Function.Injective (csem : Fin 15 → SemLoc sig) := by decide

omit [FloatOps F] in
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- A device's own cells' duty tokens as minted: (device, kind, index) — the barrier cell's seven duties, each send
    cell's one, each receive cell's one. -/
abbrev tokOf (x : Dev nD × Fin 3 × Fin 7) : GSem nD τ sig × ℕ × Fin 7 := match x.2.1 with
  | 0 => (barCell x.1, 0, x.2.2) | 1 => (sendCell x.1 x.2.2, 0, 0) | 2 => (recvCell x.1 x.2.2, 0, 0)

omit [FloatOps F] in
theorem sendSem_inj {i i' : Fin 7} (h : (SemLoc.dma (sendSem i) : SemLoc sig) = .dma (sendSem i')) : i = i' := by
  have h' : 3 + i.val = 3 + i'.val := congrArg Fin.val (SemLoc.dma.inj h)
  exact Fin.ext (by omega)
omit [FloatOps F] in
theorem recvSem_inj {i i' : Fin 7} (h : (SemLoc.dma (recvSem i) : SemLoc sig) = .dma (recvSem i')) : i = i' := by
  have h' : 10 + i.val = 10 + i'.val := congrArg Fin.val (SemLoc.dma.inj h)
  exact Fin.ext (by omega)
omit [FloatOps F] in
theorem send_ne_recv {i i' : Fin 7} : (SemLoc.dma (sendSem i) : SemLoc sig) ≠ .dma (recvSem i') := fun h => by
  have h' : 3 + i.val = 10 + i'.val := congrArg Fin.val (SemLoc.dma.inj h)
  have := i.isLt; omega

omit [FloatOps F] in
theorem tokOf_injective : Function.Injective (tokOf : Dev nD × Fin 3 × Fin 7 → GSem nD τ sig × ℕ × Fin 7) := by
  rintro ⟨c, k, i⟩ ⟨c', k', i'⟩ h
  have h1 : c = c' := by
    have := congrArg (fun x : GSem nD τ sig × ℕ × Fin 7 => x.1.1.1) h
    fin_cases k <;> fin_cases k' <;> exact this
  subst h1
  have hs := congrArg (fun x : GSem nD τ sig × ℕ × Fin 7 => x.1.2) h
  have hd := congrArg (fun x : GSem nD τ sig × ℕ × Fin 7 => x.2.2) h
  have : k = k' ∧ i = i' := by
    fin_cases k <;> fin_cases k'
    · exact ⟨rfl, hd⟩
    · exact absurd hs (fun h' => by cases h')
    · exact absurd hs (fun h' => by cases h')
    · exact absurd hs (fun h' => by cases h')
    · exact ⟨rfl, sendSem_inj hs⟩
    · exact absurd hs send_ne_recv
    · exact absurd hs (fun h' => by cases h')
    · exact absurd hs.symm send_ne_recv
    · exact ⟨rfl, recvSem_inj hs⟩
  obtain ⟨rfl, rfl⟩ := this; rfl
def protoToks : Finset (GSem nD τ sig × ℕ × Fin 7) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun δ : Fin 7 => dutyTok ER (barCell c) 0 δ)
    ∗ (bigSep Finset.univ fun σ : Fin 7 => dutyTok ER (sendCell c σ) 0 (0 : Fin 7))
    ∗ (bigSep Finset.univ fun σ : Fin 7 => dutyTok ER (recvCell c σ) 0 (0 : Fin 7)))

/-- What the launch element deals device `c`. -/
def G (c : Dev nD) : sProp 𝕄 :=
  iprop((bigSep Finset.univ fun k : Fin 15 => roundState ER (sched m ρ) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 15 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks
      exact (bigSep_univ_prod (fun x : Fin 3 × Fin 7 => (dutyTok ER (tokOf (c, x)).1 (tokOf (c, x)).2.1 (tokOf (c, x)).2.2 : sProp 𝕄))).trans
        ((bigSep_fin3 _).trans rfl)
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero, and the cells' invariants allocated -/

omit [FloatOps F] in
theorem bigSep_fin15 (Φ : Fin 15 → sProp 𝕄) : bigSep Finset.univ Φ = iprop(Φ 0 ∗ bigSep Finset.univ fun k : Fin 14 => Φ k.succ) := by
  rw [bigSep_univ_at Φ (0 : Fin 15), show (Finset.univ.erase (0 : Fin 15)) = Finset.univ.map (Fin.succEmb 14) from by decide, bigSep_map]; rfl

omit [FloatOps F] in
/-- A device's fifteen cells: the barrier's, the seven send cells, the seven receive cells. -/
theorem bigSep_cells (Φ : GSem nD τ sig → sProp 𝕄) (c : Dev nD) :
    (bigSep Finset.univ fun k : Fin 15 => Φ (kcell (c, k)))
      = iprop(Φ (barCell c) ∗ (bigSep Finset.univ fun σ : Fin 7 => Φ (sendCell c σ)) ∗ bigSep Finset.univ fun σ : Fin 7 => Φ (recvCell c σ)) := by
  have hs : ∀ σ : Fin 7, kcell (c, ((finSumFinEquiv (Sum.inl σ : Fin 7 ⊕ Fin 7) : Fin 14)).succ) = sendCell c σ := fun σ => by fin_cases σ <;> rfl
  have hr : ∀ σ : Fin 7, kcell (c, ((finSumFinEquiv (Sum.inr σ : Fin 7 ⊕ Fin 7) : Fin 14)).succ) = recvCell c σ := fun σ => by fin_cases σ <;> rfl
  refine (bigSep_fin15 _).trans (congrArg (BI.sep _) ?_)
  refine (bigSep_univ_equiv (finSumFinEquiv : Fin 7 ⊕ Fin 7 ≃ Fin 14) _).trans ((bigSep_univ_sum _).trans ?_)
  exact congrArg₂ BI.sep (bigSep_congr fun σ _ => congrArg Φ (hs σ)) (bigSep_congr fun σ _ => congrArg Φ (hr σ))

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  have h : (bigSep Finset.univ fun k : Fin 15 => semVal (kcell (c, k)) 0 : sProp 𝕄)
      = iprop(semVal (barCell c) 0 ∗ bigSep Finset.univ fun k : Fin 14 => semVal ((c : Thread nD τ), osem k) 0) :=
    (bigSep_fin15 _).trans (congrArg (BI.sep _) (bigSep_congr fun k _ => by
      show (semVal (kcell (c, k.succ)) 0 : sProp 𝕄) = _; rw [kcell_succ]))
  rw [unscopedSems0_eq, h]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The records every device reads, and what stays with each -/

def records (K : Dev nD × Fin 15 → ℕ) : sProp 𝕄 :=
  iprop((bigSep Finset.univ fun ck : Dev nD × Fin 15 => cellInv ER (sched m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem inv_at (K : Dev nD × Fin 15 → ℕ) (ck : Dev nD × Fin 15) : records m ρ K ⊢ cellInv ER (sched m ρ) (K ck) (kcell ck) := by
  have h : (bigSep Finset.univ fun ck : Dev nD × Fin 15 => (cellInv ER (sched m ρ) (K ck) (kcell ck) : sProp 𝕄)) ⊢ cellInv ER (sched m ρ) (K ck) (kcell ck) :=
    bigSep_elim (Finset.mem_univ ck)
  unfold records; iintro ⟨H, -⟩; iapply h; iexact H
theorem reached_at (K : Dev nD × Fin 15 → ℕ) (ck : Dev nD × Fin 15) : records m ρ K ⊢ reached ER (kcell ck) 0 := by
  have h : (bigSep Finset.univ fun ck : Dev nD × Fin 15 => (reached ER (kcell ck) 0 : sProp 𝕄)) ⊢ reached ER (kcell ck) 0 :=
    bigSep_elim (Finset.mem_univ ck)
  unfold records; iintro ⟨-, H⟩; iapply h; iexact H

/-- The tokens of the duties device `c` pays: its seven handshake signals, its seven transfers' landing, its seven transfers' reading. -/
def payToks (c : Dev nD) : sProp 𝕄 :=
  iprop((bigSep Finset.univ fun j : Fin 7 => dutyTok ER (barCell (bsig j c)) 0 (slot j c))
    ∗ (bigSep Finset.univ fun σ : Fin 7 => dutyTok ER (recvCell (tgt σ c) σ) 0 (0 : Fin 7))
    ∗ (bigSep Finset.univ fun σ : Fin 7 => dutyTok ER (sendCell c σ) 0 (0 : Fin 7)))
/-- What stays with device `c`: its positions, and those tokens. -/
def linear (c : Dev nD) : sProp 𝕄 :=
  iprop((atPos ER (barCell c) 0 ∅ 0 ∗ (bigSep Finset.univ fun σ : Fin 7 => atPos ER (sendCell c σ) 0 ∅ 0)
      ∗ (bigSep Finset.univ fun σ : Fin 7 => atPos ER (recvCell c σ) 0 ∅ 0)) ∗ payToks c)

theorem ghost_intro (K : Dev nD × Fin 15 → ℕ) (c : Dev nD) : iprop(records m ρ K ∗ linear c) ⊢ G' m ρ c := by
  unfold linear payToks G' ghost
  iintro ⟨#HR, ⟨HaB, HaS, HaV⟩, HtB, HtV, HtS⟩
  iexists K
  isplitr; · iapply ((inv_at m ρ K (c, 0)).trans (Entails.of_eq (by rw [kcell_zero]))); iexact HR
  isplitr
  · iapply (BI.bigSep_intro_persistent (R := records m ρ K) fun σ _ => (inv_at m ρ K (c, sIdx σ)).trans (Entails.of_eq (by rw [kcell_sIdx]))); iexact HR
  isplitr
  · iapply (BI.bigSep_intro_persistent (R := records m ρ K) fun σ _ => (inv_at m ρ K (c, rIdx σ)).trans (Entails.of_eq (by rw [kcell_rIdx]))); iexact HR
  isplitr
  · iapply (BI.bigSep_intro_persistent (R := records m ρ K) fun j _ => (inv_at m ρ K (bsig j c, 0)).trans (Entails.of_eq (by rw [kcell_zero]))); iexact HR
  isplitr
  · iapply (BI.bigSep_intro_persistent (R := records m ρ K) fun σ _ => (inv_at m ρ K (tgt σ c, rIdx σ)).trans (Entails.of_eq (by rw [kcell_rIdx]))); iexact HR
  isplitl [HaB]; · iexact HaB
  isplitl [HaS]; · iexact HaS
  isplitl [HaV]; · iexact HaV
  isplitr
  · iapply (BI.bigSep_intro_persistent (R := records m ρ K) fun j _ => (reached_at m ρ K (bsig j c, 0)).trans (Entails.of_eq (by rw [kcell_zero]))); iexact HR
  isplitr
  · iapply (BI.bigSep_intro_persistent (R := records m ρ K) fun σ _ => (reached_at m ρ K (tgt σ c, rIdx σ)).trans (Entails.of_eq (by rw [kcell_rIdx]))); iexact HR
  isplitr
  · iapply (BI.bigSep_intro_persistent (R := records m ρ K) fun σ _ => (reached_at m ρ K (c, sIdx σ)).trans (Entails.of_eq (by rw [kcell_sIdx]))); iexact HR
  isplitr
  · iapply (BI.bigSep_intro_persistent (R := records m ρ K) fun j _ => (reached_at m ρ K (c, rIdx (slot j c))).trans (Entails.of_eq (by rw [kcell_rIdx]))); iexact HR
  isplitl [HtB]; · iexact HtB
  isplitl [HtV]; · iexact HtV
  iexact HtS

omit [FloatOps F] in
/-- The tokens dealt to their payers: a barrier cell's duty `δ` goes to `tgt δ d`, whose signal `jof δ` it is (the
    pairing of signals and duties is a permutation); a receive cell's duty goes to the slot's peer. -/
theorem toks_around : (bigSep Finset.univ fun c : Dev nD => (toks c : sProp 𝕄)) ⊢ bigSep Finset.univ fun c : Dev nD => payToks c := by
  have hA : (bigSep Finset.univ fun c : Dev nD => bigSep Finset.univ fun δ : Fin 7 => (dutyTok ER (barCell c) 0 δ : sProp 𝕄))
      = bigSep Finset.univ fun c : Dev nD => bigSep Finset.univ fun j : Fin 7 => dutyTok ER (barCell (bsig j c)) 0 (slot j c) :=
    (bigSep_univ_prod (fun p : Dev nD × Fin 7 => (dutyTok ER (barCell p.1) 0 p.2 : sProp 𝕄))).symm.trans
      ((bigSep_univ_equiv sigEquiv _).trans (bigSep_univ_prod _))
  have hB : (bigSep Finset.univ fun c : Dev nD => bigSep Finset.univ fun σ : Fin 7 => (dutyTok ER (recvCell c σ) 0 (0 : Fin 7) : sProp 𝕄))
      = bigSep Finset.univ fun c : Dev nD => bigSep Finset.univ fun σ : Fin 7 => dutyTok ER (recvCell (tgt σ c) σ) 0 (0 : Fin 7) :=
    (BI.bigSep_univ_comm _).trans ((bigSep_congr fun σ _ =>
      bigSep_univ_equiv (tgtEquiv σ) (fun c : Dev nD => (dutyTok ER (recvCell c σ) 0 (0 : Fin 7) : sProp 𝕄))).trans (BI.bigSep_univ_comm _))
  unfold toks payToks
  rw [bigSep_sep', bigSep_sep', bigSep_sep', bigSep_sep', hA, hB]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (sched m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear; rw [bigSep_cells (fun g => (atPos ER g 0 ∅ 0 : sProp 𝕄)) c])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What a device owes at launch, as two sums: its seven transfers' credit and its seven handshake units. -/
theorem O₀_eq (c : Dev nD) : O₀ c = (∑ σ : Fin 7, tR c σ) + ∑ j : Fin 7, tB c j := by
  unfold O₀ Orecv
  rw [Fin.sum_univ_seven, Fin.sum_univ_seven, zero_add]
  ac_rfl

/-- What the devices together owe device `d`'s cells: seven units on its barrier cell, a block's credit on each receive cell. -/
abbrev owedTo (d : Dev nD) : CellTallies nD τ sig Unit := tallyAt (barCell d) () 7 + ∑ σ : Fin 7, tallyAt (recvCell d σ) () N

omit [FloatOps F] in
/-- Summed over the payers, the dues are each device's own: slot `σ`'s exchange is an involution of the devices, and the
    pairing of handshake signals with barrier duties a permutation of the pairs. -/
theorem owed_sum : (∑ d : Dev nD, O₀ d) = ∑ d : Dev nD, owedTo d := by
  have hR : (∑ d : Dev nD, ∑ σ : Fin 7, tR d σ) = ∑ d : Dev nD, ∑ σ : Fin 7, (tallyAt (recvCell d σ) () N : CellTallies nD τ sig Unit) := by
    rw [Finset.sum_comm, Finset.sum_comm (f := fun (d : Dev nD) (σ : Fin 7) => (tallyAt (recvCell d σ) () N : CellTallies nD τ sig Unit))]
    exact Finset.sum_congr rfl fun σ _ => Equiv.sum_comp (tgtEquiv σ) (fun d : Dev nD => (tallyAt (recvCell d σ) () N : CellTallies nD τ sig Unit))
  have h7 (g : GSem nD τ sig) : (∑ _δ : Fin 7, (tallyAt g () 1 : CellTallies nD τ sig Unit)) = tallyAt g () 7 := by
    rw [Fin.sum_univ_seven]; simp only [tallyAt_add]
  have hB : (∑ d : Dev nD, ∑ j : Fin 7, tB d j) = ∑ d : Dev nD, (tallyAt (barCell d) () 7 : CellTallies nD τ sig Unit) :=
    calc (∑ d : Dev nD, ∑ j : Fin 7, tB d j)
        = ∑ p : Dev nD × Fin 7, (tallyAt (barCell (sigEquiv p).1) () 1 : CellTallies nD τ sig Unit) :=
          (Fintype.sum_prod_type' (fun (d : Dev nD) (j : Fin 7) => tB d j)).symm
      _ = ∑ p : Dev nD × Fin 7, (tallyAt (barCell p.1) () 1 : CellTallies nD τ sig Unit) :=
          Equiv.sum_comp sigEquiv (fun p : Dev nD × Fin 7 => (tallyAt (barCell p.1) () 1 : CellTallies nD τ sig Unit))
      _ = ∑ d : Dev nD, ∑ _δ : Fin 7, (tallyAt (barCell d) () 1 : CellTallies nD τ sig Unit) :=
          Fintype.sum_prod_type' (fun (d : Dev nD) (_ : Fin 7) => (tallyAt (barCell d) () 1 : CellTallies nD τ sig Unit))
      _ = _ := Finset.sum_congr rfl fun d _ => h7 _
  rw [Finset.sum_congr rfl (fun d _ => O₀_eq d), Finset.sum_add_distrib, Finset.sum_add_distrib, hR, hB, add_comm]

omit [FloatOps F] in
theorem owedTo_own (d : Dev nD) (g : GSem nD τ sig) (h : owedTo d g ≠ 0) : g.1 = (d.tc : Thread nD τ) := by
  by_contra hne
  refine h ?_
  show (tallyAt (barCell d) () 7 + ∑ σ : Fin 7, tallyAt (recvCell d σ) () N : CellTallies nD τ sig Unit) g = 0
  rw [Pi.add_apply, Finset.sum_apply, tallyAt_ne_cell (fun e => hne (by rw [e])),
    Finset.sum_eq_zero (fun σ _ => tallyAt_ne_cell (fun e => hne (by rw [e])) () N), add_zero]

omit [FloatOps F] in
theorem creds (c : Dev nD) :
    (Pipeline.launchCred O₀ c : sProp 𝕄) ⊢ iprop(cred (tallyAt (barCell c) () 7) ∗ bigSep Finset.univ fun σ : Fin 7 => cred (tallyAt (recvCell c σ) () N)) :=
  (Entails.of_eq (Pipeline.launchCred_of_sum O₀ owedTo owed_sum owedTo_own c)).trans
    ((cred_add _ _).1.trans (sep_mono_right (Entails.of_eq
      (Pipeline.cred_finsetSum Finset.univ (fun σ : Fin 7 => (tallyAt (recvCell c σ) () N : CellTallies nD τ sig Unit))))))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
/-- The seven send buffers, and the seven landing buffers, each at some contents, one by one. -/
theorem sBufs_eq (c : Dev nD) : (bigSep Finset.univ fun σ : Fin 7 => iprop(∃ f, sPts (F := F) c σ f))
    = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) := (bigSep_fin7 _).trans rfl
omit [FloatOps F] in
theorem rBufs_eq (c : Dev nD) : (bigSep Finset.univ fun σ : Fin 7 => iprop(∃ f, rPts (F := F) c σ f))
    = iprop((∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f)) := (bigSep_fin7 _).trans rfl
omit [FloatOps F] in
/-- The landing buffers read in the order the handshake hands them out are the landing buffers. -/
theorem rBufs_slot (c : Dev nD) : (bigSep Finset.univ fun j : Fin 7 => iprop(∃ f, rPts (F := F) c (slot j c) f))
    = bigSep Finset.univ fun σ : Fin 7 => iprop(∃ f, rPts (F := F) c σ f) :=
  (bigSep_univ_equiv (slotEquiv c) (fun σ : Fin 7 => iprop(∃ f, rPts (F := F) c σ f))).symm

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [rBufs_slot, sBufs_eq, rBufs_eq]
  iintro ⟨Hs, -, H0, H1, H2, H3, H4, H5, H6, H7, H8, H9, H10, H11, H12, H13⟩
  isplitl [Hs]; · iexact Hs
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · isplitl [H7]; · iexact H7
    isplitl [H8]; · iexact H8
    isplitl [H9]; · iexact H9
    isplitl [H10]; · iexact H10
    isplitl [H11]; · iexact H11
    isplitl [H12]; · iexact H12
    iexact H13

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  rw [sBufs_eq, rBufs_eq]
  iintro ⟨⟨H0, H1, H2, H3, H4, H5, H6⟩, ⟨H7, H8, H9, H10, H11, H12, H13⟩, Hz⟩
  isplitr; · iempintro
  isplitl [Hz]; · iexact Hz
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ### The waits of the staging pipeline -/

omit [FloatOps F] in
theorem O₀_pos {c : Dev nD} {g : GSem nD τ sig} {u : Unit} (h : 0 < O₀ c g u) :
    (∃ σ : Fin 7, g = recvCell (tgt σ c) σ) ∨ ∃ j : Fin 7, g = barCell (bsig j c) := by
  rw [O₀_eq] at h
  rcases Pipeline.add_pos_cases h with h | h
  · obtain ⟨σ, -, hσ⟩ := Pipeline.sum_pos_exists h; exact Or.inl ⟨σ, (Pipeline.tallyAt_pos hσ).1⟩
  · obtain ⟨j, -, hj⟩ := Pipeline.sum_pos_exists h; exact Or.inr ⟨j, (Pipeline.tallyAt_pos hj).1⟩

omit [FloatOps F] in
/-- A staging cell sits at level 0, below everything a device owes: barrier cells at 1, receive cells at 2. -/
theorem mayWait_stage (c : Dev nD) (q : DmaSem sig) (hq : isRecv (SemLoc.dma q : SemLoc sig) = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨σ, rfl⟩ | ⟨j, rfl⟩ <;> exact Finset.mem_singleton_self _)
      (fun p hp => by
        rw [Finset.mem_singleton.mp hp]; dsimp only [lv]
        rw [if_neg (fun h => by cases h), if_neg (by rw [hq]; exact Bool.false_ne_true)])
      (fun g u hg => by
        rcases O₀_pos hg with ⟨σ, rfl⟩ | ⟨j, rfl⟩
        · dsimp only [lv]
          rw [if_neg (recv_ne_bar σ), if_pos (show isRecv (SemLoc.dma (recvSem σ) : SemLoc sig) = true from decide_eq_true (by show 10 ≤ 10 + σ.val; omega))]
          decide
        · dsimp only [lv]; rw [if_pos rfl]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The arrays after the run -/

/-- The result array after the one point's write-back: what the body left staged. -/
theorem final_out (c : Dev nD) : (dats (F := F) m ρ 0 c).arrAt (2 : Fin 3) cfg0.N = outAt m ρ c := by
  have ho : ((cfg0.win (2 : Fin 3)).blk t0_0).view.read (Elt F) ((dats (F := F) m ρ 0 c).arrAt (2 : Fin 3) cfg0.N)
      = (dats (F := F) m ρ 0 c).flushed (2 : Fin 3) t0_0 := by
    rw [show cfg0.N = (t0_0 : Fin cfg0.N).val + 1 from rfl, (dats (F := F) m ρ 0 c).arrAt_succ (2 : Fin 3) t0_0]
    rw [show (cfg0.win (2 : Fin 3)).flush t0_0 = true from by decide, if_pos rfl]
    exact View.read_write_univ _ _
  have hz : (fun a => (win0_2.index t0_0) a * main_v1.ty.shape.size a) = fun _ => 0 := funext fun a => by fin_cases a <;> decide
  rw [Memref.read_access_unit_zero (Elt F) main_v1 hz (fun a => by fin_cases a <;> decide)] at ho
  exact ho.trans rfl

/-! ### The run -/

set_option maxRecDepth 8000 in
/-- From any memory with zero counters every weakly fair execution of the eight kernels terminates without fault; each
    device's result array ends at its staged result and its two argument arrays end unchanged. -/
theorem kernel_run (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (2 : Fin 3)).trans (final_out m ρ c),
      ((h c).1 (0 : Fin 3)).trans ((dats (F := F) m ρ 0 c).arrAt_in (0 : Fin 3) rfl _),
      ((h c).1 (1 : Fin 3)).trans ((dats (F := F) m ρ 0 c).arrAt_in (1 : Fin 3) rfl _)⟩)

/-- info: 'Cert.Kernel.A2A.kernel_run' depends on axioms: [propext, Classical.choice, Quot.sound] -/
#guard_msgs in #print axioms kernel_run

end Cert.Kernel.A2A

end
-- ==== Proof.Kernel.Pay.lean ====
/- What a transfer pays: the facts the body's transfer steps hand the schedule, at any contents; and one store through
   the whole extent of a buffer. -/
import proofs.«900795_g7700000000000796_dist_gemm_a2a_m2048_k2048_n2048_f32_none_v7x_i8_1_alg».proof.Proof.Kernel.Proto
import Idealize.ShloMosaic.Lib.Writes
import Idealize.ShloMosaic.Lib.Pipeline.FrameBody
import Idealize.ShloMosaic.Lib.Pipeline.Value

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer -/

omit [FloatOps F] in
/-- A whole buffer held through its whole view on all of the view's set is the buffer held. -/
theorem pts_whole (c : Dev nD) (b : Ref sig .tc) (f : b.ty.Contents (Elt F)) :
    ((Memref.whole b : Memref sig .tc _ _ _).view.loc (c : Thread nD τ) ↦[(Memref.whole b : Memref sig .tc _ _ _).view.set]{fullShare} f : sProp 𝕄)
      = (((c : Thread nD τ).loc b) ↦{fullShare} f) := by
  have hs : (Memref.whole b : Memref sig .tc _ _ _).view.set = Finset.univ := View.set_whole b
  rw [hs]

/-- One store through the rectangle of the buffer's own sizes at zero offsets leaves its payload. -/
theorem writes_whole1 (b : Ref sig .tc) (f : b.ty.Contents (Elt F)) {off : Fin b.ty.shape.rank → ℕ} (h : off = fun _ => 0) (inb : ∀ a, off a + b.ty.shape.size a ≤ b.ty.shape.size a) (w : b.ty.shape.Idx → Elt F b.ty.elt) :
    (Memref.whole b).view.writes (Elt F) f [(⟨Rect.unit off b.ty.shape.size inb, w⟩ : View.Piece (Elt F) b.ty.shape b.ty.elt)] = w := by
  have hcov : ∀ y : b.ty.shape.Idx, ∃ p ∈ [(⟨Rect.unit off b.ty.shape.size inb, w⟩ : View.Piece (Elt F) b.ty.shape b.ty.elt)], y ∈ p.1.set := fun y =>
    ⟨_, List.mem_cons_self, by subst h; show y ∈ (Rect.whole _).set; rw [Rect.set_whole]; exact Finset.mem_univ y⟩
  have hr := View.read_writes_eq_canon (Val := Elt F) (Memref.whole b : Memref sig .tc _ _ _).view f _ hcov
  rw [View.canon_unit_zero h inb w] at hr
  exact hr

/-- So the buffer held at what that one store leaves is the buffer held at the payload. -/
theorem pts_store1 (c : Dev nD) (b : Ref sig .tc) (f : b.ty.Contents (Elt F)) {off : Fin b.ty.shape.rank → ℕ} (h : off = fun _ => 0) (inb : ∀ a, off a + b.ty.shape.size a ≤ b.ty.shape.size a) (w : b.ty.shape.Idx → Elt F b.ty.elt) :
    ((Memref.whole b).view.loc (c : Thread nD τ) ↦{fullShare} (Memref.whole b).view.writes (Elt F) f [(⟨Rect.unit off b.ty.shape.size inb, w⟩ : View.Piece (Elt F) b.ty.shape b.ty.elt)] : sProp 𝕄)
      ⊢ ((Memref.whole b).view.loc (c : Thread nD τ) ↦{fullShare} w) :=
  Entails.of_eq (by rw [writes_whole1 (F := F) b f h inb w])

/-! ## What the reading end of a transfer hands back -/

/-- Slot 0's send buffer, whole at any contents, is what the send cell's duty hands back. -/
theorem pay_send0 (c : Dev nD) (fs : Blk F) :
    ((Memref.whole cc0_scratch0 : Memref sig .tc .vmem S256x256 .bf16).view.loc (c : Thread nD τ)
        ↦[(Memref.whole cc0_scratch0 : Memref sig .tc .vmem S256x256 .bf16).view.set]{fullShare} fs : sProp 𝕄)
      ⊢ (sched (F := F) m ρ).payload (sendCell c 0) 0 0 := by
  rw [payload_send]
  unfold sendPay
  refine (Entails.of_eq (pts_whole c cc0_scratch0 fs)).trans ?_
  show _ ⊢ iprop(∃ f : Blk F, (((c : Thread nD τ).loc cc0_scratch0) ↦{fullShare} f : sProp 𝕄))
  iintro H; iexists fs; iexact H

/-- Slot 1's send buffer, whole at any contents, is what the send cell's duty hands back. -/
theorem pay_send1 (c : Dev nD) (fs : Blk F) :
    ((Memref.whole cc0_scratch1 : Memref sig .tc .vmem S256x256 .bf16).view.loc (c : Thread nD τ)
        ↦[(Memref.whole cc0_scratch1 : Memref sig .tc .vmem S256x256 .bf16).view.set]{fullShare} fs : sProp 𝕄)
      ⊢ (sched (F := F) m ρ).payload (sendCell c 1) 0 0 := by
  rw [payload_send]
  unfold sendPay
  refine (Entails.of_eq (pts_whole c cc0_scratch1 fs)).trans ?_
  show _ ⊢ iprop(∃ f : Blk F, (((c : Thread nD τ).loc cc0_scratch1) ↦{fullShare} f : sProp 𝕄))
  iintro H; iexists fs; iexact H

/-- Slot 2's send buffer, whole at any contents, is what the send cell's duty hands back. -/
theorem pay_send2 (c : Dev nD) (fs : Blk F) :
    ((Memref.whole cc0_scratch2 : Memref sig .tc .vmem S256x256 .bf16).view.loc (c : Thread nD τ)
        ↦[(Memref.whole cc0_scratch2 : Memref sig .tc .vmem S256x256 .bf16).view.set]{fullShare} fs : sProp 𝕄)
      ⊢ (sched (F := F) m ρ).payload (sendCell c 2) 0 0 := by
  rw [payload_send]
  unfold sendPay
  refine (Entails.of_eq (pts_whole c cc0_scratch2 fs)).trans ?_
  show _ ⊢ iprop(∃ f : Blk F, (((c : Thread nD τ).loc cc0_scratch2) ↦{fullShare} f : sProp 𝕄))
  iintro H; iexists fs; iexact H

/-- Slot 3's send buffer, whole at any contents, is what the send cell's duty hands back. -/
theorem pay_send3 (c : Dev nD) (fs : Blk F) :
    ((Memref.whole cc0_scratch3 : Memref sig .tc .vmem S256x256 .bf16).view.loc (c : Thread nD τ)
        ↦[(Memref.whole cc0_scratch3 : Memref sig .tc .vmem S256x256 .bf16).view.set]{fullShare} fs : sProp 𝕄)
      ⊢ (sched (F := F) m ρ).payload (sendCell c 3) 0 0 := by
  rw [payload_send]
  unfold sendPay
  refine (Entails.of_eq (pts_whole c cc0_scratch3 fs)).trans ?_
  show _ ⊢ iprop(∃ f : Blk F, (((c : Thread nD τ).loc cc0_scratch3) ↦{fullShare} f : sProp 𝕄))
  iintro H; iexists fs; iexact H

/-- Slot 4's send buffer, whole at any contents, is what the send cell's duty hands back. -/
theorem pay_send4 (c : Dev nD) (fs : Blk F) :
    ((Memref.whole cc0_scratch4 : Memref sig .tc .vmem S256x256 .bf16).view.loc (c : Thread nD τ)
        ↦[(Memref.whole cc0_scratch4 : Memref sig .tc .vmem S256x256 .bf16).view.set]{fullShare} fs : sProp 𝕄)
      ⊢ (sched (F := F) m ρ).payload (sendCell c 4) 0 0 := by
  rw [payload_send]
  unfold sendPay
  refine (Entails.of_eq (pts_whole c cc0_scratch4 fs)).trans ?_
  show _ ⊢ iprop(∃ f : Blk F, (((c : Thread nD τ).loc cc0_scratch4) ↦{fullShare} f : sProp 𝕄))
  iintro H; iexists fs; iexact H

/-- Slot 5's send buffer, whole at any contents, is what the send cell's duty hands back. -/
theorem pay_send5 (c : Dev nD) (fs : Blk F) :
    ((Memref.whole cc0_scratch5 : Memref sig .tc .vmem S256x256 .bf16).view.loc (c : Thread nD τ)
        ↦[(Memref.whole cc0_scratch5 : Memref sig .tc .vmem S256x256 .bf16).view.set]{fullShare} fs : sProp 𝕄)
      ⊢ (sched (F := F) m ρ).payload (sendCell c 5) 0 0 := by
  rw [payload_send]
  unfold sendPay
  refine (Entails.of_eq (pts_whole c cc0_scratch5 fs)).trans ?_
  show _ ⊢ iprop(∃ f : Blk F, (((c : Thread nD τ).loc cc0_scratch5) ↦{fullShare} f : sProp 𝕄))
  iintro H; iexists fs; iexact H

/-- Slot 6's send buffer, whole at any contents, is what the send cell's duty hands back. -/
theorem pay_send6 (c : Dev nD) (fs : Blk F) :
    ((Memref.whole cc0_scratch6 : Memref sig .tc .vmem S256x256 .bf16).view.loc (c : Thread nD τ)
        ↦[(Memref.whole cc0_scratch6 : Memref sig .tc .vmem S256x256 .bf16).view.set]{fullShare} fs : sProp 𝕄)
      ⊢ (sched (F := F) m ρ).payload (sendCell c 6) 0 0 := by
  rw [payload_send]
  unfold sendPay
  refine (Entails.of_eq (pts_whole c cc0_scratch6 fs)).trans ?_
  show _ ⊢ iprop(∃ f : Blk F, (((c : Thread nD τ).loc cc0_scratch6) ↦{fullShare} f : sProp 𝕄))
  iintro H; iexists fs; iexact H

/-! ## What the writing end of a transfer lands -/

/-- The peer's landing buffer 0 written everywhere with what the device's send buffer 0 holds, that being what the
    device sends in slot 0, is the payload of the peer's receive cell: the peer's slot-0 peer is the device itself. -/
theorem pay_recv0 (c : Dev nD) (fs fd : Blk F) :
    iprop(((Memref.whole cc0_scratch7 : Memref sig .tc .vmem S256x256 .bf16).view.loc (tgt 0 c : Thread nD τ)
          ↦[(Memref.whole cc0_scratch7 : Memref sig .tc .vmem S256x256 .bf16).view.set]{fullShare}
            ((Memref.whole cc0_scratch7 : Memref sig .tc .vmem S256x256 .bf16).view.write (Elt F) fd
              ((Memref.whole cc0_scratch0 : Memref sig .tc .vmem S256x256 .bf16).view.read (Elt F) fs) Finset.univ))
        ∗ ⌜fs = sent m ρ c 0⌝)
      ⊢ (sched (F := F) m ρ).payload (recvCell (tgt 0 c) 0) 0 0 := by
  have hl : landed m ρ (tgt 0 c) 0 = sent m ρ c 0 := by unfold landed; rw [tgt_tgt]
  have hw : (Memref.whole cc0_scratch7 : Memref sig .tc .vmem S256x256 .bf16).view.write (Elt F) fd
      ((Memref.whole cc0_scratch0 : Memref sig .tc .vmem S256x256 .bf16).view.read (Elt F) fs) Finset.univ = fs := View.write_whole_univ cc0_scratch7 fd fs
  rw [payload_recv]
  unfold recvPay
  rw [hl, pts_whole, hw]
  show _ ⊢ ((((tgt 0 c : Dev nD) : Thread nD τ).loc cc0_scratch7) ↦{fullShare} sent m ρ c 0 : sProp 𝕄)
  iintro ⟨H, %h⟩
  subst h
  iexact H

/-- The peer's landing buffer 1 written everywhere with what the device's send buffer 1 holds, that being what the
    device sends in slot 1, is the payload of the peer's receive cell: the peer's slot-1 peer is the device itself. -/
theorem pay_recv1 (c : Dev nD) (fs fd : Blk F) :
    iprop(((Memref.whole cc0_scratch8 : Memref sig .tc .vmem S256x256 .bf16).view.loc (tgt 1 c : Thread nD τ)
          ↦[(Memref.whole cc0_scratch8 : Memref sig .tc .vmem S256x256 .bf16).view.set]{fullShare}
            ((Memref.whole cc0_scratch8 : Memref sig .tc .vmem S256x256 .bf16).view.write (Elt F) fd
              ((Memref.whole cc0_scratch1 : Memref sig .tc .vmem S256x256 .bf16).view.read (Elt F) fs) Finset.univ))
        ∗ ⌜fs = sent m ρ c 1⌝)
      ⊢ (sched (F := F) m ρ).payload (recvCell (tgt 1 c) 1) 0 0 := by
  have hl : landed m ρ (tgt 1 c) 1 = sent m ρ c 1 := by unfold landed; rw [tgt_tgt]
  have hw : (Memref.whole cc0_scratch8 : Memref sig .tc .vmem S256x256 .bf16).view.write (Elt F) fd
      ((Memref.whole cc0_scratch1 : Memref sig .tc .vmem S256x256 .bf16).view.read (Elt F) fs) Finset.univ = fs := View.write_whole_univ cc0_scratch8 fd fs
  rw [payload_recv]
  unfold recvPay
  rw [hl, pts_whole, hw]
  show _ ⊢ ((((tgt 1 c : Dev nD) : Thread nD τ).loc cc0_scratch8) ↦{fullShare} sent m ρ c 1 : sProp 𝕄)
  iintro ⟨H, %h⟩
  subst h
  iexact H

/-- The peer's landing buffer 2 written everywhere with what the device's send buffer 2 holds, that being what the
    device sends in slot 2, is the payload of the peer's receive cell: the peer's slot-2 peer is the device itself. -/
theorem pay_recv2 (c : Dev nD) (fs fd : Blk F) :
    iprop(((Memref.whole cc0_scratch9 : Memref sig .tc .vmem S256x256 .bf16).view.loc (tgt 2 c : Thread nD τ)
          ↦[(Memref.whole cc0_scratch9 : Memref sig .tc .vmem S256x256 .bf16).view.set]{fullShare}
            ((Memref.whole cc0_scratch9 : Memref sig .tc .vmem S256x256 .bf16).view.write (Elt F) fd
              ((Memref.whole cc0_scratch2 : Memref sig .tc .vmem S256x256 .bf16).view.read (Elt F) fs) Finset.univ))
        ∗ ⌜fs = sent m ρ c 2⌝)
      ⊢ (sched (F := F) m ρ).payload (recvCell (tgt 2 c) 2) 0 0 := by
  have hl : landed m ρ (tgt 2 c) 2 = sent m ρ c 2 := by unfold landed; rw [tgt_tgt]
  have hw : (Memref.whole cc0_scratch9 : Memref sig .tc .vmem S256x256 .bf16).view.write (Elt F) fd
      ((Memref.whole cc0_scratch2 : Memref sig .tc .vmem S256x256 .bf16).view.read (Elt F) fs) Finset.univ = fs := View.write_whole_univ cc0_scratch9 fd fs
  rw [payload_recv]
  unfold recvPay
  rw [hl, pts_whole, hw]
  show _ ⊢ ((((tgt 2 c : Dev nD) : Thread nD τ).loc cc0_scratch9) ↦{fullShare} sent m ρ c 2 : sProp 𝕄)
  iintro ⟨H, %h⟩
  subst h
  iexact H

/-- The peer's landing buffer 3 written everywhere with what the device's send buffer 3 holds, that being what the
    device sends in slot 3, is the payload of the peer's receive cell: the peer's slot-3 peer is the device itself. -/
theorem pay_recv3 (c : Dev nD) (fs fd : Blk F) :
    iprop(((Memref.whole cc0_scratch10 : Memref sig .tc .vmem S256x256 .bf16).view.loc (tgt 3 c : Thread nD τ)
          ↦[(Memref.whole cc0_scratch10 : Memref sig .tc .vmem S256x256 .bf16).view.set]{fullShare}
            ((Memref.whole cc0_scratch10 : Memref sig .tc .vmem S256x256 .bf16).view.write (Elt F) fd
              ((Memref.whole cc0_scratch3 : Memref sig .tc .vmem S256x256 .bf16).view.read (Elt F) fs) Finset.univ))
        ∗ ⌜fs = sent m ρ c 3⌝)
      ⊢ (sched (F := F) m ρ).payload (recvCell (tgt 3 c) 3) 0 0 := by
  have hl : landed m ρ (tgt 3 c) 3 = sent m ρ c 3 := by unfold landed; rw [tgt_tgt]
  have hw : (Memref.whole cc0_scratch10 : Memref sig .tc .vmem S256x256 .bf16).view.write (Elt F) fd
      ((Memref.whole cc0_scratch3 : Memref sig .tc .vmem S256x256 .bf16).view.read (Elt F) fs) Finset.univ = fs := View.write_whole_univ cc0_scratch10 fd fs
  rw [payload_recv]
  unfold recvPay
  rw [hl, pts_whole, hw]
  show _ ⊢ ((((tgt 3 c : Dev nD) : Thread nD τ).loc cc0_scratch10) ↦{fullShare} sent m ρ c 3 : sProp 𝕄)
  iintro ⟨H, %h⟩
  subst h
  iexact H

/-- The peer's landing buffer 4 written everywhere with what the device's send buffer 4 holds, that being what the
    device sends in slot 4, is the payload of the peer's receive cell: the peer's slot-4 peer is the device itself. -/
theorem pay_recv4 (c : Dev nD) (fs fd : Blk F) :
    iprop(((Memref.whole cc0_scratch11 : Memref sig .tc .vmem S256x256 .bf16).view.loc (tgt 4 c : Thread nD τ)
          ↦[(Memref.whole cc0_scratch11 : Memref sig .tc .vmem S256x256 .bf16).view.set]{fullShare}
            ((Memref.whole cc0_scratch11 : Memref sig .tc .vmem S256x256 .bf16).view.write (Elt F) fd
              ((Memref.whole cc0_scratch4 : Memref sig .tc .vmem S256x256 .bf16).view.read (Elt F) fs) Finset.univ))
        ∗ ⌜fs = sent m ρ c 4⌝)
      ⊢ (sched (F := F) m ρ).payload (recvCell (tgt 4 c) 4) 0 0 := by
  have hl : landed m ρ (tgt 4 c) 4 = sent m ρ c 4 := by unfold landed; rw [tgt_tgt]
  have hw : (Memref.whole cc0_scratch11 : Memref sig .tc .vmem S256x256 .bf16).view.write (Elt F) fd
      ((Memref.whole cc0_scratch4 : Memref sig .tc .vmem S256x256 .bf16).view.read (Elt F) fs) Finset.univ = fs := View.write_whole_univ cc0_scratch11 fd fs
  rw [payload_recv]
  unfold recvPay
  rw [hl, pts_whole, hw]
  show _ ⊢ ((((tgt 4 c : Dev nD) : Thread nD τ).loc cc0_scratch11) ↦{fullShare} sent m ρ c 4 : sProp 𝕄)
  iintro ⟨H, %h⟩
  subst h
  iexact H

/-- The peer's landing buffer 5 written everywhere with what the device's send buffer 5 holds, that being what the
    device sends in slot 5, is the payload of the peer's receive cell: the peer's slot-5 peer is the device itself. -/
theorem pay_recv5 (c : Dev nD) (fs fd : Blk F) :
    iprop(((Memref.whole cc0_scratch12 : Memref sig .tc .vmem S256x256 .bf16).view.loc (tgt 5 c : Thread nD τ)
          ↦[(Memref.whole cc0_scratch12 : Memref sig .tc .vmem S256x256 .bf16).view.set]{fullShare}
            ((Memref.whole cc0_scratch12 : Memref sig .tc .vmem S256x256 .bf16).view.write (Elt F) fd
              ((Memref.whole cc0_scratch5 : Memref sig .tc .vmem S256x256 .bf16).view.read (Elt F) fs) Finset.univ))
        ∗ ⌜fs = sent m ρ c 5⌝)
      ⊢ (sched (F := F) m ρ).payload (recvCell (tgt 5 c) 5) 0 0 := by
  have hl : landed m ρ (tgt 5 c) 5 = sent m ρ c 5 := by unfold landed; rw [tgt_tgt]
  have hw : (Memref.whole cc0_scratch12 : Memref sig .tc .vmem S256x256 .bf16).view.write (Elt F) fd
      ((Memref.whole cc0_scratch5 : Memref sig .tc .vmem S256x256 .bf16).view.read (Elt F) fs) Finset.univ = fs := View.write_whole_univ cc0_scratch12 fd fs
  rw [payload_recv]
  unfold recvPay
  rw [hl, pts_whole, hw]
  show _ ⊢ ((((tgt 5 c : Dev nD) : Thread nD τ).loc cc0_scratch12) ↦{fullShare} sent m ρ c 5 : sProp 𝕄)
  iintro ⟨H, %h⟩
  subst h
  iexact H

/-- The peer's landing buffer 6 written everywhere with what the device's send buffer 6 holds, that being what the
    device sends in slot 6, is the payload of the peer's receive cell: the peer's slot-6 peer is the device itself. -/
theorem pay_recv6 (c : Dev nD) (fs fd : Blk F) :
    iprop(((Memref.whole cc0_scratch13 : Memref sig .tc .vmem S256x256 .bf16).view.loc (tgt 6 c : Thread nD τ)
          ↦[(Memref.whole cc0_scratch13 : Memref sig .tc .vmem S256x256 .bf16).view.set]{fullShare}
            ((Memref.whole cc0_scratch13 : Memref sig .tc .vmem S256x256 .bf16).view.write (Elt F) fd
              ((Memref.whole cc0_scratch6 : Memref sig .tc .vmem S256x256 .bf16).view.read (Elt F) fs) Finset.univ))
        ∗ ⌜fs = sent m ρ c 6⌝)
      ⊢ (sched (F := F) m ρ).payload (recvCell (tgt 6 c) 6) 0 0 := by
  have hl : landed m ρ (tgt 6 c) 6 = sent m ρ c 6 := by unfold landed; rw [tgt_tgt]
  have hw : (Memref.whole cc0_scratch13 : Memref sig .tc .vmem S256x256 .bf16).view.write (Elt F) fd
      ((Memref.whole cc0_scratch6 : Memref sig .tc .vmem S256x256 .bf16).view.read (Elt F) fs) Finset.univ = fs := View.write_whole_univ cc0_scratch13 fd fs
  rw [payload_recv]
  unfold recvPay
  rw [hl, pts_whole, hw]
  show _ ⊢ ((((tgt 6 c : Dev nD) : Thread nD τ).loc cc0_scratch13) ↦{fullShare} sent m ρ c 6 : sProp 𝕄)
  iintro ⟨H, %h⟩
  subst h
  iexact H

/-- info: 'Cert.Kernel.A2A.pts_store1' depends on axioms: [propext, Classical.choice, Quot.sound] -/
#guard_msgs in #print axioms pts_store1

/-- info: 'Cert.Kernel.A2A.pay_send6' depends on axioms: [propext, Classical.choice, Quot.sound] -/
#guard_msgs in #print axioms pay_send6

/-- info: 'Cert.Kernel.A2A.pay_recv6' depends on axioms: [propext, Classical.choice, Quot.sound] -/
#guard_msgs in #print axioms pay_recv6

end Cert.Kernel.A2A

end
-- ==== Proof.Kernel.Cover.lean ====
/- The staged result after the body's eight stores: the eight row blocks, each written once. -/
import proofs.«900795_g7700000000000796_dist_gemm_a2a_m2048_k2048_n2048_f32_none_v7x_i8_1_alg».proof.Proof.Kernel.Proto
import Idealize.ShloMosaic.Lib.Writes

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One store of a row block -/

/-- The staged result buffer, whole. -/
abbrev vO : View sig .tc .vmem S2048x256 .f32 := (Memref.whole cc0_stg2_0 : Memref sig .tc .vmem S2048x256 .f32).view

omit [FloatOps F] in
/-- The rectangle of 256 rows from row `256 d` holds exactly the indices of row block `d`. -/
theorem mem_rowBlk (d : Dev nD) (inb : ∀ a, (![256 * d.val, 0] : Fin 2 → ℕ) a + S256x256.size a ≤ S2048x256.size a) (i : S2048x256.Idx) :
    i ∈ (Rect.unit (s := S2048x256) ![256 * d.val, 0] S256x256.size inb).set ↔ rowBlk i = d := by
  rw [Rect.mem_set_unit]
  constructor
  · intro h
    have h0 : 256 * d.val ≤ (i 0).val ∧ (i 0).val < 256 * d.val + 256 := h 0
    exact Fin.ext (by show (i 0).val / 256 = d.val; omega)
  · intro h a
    have hv : (i 0).val / 256 = d.val := congrArg Fin.val h
    have h1 : (i 1).val < 256 := (i 1).isLt
    fin_cases a
    · show 256 * d.val ≤ (i 0).val ∧ (i 0).val < 256 * d.val + 256; omega
    · show 0 ≤ (i 1).val ∧ (i 1).val < 0 + 256; omega

/-- A store of row block `d` leaves an index of another row block as it was; -/
theorem writes_skip (f : (cc0_stg2_0 : Ref sig .tc).ty.Contents (Elt F)) (d : Dev nD)
    (inb : ∀ a, (![256 * d.val, 0] : Fin 2 → ℕ) a + S256x256.size a ≤ S2048x256.size a) (w : Vec F S256x256 .f32)
    (L : List (View.Piece (Elt F) S2048x256 .f32)) (i : S2048x256.Idx) (h : rowBlk i ≠ d) :
    vO.writes (Elt F) f ((⟨Rect.unit (s := S2048x256) ![256 * d.val, 0] S256x256.size inb, w⟩ : View.Piece (Elt F) S2048x256 .f32) :: L) i = vO.writes (Elt F) f L i := by
  have hy : i ∉ Finset.univ.map (Rect.unit (s := S2048x256) ![256 * d.val, 0] S256x256.size inb).emb := by
    rw [Rect.map_emb_univ, mem_rowBlk]; exact h
  exact View.read_slice_write_of_not_mem (v := vO) _ _ w Finset.univ hy

/-- at an index of row block `d` it leaves the payload at the index's place inside the block. -/
theorem writes_hit (f : (cc0_stg2_0 : Ref sig .tc).ty.Contents (Elt F)) (d : Dev nD)
    (inb : ∀ a, (![256 * d.val, 0] : Fin 2 → ℕ) a + S256x256.size a ≤ S2048x256.size a) (w : Vec F S256x256 .f32)
    (L : List (View.Piece (Elt F) S2048x256 .f32)) (i : S2048x256.Idx) (h : rowBlk i = d) :
    vO.writes (Elt F) f ((⟨Rect.unit (s := S2048x256) ![256 * d.val, 0] S256x256.size inb, w⟩ : View.Piece (Elt F) S2048x256 .f32) :: L) i = w (inBlk i) := by
  have e : (Rect.unit (s := S2048x256) ![256 * d.val, 0] S256x256.size inb).emb (inBlk i) = i := by
    have hv : (i 0).val / 256 = d.val := congrArg Fin.val h
    funext a
    fin_cases a
    · exact Fin.ext (by show 256 * d.val + 1 * ((i 0).val % 256) = (i 0).val; omega)
    · exact Fin.ext (by show 0 + 1 * (i 1).val = (i 1).val; omega)
  have hrd := View.read_writes_cons_emb (v := vO) f (Rect.unit (s := S2048x256) ![256 * d.val, 0] S256x256.size inb) w L (inBlk i)
  rw [e] at hrd
  exact hrd

/-! ## The eight stores -/

/-- Eight stores, one to the device's own row block and one to each peer's: an index of the own block reads the own
    store's payload, an index of a peer's block the payload of the slot that reaches that peer; the earlier contents are
    nowhere left. The offsets are variables with their closed forms as hypotheses. -/
theorem out_cover_aux (c : Dev nD) (g2 : (cc0_stg2_0 : Ref sig .tc).ty.Contents (Elt F)) (p0 : Vec F S256x256 .f32) (p : Fin 7 → Vec F S256x256 .f32)
    (oc o0 o1 o2 o3 o4 o5 o6 : Fin 2 → ℕ)
    (ec : oc = ![256 * c.val, 0])
    (e0 : o0 = ![256 * (tgt 0 c).val, 0])
    (e1 : o1 = ![256 * (tgt 1 c).val, 0])
    (e2 : o2 = ![256 * (tgt 2 c).val, 0])
    (e3 : o3 = ![256 * (tgt 3 c).val, 0])
    (e4 : o4 = ![256 * (tgt 4 c).val, 0])
    (e5 : o5 = ![256 * (tgt 5 c).val, 0])
    (e6 : o6 = ![256 * (tgt 6 c).val, 0])
    (ic : ∀ a, oc a + S256x256.size a ≤ S2048x256.size a)
    (i0 : ∀ a, o0 a + S256x256.size a ≤ S2048x256.size a)
    (i1 : ∀ a, o1 a + S256x256.size a ≤ S2048x256.size a)
    (i2 : ∀ a, o2 a + S256x256.size a ≤ S2048x256.size a)
    (i3 : ∀ a, o3 a + S256x256.size a ≤ S2048x256.size a)
    (i4 : ∀ a, o4 a + S256x256.size a ≤ S2048x256.size a)
    (i5 : ∀ a, o5 a + S256x256.size a ≤ S2048x256.size a)
    (i6 : ∀ a, o6 a + S256x256.size a ≤ S2048x256.size a) :
    vO.writes (Elt F) g2
      [
       (⟨Rect.unit (s := S2048x256) o6 S256x256.size i6, p 6⟩ : View.Piece (Elt F) S2048x256 .f32),
       (⟨Rect.unit (s := S2048x256) o5 S256x256.size i5, p 5⟩ : View.Piece (Elt F) S2048x256 .f32),
       (⟨Rect.unit (s := S2048x256) o4 S256x256.size i4, p 4⟩ : View.Piece (Elt F) S2048x256 .f32),
       (⟨Rect.unit (s := S2048x256) o3 S256x256.size i3, p 3⟩ : View.Piece (Elt F) S2048x256 .f32),
       (⟨Rect.unit (s := S2048x256) o2 S256x256.size i2, p 2⟩ : View.Piece (Elt F) S2048x256 .f32),
       (⟨Rect.unit (s := S2048x256) o1 S256x256.size i1, p 1⟩ : View.Piece (Elt F) S2048x256 .f32),
       (⟨Rect.unit (s := S2048x256) o0 S256x256.size i0, p 0⟩ : View.Piece (Elt F) S2048x256 .f32),
       (⟨Rect.unit (s := S2048x256) oc S256x256.size ic, p0⟩ : View.Piece (Elt F) S2048x256 .f32)]
      = fun i => if rowBlk i = c then p0 (inBlk i) else p (slotTo c (rowBlk i)) (inBlk i) := by
  subst ec e0 e1 e2 e3 e4 e5 e6
  funext i
  by_cases hb : rowBlk i = c
  · rw [if_pos hb,
      writes_skip (d := tgt 6 c) (h := fun e => tgt_ne 6 c (e.symm.trans hb)),
      writes_skip (d := tgt 5 c) (h := fun e => tgt_ne 5 c (e.symm.trans hb)),
      writes_skip (d := tgt 4 c) (h := fun e => tgt_ne 4 c (e.symm.trans hb)),
      writes_skip (d := tgt 3 c) (h := fun e => tgt_ne 3 c (e.symm.trans hb)),
      writes_skip (d := tgt 2 c) (h := fun e => tgt_ne 2 c (e.symm.trans hb)),
      writes_skip (d := tgt 1 c) (h := fun e => tgt_ne 1 c (e.symm.trans hb)),
      writes_skip (d := tgt 0 c) (h := fun e => tgt_ne 0 c (e.symm.trans hb)),
      writes_hit (d := c) (h := hb)]
  · rw [if_neg hb]
    by_cases h6 : rowBlk i = tgt 6 c
    · rw [writes_hit (d := tgt 6 c) (h := h6), h6, slotTo_tgt]
    rw [writes_skip (d := tgt 6 c) (h := h6)]
    by_cases h5 : rowBlk i = tgt 5 c
    · rw [writes_hit (d := tgt 5 c) (h := h5), h5, slotTo_tgt]
    rw [writes_skip (d := tgt 5 c) (h := h5)]
    by_cases h4 : rowBlk i = tgt 4 c
    · rw [writes_hit (d := tgt 4 c) (h := h4), h4, slotTo_tgt]
    rw [writes_skip (d := tgt 4 c) (h := h4)]
    by_cases h3 : rowBlk i = tgt 3 c
    · rw [writes_hit (d := tgt 3 c) (h := h3), h3, slotTo_tgt]
    rw [writes_skip (d := tgt 3 c) (h := h3)]
    by_cases h2 : rowBlk i = tgt 2 c
    · rw [writes_hit (d := tgt 2 c) (h := h2), h2, slotTo_tgt]
    rw [writes_skip (d := tgt 2 c) (h := h2)]
    by_cases h1 : rowBlk i = tgt 1 c
    · rw [writes_hit (d := tgt 1 c) (h := h1), h1, slotTo_tgt]
    rw [writes_skip (d := tgt 1 c) (h := h1)]
    by_cases h0 : rowBlk i = tgt 0 c
    · rw [writes_hit (d := tgt 0 c) (h := h0), h0, slotTo_tgt]
    rw [writes_skip (d := tgt 0 c) (h := h0)]
    exfalso
    have hall : ∀ σ : Fin 7, rowBlk i ≠ tgt σ c := fun σ => by
      fin_cases σ
      exacts [h0, h1, h2, h3, h4, h5, h6]
    exact hall _ (tgt_slotTo c (rowBlk i) hb).symm

theorem out_cover (c : Dev nD) (g2 : (cc0_stg2_0 : Ref sig .tc).ty.Contents (Elt F)) (p0 : Vec F S256x256 .f32) (p : Fin 7 → Vec F S256x256 .f32) :
    (Memref.whole cc0_stg2_0 : Memref sig .tc .vmem S2048x256 .f32).view.writes (Elt F) g2
      [
       (⟨Rect.unit (s := S2048x256) (k0_off4 c 1#32 0#32 0#32) S256x256.size (k0_off4_inb c 6), p 6⟩ : View.Piece (Elt F) S2048x256 .f32),
       (⟨Rect.unit (s := S2048x256) (k0_off4 c 0#32 1#32 0#32) S256x256.size (k0_off4_inb c 5), p 5⟩ : View.Piece (Elt F) S2048x256 .f32),
       (⟨Rect.unit (s := S2048x256) (k0_off4 c 0#32 0#32 1#32) S256x256.size (k0_off4_inb c 4), p 4⟩ : View.Piece (Elt F) S2048x256 .f32),
       (⟨Rect.unit (s := S2048x256) (k0_off4 c 1#32 1#32 0#32) S256x256.size (k0_off4_inb c 3), p 3⟩ : View.Piece (Elt F) S2048x256 .f32),
       (⟨Rect.unit (s := S2048x256) (k0_off4 c 1#32 0#32 1#32) S256x256.size (k0_off4_inb c 2), p 2⟩ : View.Piece (Elt F) S2048x256 .f32),
       (⟨Rect.unit (s := S2048x256) (k0_off4 c 0#32 1#32 1#32) S256x256.size (k0_off4_inb c 1), p 1⟩ : View.Piece (Elt F) S2048x256 .f32),
       (⟨Rect.unit (s := S2048x256) (k0_off4 c 1#32 1#32 1#32) S256x256.size (k0_off4_inb c 0), p 0⟩ : View.Piece (Elt F) S2048x256 .f32),
       (⟨Rect.unit (s := S2048x256) (k0_off3 c) S256x256.size (k0_off3_inb c), p0⟩ : View.Piece (Elt F) S2048x256 .f32)]
      = fun i => if rowBlk i = c then p0 (inBlk i) else p (slotTo c (rowBlk i)) (inBlk i) :=
  out_cover_aux c g2 p0 p _ _ _ _ _ _ _ _ (k0_off3_eq c)
    (off4_eq c 0)
    (off4_eq c 1)
    (off4_eq c 2)
    (off4_eq c 3)
    (off4_eq c 4)
    (off4_eq c 5)
    (off4_eq c 6)
    _ _ _ _ _ _ _ _

theorem out_final (c : Dev nD) (g2 : (cc0_stg2_0 : Ref sig .tc).ty.Contents (Elt F)) :
    (Memref.whole cc0_stg2_0 : Memref sig .tc .vmem S2048x256 .f32).view.writes (Elt F) g2
      [
       (⟨Rect.unit (s := S2048x256) (k0_off4 c 1#32 0#32 0#32) S256x256.size (k0_off4_inb c 6), k0_pay17 ((Memref.whole cc0_scratch13 : Memref sig .tc .vmem S256x256 .bf16).view.readAt (Elt F) (Rect.unit (s := S256x256) ![0, 0] S256x256.size inb_S256x256_S256x256_0_0).toLoadRect (landed m ρ c 6))⟩ : View.Piece (Elt F) S2048x256 .f32),
       (⟨Rect.unit (s := S2048x256) (k0_off4 c 0#32 1#32 0#32) S256x256.size (k0_off4_inb c 5), k0_pay16 ((Memref.whole cc0_scratch12 : Memref sig .tc .vmem S256x256 .bf16).view.readAt (Elt F) (Rect.unit (s := S256x256) ![0, 0] S256x256.size inb_S256x256_S256x256_0_0).toLoadRect (landed m ρ c 5))⟩ : View.Piece (Elt F) S2048x256 .f32),
       (⟨Rect.unit (s := S2048x256) (k0_off4 c 0#32 0#32 1#32) S256x256.size (k0_off4_inb c 4), k0_pay15 ((Memref.whole cc0_scratch11 : Memref sig .tc .vmem S256x256 .bf16).view.readAt (Elt F) (Rect.unit (s := S256x256) ![0, 0] S256x256.size inb_S256x256_S256x256_0_0).toLoadRect (landed m ρ c 4))⟩ : View.Piece (Elt F) S2048x256 .f32),
       (⟨Rect.unit (s := S2048x256) (k0_off4 c 1#32 1#32 0#32) S256x256.size (k0_off4_inb c 3), k0_pay14 ((Memref.whole cc0_scratch10 : Memref sig .tc .vmem S256x256 .bf16).view.readAt (Elt F) (Rect.unit (s := S256x256) ![0, 0] S256x256.size inb_S256x256_S256x256_0_0).toLoadRect (landed m ρ c 3))⟩ : View.Piece (Elt F) S2048x256 .f32),
       (⟨Rect.unit (s := S2048x256) (k0_off4 c 1#32 0#32 1#32) S256x256.size (k0_off4_inb c 2), k0_pay13 ((Memref.whole cc0_scratch9 : Memref sig .tc .vmem S256x256 .bf16).view.readAt (Elt F) (Rect.unit (s := S256x256) ![0, 0] S256x256.size inb_S256x256_S256x256_0_0).toLoadRect (landed m ρ c 2))⟩ : View.Piece (Elt F) S2048x256 .f32),
       (⟨Rect.unit (s := S2048x256) (k0_off4 c 0#32 1#32 1#32) S256x256.size (k0_off4_inb c 1), k0_pay12 ((Memref.whole cc0_scratch8 : Memref sig .tc .vmem S256x256 .bf16).view.readAt (Elt F) (Rect.unit (s := S256x256) ![0, 0] S256x256.size inb_S256x256_S256x256_0_0).toLoadRect (landed m ρ c 1))⟩ : View.Piece (Elt F) S2048x256 .f32),
       (⟨Rect.unit (s := S2048x256) (k0_off4 c 1#32 1#32 1#32) S256x256.size (k0_off4_inb c 0), k0_pay11 ((Memref.whole cc0_scratch7 : Memref sig .tc .vmem S256x256 .bf16).view.readAt (Elt F) (Rect.unit (s := S256x256) ![0, 0] S256x256.size inb_S256x256_S256x256_0_0).toLoadRect (landed m ρ c 0))⟩ : View.Piece (Elt F) S2048x256 .f32),
       (⟨Rect.unit (s := S2048x256) (k0_off3 c) S256x256.size (k0_off3_inb c), k0_pay10 (xv m ρ c) (wcolAt m ρ c (k0_off2 c) (k0_off2_inb c))⟩ : View.Piece (Elt F) S2048x256 .f32)]
      = outAt m ρ c := by
  have hz : (![0, 0] : Fin 2 → ℕ) = fun _ => 0 := funext fun a => by fin_cases a <;> rfl
  have hr0 : ((Memref.whole cc0_scratch7 : Memref sig .tc .vmem S256x256 .bf16).view.readAt (Elt F) (Rect.unit (s := S256x256) ![0, 0] S256x256.size inb_S256x256_S256x256_0_0).toLoadRect (landed m ρ c 0)) = landed m ρ c 0 :=
    Memref.readAt_unit_zero (Elt F) cc0_scratch7 hz _ _
  have hr1 : ((Memref.whole cc0_scratch8 : Memref sig .tc .vmem S256x256 .bf16).view.readAt (Elt F) (Rect.unit (s := S256x256) ![0, 0] S256x256.size inb_S256x256_S256x256_0_0).toLoadRect (landed m ρ c 1)) = landed m ρ c 1 :=
    Memref.readAt_unit_zero (Elt F) cc0_scratch8 hz _ _
  have hr2 : ((Memref.whole cc0_scratch9 : Memref sig .tc .vmem S256x256 .bf16).view.readAt (Elt F) (Rect.unit (s := S256x256) ![0, 0] S256x256.size inb_S256x256_S256x256_0_0).toLoadRect (landed m ρ c 2)) = landed m ρ c 2 :=
    Memref.readAt_unit_zero (Elt F) cc0_scratch9 hz _ _
  have hr3 : ((Memref.whole cc0_scratch10 : Memref sig .tc .vmem S256x256 .bf16).view.readAt (Elt F) (Rect.unit (s := S256x256) ![0, 0] S256x256.size inb_S256x256_S256x256_0_0).toLoadRect (landed m ρ c 3)) = landed m ρ c 3 :=
    Memref.readAt_unit_zero (Elt F) cc0_scratch10 hz _ _
  have hr4 : ((Memref.whole cc0_scratch11 : Memref sig .tc .vmem S256x256 .bf16).view.readAt (Elt F) (Rect.unit (s := S256x256) ![0, 0] S256x256.size inb_S256x256_S256x256_0_0).toLoadRect (landed m ρ c 4)) = landed m ρ c 4 :=
    Memref.readAt_unit_zero (Elt F) cc0_scratch11 hz _ _
  have hr5 : ((Memref.whole cc0_scratch12 : Memref sig .tc .vmem S256x256 .bf16).view.readAt (Elt F) (Rect.unit (s := S256x256) ![0, 0] S256x256.size inb_S256x256_S256x256_0_0).toLoadRect (landed m ρ c 5)) = landed m ρ c 5 :=
    Memref.readAt_unit_zero (Elt F) cc0_scratch12 hz _ _
  have hr6 : ((Memref.whole cc0_scratch13 : Memref sig .tc .vmem S256x256 .bf16).view.readAt (Elt F) (Rect.unit (s := S256x256) ![0, 0] S256x256.size inb_S256x256_S256x256_0_0).toLoadRect (landed m ρ c 6)) = landed m ρ c 6 :=
    Memref.readAt_unit_zero (Elt F) cc0_scratch13 hz _ _
  rw [hr0, hr1, hr2, hr3, hr4, hr5, hr6]
  exact out_cover c g2 (own m ρ c) (widened m ρ c)

/-- info: 'Cert.Kernel.A2A.out_final' depends on axioms: [propext, Classical.choice, Quot.sound] -/
#guard_msgs in #print axioms out_final

end Cert.Kernel.A2A

end
-- ==== Proof.Kernel.Body.lean ====
/-
  One device's body, stepped from the protocol's ghost state to the staged result.

  The order of the body is the protocol's: seven handshake signals, each handing a peer the landing buffer that
  peer will fill; the wait for the seven units of the device's own barrier cell, which brings the seven peers'
  landing buffers; for each slot the product with the peer's columns, stored narrowed in the send buffer and copied
  into the peer's landing buffer; the product with the device's own columns stored at its own row block; for each
  slot the wait on the receive cell, which brings the landing buffer holding the peer's rows times the device's
  own columns, stored widened at the peer's row block; the seven waits on the send cells.  After them nothing is in
  flight on the device's fourteen own cells, which close at zero, and the eight stores have written the whole
  staged result.
-/
import proofs.«900795_g7700000000000796_dist_gemm_a2a_m2048_k2048_n2048_f32_none_v7x_i8_1_alg».proof.Proof.Kernel.Proto
import proofs.«900795_g7700000000000796_dist_gemm_a2a_m2048_k2048_n2048_f32_none_v7x_i8_1_alg».proof.Proof.Kernel.Pay
import proofs.«900795_g7700000000000796_dist_gemm_a2a_m2048_k2048_n2048_f32_none_v7x_i8_1_alg».proof.Proof.Kernel.Cover

noncomputable section

namespace Cert.Kernel.A2A

open Cert.Kernel Cert.Kernel.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Buffers as the stepping reads them, and the rules of the remote steps at this protocol's cells -/

omit [FloatOps F] in
theorem sPts_lit (c : Dev nD) (f : Blk F) :
    (sPts c 0 f = ((Memref.whole cc0_scratch0 : Memref sig .tc .vmem S256x256 .bf16).view.loc (c : Thread nD τ) ↦{fullShare} f : sProp 𝕄))
    ∧ (sPts c 1 f = ((Memref.whole cc0_scratch1 : Memref sig .tc .vmem S256x256 .bf16).view.loc (c : Thread nD τ) ↦{fullShare} f : sProp 𝕄))
    ∧ (sPts c 2 f = ((Memref.whole cc0_scratch2 : Memref sig .tc .vmem S256x256 .bf16).view.loc (c : Thread nD τ) ↦{fullShare} f : sProp 𝕄))
    ∧ (sPts c 3 f = ((Memref.whole cc0_scratch3 : Memref sig .tc .vmem S256x256 .bf16).view.loc (c : Thread nD τ) ↦{fullShare} f : sProp 𝕄))
    ∧ (sPts c 4 f = ((Memref.whole cc0_scratch4 : Memref sig .tc .vmem S256x256 .bf16).view.loc (c : Thread nD τ) ↦{fullShare} f : sProp 𝕄))
    ∧ (sPts c 5 f = ((Memref.whole cc0_scratch5 : Memref sig .tc .vmem S256x256 .bf16).view.loc (c : Thread nD τ) ↦{fullShare} f : sProp 𝕄))
    ∧ (sPts c 6 f = ((Memref.whole cc0_scratch6 : Memref sig .tc .vmem S256x256 .bf16).view.loc (c : Thread nD τ) ↦{fullShare} f : sProp 𝕄)) :=
  ⟨rfl, rfl, rfl, rfl, rfl, rfl, rfl⟩
omit [FloatOps F] in
theorem rPts_lit (c : Dev nD) (f : Blk F) :
    (rPts c 0 f = ((Memref.whole cc0_scratch7 : Memref sig .tc .vmem S256x256 .bf16).view.loc (c : Thread nD τ) ↦{fullShare} f : sProp 𝕄))
    ∧ (rPts c 1 f = ((Memref.whole cc0_scratch8 : Memref sig .tc .vmem S256x256 .bf16).view.loc (c : Thread nD τ) ↦{fullShare} f : sProp 𝕄))
    ∧ (rPts c 2 f = ((Memref.whole cc0_scratch9 : Memref sig .tc .vmem S256x256 .bf16).view.loc (c : Thread nD τ) ↦{fullShare} f : sProp 𝕄))
    ∧ (rPts c 3 f = ((Memref.whole cc0_scratch10 : Memref sig .tc .vmem S256x256 .bf16).view.loc (c : Thread nD τ) ↦{fullShare} f : sProp 𝕄))
    ∧ (rPts c 4 f = ((Memref.whole cc0_scratch11 : Memref sig .tc .vmem S256x256 .bf16).view.loc (c : Thread nD τ) ↦{fullShare} f : sProp 𝕄))
    ∧ (rPts c 5 f = ((Memref.whole cc0_scratch12 : Memref sig .tc .vmem S256x256 .bf16).view.loc (c : Thread nD τ) ↦{fullShare} f : sProp 𝕄))
    ∧ (rPts c 6 f = ((Memref.whole cc0_scratch13 : Memref sig .tc .vmem S256x256 .bf16).view.loc (c : Thread nD τ) ↦{fullShare} f : sProp 𝕄)) :=
  ⟨rfl, rfl, rfl, rfl, rfl, rfl, rfl⟩
omit [FloatOps F] in
/-- A whole buffer's points-to, through the whole memref's view. -/
theorem pts_view (c : Dev nD) (b : Ref sig .tc) (f : Buf (Elt F) ((c : Thread nD τ).loc b)) :
    ((((c : Thread nD τ).loc b) ↦{fullShare} f : sProp 𝕄)) = ((Memref.whole b).view.loc (c : Thread nD τ) ↦{fullShare} f) := rfl

omit [FloatOps F] in
theorem hz2 : (![0, 0] : Fin 2 → ℕ) = fun _ => 0 := funext fun a => by fin_cases a <;> rfl
omit [FloatOps F] in
/-- A whole buffer's points-to over the whole memref's own element set. -/
theorem pts_set (c : Dev nD) (b : Ref sig .tc) (f : Buf (Elt F) ((Memref.whole b).view.loc (c : Thread nD τ))) :
    (((Memref.whole b).view.loc (c : Thread nD τ) ↦{fullShare} f : sProp 𝕄)) = ((Memref.whole b).view.loc (c : Thread nD τ) ↦[(Memref.whole b).view.set]{fullShare} f) :=
  congrArg (fun S => ((Memref.whole b).view.loc (c : Thread nD τ) ↦[S]{fullShare} f : sProp 𝕄)) (View.set_whole b).symm

section Body
variable (K : Dev nD × Fin 15 → ℕ)

def bodyPre (c : Dev nD) : sProp 𝕄 :=
  iprop((ghost m ρ K c ∗ cred (tallyAt (barCell c) () 7) ∗ (bigSep Finset.univ fun σ : Fin 7 => cred (tallyAt (recvCell c σ) () N)) ∗ levAts L lv
      ∗ (bigSep Finset.univ fun σ : Fin 7 => iprop(∃ f, sPts (F := F) c σ f))
      ∗ (bigSep Finset.univ fun j : Fin 7 => iprop(∃ f, rPts (F := F) c (slot j c) f)))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

/-- Signal number `j` of the entry handshake: it pays duty `slot j c` of the target's barrier cell, handing over the
    landing buffer that target will fill and that the buffer's receive cell is at round 0. -/
theorem wp_sig (c n : Dev nD) (j : Fin 7) (hn : n = bsig j c) (k' : ℕ) (hk' : 1 = k') (O : CellTallies nD τ sig Unit) (W : Waits sig Unit)
    {α : Type} {Q : α → sProp 𝕄} {k : PUnit → Prog (TpuEff nD τ sig (Elt F) Λ₀ .tc) α} :
    iprop(cellInv ER (sched m ρ) (K (bsig j c, 0)) (barCell (bsig j c))
        ∗ owes (c : Thread nD τ) (O + tB c j) W
        ∗ dutyTok ER (barCell (bsig j c)) 0 (slot j c)
        ∗ (∃ f, rPts (F := F) c (slot j c) f) ∗ reached ER (recvCell c (slot j c)) 0
        ∗ reached ER (barCell (bsig j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn
  subst hk'
  iintro ⟨#HI, HO, Htok, Hbuf, #Hr, #HrB⟩
  iapply (Rounds.wp_signal 𝒱₀ ER (sched m ρ) (c : Thread nD τ) none (dst := (bsig j c : Thread nD τ)) (κ := K (bsig j c, 0))
      (d := slot j c) (by rw [duties_bar]; exact Finset.mem_univ _) (amount_bar m ρ (bsig j c) (slot j c)) () O rfl) $$ [HO Htok Hbuf]
  isplitr; · iexact HI
  isplitl [HO]; · iexact HO
  isplitl [Htok]; · iexact Htok
  isplitl [Hbuf]
  · rw [payload_bar]; unfold barPay; rw [tgt_slot_bsig]
    isplitl [Hbuf]; · iexact Hbuf
    iexact Hr
  · iexact HrB

omit [FloatOps F] in
theorem Orecv_pos {c : Dev nD} {g : GSem nD τ sig} {u : Unit} (h : 0 < Orecv c g u) : ∃ σ : Fin 7, g = recvCell (tgt σ c) σ := by
  by_contra hn
  rw [not_exists] at hn
  have hz : ∀ σ : Fin 7, (tallyAt (recvCell (tgt σ c) σ) () N : CellTallies nD τ sig Unit) g u = 0 := fun σ => by
    rw [tallyAt_apply, if_neg (fun h' => hn σ h'.1)]
  unfold Orecv at h
  simp only [Pi.add_apply, Finsupp.add_apply, hz, Pi.zero_apply, Finsupp.zero_apply, Nat.add_zero] at h
  exact Nat.lt_irrefl 0 h

omit [FloatOps F] in
theorem lv_recv (c : Dev nD) (σ : Fin 7) : lv (recvCell c σ) () = 2 := by
  dsimp only [lv]; rw [if_neg (recv_ne_bar σ), if_pos (by show decide (10 ≤ 10 + σ.val) = true; exact decide_eq_true (by omega))]

omit [FloatOps F] in
/-- At its barrier wait a device owes the transfers' credit only: receive cells, above its barrier cell. -/
theorem mayWait_bar (c : Dev nD) : (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨σ, rfl⟩ := Orecv_pos hg; rw [L_tc]; exact Finset.mem_singleton_self _)
    (fun p hp => by rw [Finset.mem_singleton.mp hp]; dsimp only [lv]; rw [if_pos rfl])
    (fun g u hg => by obtain ⟨σ, rfl⟩ := Orecv_pos hg; rw [lv_recv]; decide)

/-- Slot `σ`'s transfer, addressed to `n = tgt σ c`: it pays the one duty of the issuer's send cell (the send buffer
    back at its contents) and the one duty of the peer's receive cell (the landing buffer rewritten), the fact `P` about
    what was sent travelling with the landing. -/
theorem wp_snd (c n : Dev nD) (σ : Fin 7) (hn : n = tgt σ c)
    (src dst : Memref sig .tc .vmem S256x256 .bf16)
    {hsc : dst.view.ref.isScScratch = false} {hsrc : src.view.WordExact} {hdst : dst.view.WordExact}
    {hsem : DmaTarget.Typed .vmem (.dma (recvSem σ)) (.remote (Dev.tc n : Thread nD τ) dst (.dma (sendSem σ)) hsc)}
    (fs : Buf (Elt F) (src.view.loc (c : Thread nD τ))) (fd : Buf (Elt F) (dst.view.loc (Dev.tc (tgt σ c) : Thread nD τ))) (P : Prop)
    (hN : dst.view.amount (.dma (recvSem σ)) = N)
    (h₁ : (src.view.loc (c : Thread nD τ) ↦[src.view.set]{fullShare} fs : sProp 𝕄) ⊢ (sched (F := F) m ρ).payload (sendCell c σ) 0 0)
    (h₂ : iprop((dst.view.loc (Dev.tc (tgt σ c) : Thread nD τ) ↦[dst.view.set]{fullShare} (dst.view.write (Elt F) fd (src.view.read (Elt F) fs) Finset.univ)) ∗ ⌜P⌝)
            ⊢ (sched (F := F) m ρ).payload (recvCell (tgt σ c) σ) 0 0)
    (O : CellTallies nD τ sig Unit) (W : Waits sig Unit)
    {α : Type} {Q : α → sProp 𝕄} {k : PUnit → Prog (TpuEff nD τ sig (Elt F) Λ₀ .tc) α} :
    iprop(cellInv ER (sched m ρ) (K (c, sIdx σ)) (sendCell c σ) ∗ cellInv ER (sched m ρ) (K (tgt σ c, rIdx σ)) (recvCell (tgt σ c) σ)
        ∗ (src.view.loc (c : Thread nD τ) ↦[src.view.set]{fullShare} fs)
        ∗ ((dst.view.loc (Dev.tc (tgt σ c) : Thread nD τ) ↦[dst.view.set]{fullShare} fd) ∗ ⌜P⌝)
        ∗ owes (c : Thread nD τ) (O + tR c σ) W
        ∗ dutyTok ER (sendCell c σ) 0 0 ∗ reached ER (sendCell c σ) 0
        ∗ dutyTok ER (recvCell (tgt σ c) σ) 0 0 ∗ reached ER (recvCell (tgt σ c) σ) 0)
      ⊢ iprop(((cred (tallyAt (sendCell c σ) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendSem σ)) hsc) (.dma (recvSem σ)) hsrc hdst hsem) k) Q) := by
  subst hn
  exact Rounds.wp_send_pointsTo_with 𝒱₀ ER (sched m ρ) (c : Thread nD τ) none (κ₁ := K (c, sIdx σ)) (κ₂ := K (tgt σ c, rIdx σ))
    (r₁ := 0) (r₂ := 0) (d₁ := (0 : Fin 7)) (d₂ := (0 : Fin 7)) (fd := fd)
    (by rw [duties_send]; exact Finset.mem_singleton_self _) (by rw [duties_recv]; exact Finset.mem_singleton_self _)
    () () N hN (amount_send m ρ c σ 0) (amount_recv m ρ (tgt σ c) σ 0) O rfl (W := W) h₁ h₂
theorem payload_recvL0 (c : Dev nD) (d : Fin 7) : (sched (F := F) m ρ).payload (recvCell c 0) 0 d
    = ((Memref.whole cc0_scratch7 : Memref sig .tc .vmem S256x256 .bf16).view.loc (c : Thread nD τ) ↦{fullShare} landed m ρ c 0 : sProp 𝕄) :=
  (payload_recv m ρ c 0 d).trans (rPts_lit c (landed m ρ c 0)).1
theorem payload_recvL1 (c : Dev nD) (d : Fin 7) : (sched (F := F) m ρ).payload (recvCell c 1) 0 d
    = ((Memref.whole cc0_scratch8 : Memref sig .tc .vmem S256x256 .bf16).view.loc (c : Thread nD τ) ↦{fullShare} landed m ρ c 1 : sProp 𝕄) :=
  (payload_recv m ρ c 1 d).trans (rPts_lit c (landed m ρ c 1)).2.1
theorem payload_recvL2 (c : Dev nD) (d : Fin 7) : (sched (F := F) m ρ).payload (recvCell c 2) 0 d
    = ((Memref.whole cc0_scratch9 : Memref sig .tc .vmem S256x256 .bf16).view.loc (c : Thread nD τ) ↦{fullShare} landed m ρ c 2 : sProp 𝕄) :=
  (payload_recv m ρ c 2 d).trans (rPts_lit c (landed m ρ c 2)).2.2.1
theorem payload_recvL3 (c : Dev nD) (d : Fin 7) : (sched (F := F) m ρ).payload (recvCell c 3) 0 d
    = ((Memref.whole cc0_scratch10 : Memref sig .tc .vmem S256x256 .bf16).view.loc (c : Thread nD τ) ↦{fullShare} landed m ρ c 3 : sProp 𝕄) :=
  (payload_recv m ρ c 3 d).trans (rPts_lit c (landed m ρ c 3)).2.2.2.1
theorem payload_recvL4 (c : Dev nD) (d : Fin 7) : (sched (F := F) m ρ).payload (recvCell c 4) 0 d
    = ((Memref.whole cc0_scratch11 : Memref sig .tc .vmem S256x256 .bf16).view.loc (c : Thread nD τ) ↦{fullShare} landed m ρ c 4 : sProp 𝕄) :=
  (payload_recv m ρ c 4 d).trans (rPts_lit c (landed m ρ c 4)).2.2.2.2.1
theorem payload_recvL5 (c : Dev nD) (d : Fin 7) : (sched (F := F) m ρ).payload (recvCell c 5) 0 d
    = ((Memref.whole cc0_scratch12 : Memref sig .tc .vmem S256x256 .bf16).view.loc (c : Thread nD τ) ↦{fullShare} landed m ρ c 5 : sProp 𝕄) :=
  (payload_recv m ρ c 5 d).trans (rPts_lit c (landed m ρ c 5)).2.2.2.2.2.1
theorem payload_recvL6 (c : Dev nD) (d : Fin 7) : (sched (F := F) m ρ).payload (recvCell c 6) 0 d
    = ((Memref.whole cc0_scratch13 : Memref sig .tc .vmem S256x256 .bf16).view.loc (c : Thread nD τ) ↦{fullShare} landed m ρ c 6 : sProp 𝕄) :=
  (payload_recv m ρ c 6 d).trans (rPts_lit c (landed m ρ c 6)).2.2.2.2.2.2
attribute [local sl_rounds] duties_bar duties_send duties_recv amount_bar amount_send amount_recv expect_bar expect_send expect_recv
  payload_bar payload_send payload_recvL0 payload_recvL1 payload_recvL2 payload_recvL3 payload_recvL4 payload_recvL5 payload_recvL6 tgt_slot_bsig
attribute [local sl_canon] dev_sig0 dev_sig1 dev_sig2 dev_sig3 dev_sig4 dev_sig5 dev_sig6 dev_tgt0 dev_tgt1 dev_tgt2 dev_tgt3 dev_tgt4 dev_tgt5 dev_tgt6

omit [FloatOps F] in
/-- The kernel's own fourteen semaphores, listed. -/
theorem own_sems (c : Dev nD) : (bigSep Finset.univ fun k : Fin 14 => semVal ((c : Thread nD τ), osem k) 0 : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) := by
  rw [bigSep_univ_eq_bigSepL [0, 1, 2, 3, 4, 5, 6, 7, 8, 9, 10, 11, 12, 13] (by decide) (by decide)]; rfl

/-- The body's postcondition with its three families listed slot by slot. -/
def bodyPostX (c : Dev nD) : sProp 𝕄 :=
  iprop((((∃ f, sPts (F := F) c 0 f) ∗ (∃ f, sPts (F := F) c 1 f) ∗ (∃ f, sPts (F := F) c 2 f) ∗ (∃ f, sPts (F := F) c 3 f) ∗ (∃ f, sPts (F := F) c 4 f) ∗ (∃ f, sPts (F := F) c 5 f) ∗ (∃ f, sPts (F := F) c 6 f))
      ∗ ((∃ f, rPts (F := F) c 0 f) ∗ (∃ f, rPts (F := F) c 1 f) ∗ (∃ f, rPts (F := F) c 2 f) ∗ (∃ f, rPts (F := F) c 3 f) ∗ (∃ f, rPts (F := F) c 4 f) ∗ (∃ f, rPts (F := F) c 5 f) ∗ (∃ f, rPts (F := F) c 6 f))
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0))
    ∗ (dats m ρ 0 c).owesAt () t₀.succ ∗ stg c cc0_stg0_0 (xstg m ρ c) ∗ stg c cc0_stg1_0 (wstg m ρ c) ∗ stg c cc0_stg2_0 (outAt m ρ c))

theorem bodyPostX_eq (c : Dev nD) : bodyPostX m ρ c = bodyPost m ρ c := by
  unfold bodyPostX bodyPost Φ₁
  rw [bigSep_fin7, bigSep_fin7, own_sems]

set_option maxHeartbeats 4000000 in
/-- The body from `bodyPre` to `bodyPostX`: the local stretches in program order, the handshake signals and the
    transfers by the rules of their cells. -/
theorem sound_body (c : Dev nD) (Kt : PUnit → sProp 𝕄) :
    iprop(bodyPre m ρ K c ∗ (bodyPostX m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15) Kt := by
  unfold bodyPre ghost
  simp only [bigSep_fin7]
  iintro ⟨⟨⟨⟨#HIbar, ⟨#HIs0, #HIs1, #HIs2, #HIs3, #HIs4, #HIs5, #HIs6⟩, ⟨#HIr0, #HIr1, #HIr2, #HIr3, #HIr4, #HIr5, #HIr6⟩, ⟨#HIb0, #HIb1, #HIb2, #HIb3, #HIb4, #HIb5, #HIb6⟩, ⟨#HIp0, #HIp1, #HIp2, #HIp3, #HIp4, #HIp5, #HIp6⟩, HatB, ⟨HatS0, HatS1, HatS2, HatS3, HatS4, HatS5, HatS6⟩, ⟨HatR0, HatR1, HatR2, HatR3, HatR4, HatR5, HatR6⟩, ⟨#HrB0, #HrB1, #HrB2, #HrB3, #HrB4, #HrB5, #HrB6⟩, ⟨#HrP0, #HrP1, #HrP2, #HrP3, #HrP4, #HrP5, #HrP6⟩, ⟨#HrS0, #HrS1, #HrS2, #HrS3, #HrS4, #HrS5, #HrS6⟩, ⟨#HrO0, #HrO1, #HrO2, #HrO3, #HrO4, #HrO5, #HrO6⟩, ⟨HtB0, HtB1, HtB2, HtB3, HtB4, HtB5, HtB6⟩, ⟨HtP0, HtP1, HtP2, HtP3, HtP4, HtP5, HtP6⟩, HtS0, HtS1, HtS2, HtS3, HtS4, HtS5, HtS6⟩, HcB, ⟨HcR0, HcR1, HcR2, HcR3, HcR4, HcR5, HcR6⟩, #Hlev, ⟨⟨%fs0, Hsb0⟩, ⟨%fs1, Hsb1⟩, ⟨%fs2, Hsb2⟩, ⟨%fs3, Hsb3⟩, ⟨%fs4, Hsb4⟩, ⟨%fs5, Hsb5⟩, ⟨%fs6, Hsb6⟩⟩, Hrb0, Hrb1, Hrb2, Hrb3, Hrb4, Hrb5, Hrb6⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  unfold O₀ Orecv
  sl_exec
  -- the seven handshake signals
  iapply (wp_sig m ρ K c _ 0 rfl _ (by decide) _ W) $$ [HO HtB0 Hrb0]
  · isplitr; · iexact HIb0
    isplitl [HO]; · iexact HO
    isplitl [HtB0]; · iexact HtB0
    isplitl [Hrb0]; · iexact Hrb0
    isplitr; · iexact HrO0
    iexact HrB0
  iintro HO
  sl_exec
  iapply (wp_sig m ρ K c _ 1 rfl _ (by decide) _ W) $$ [HO HtB1 Hrb1]
  · isplitr; · iexact HIb1
    isplitl [HO]; · iexact HO
    isplitl [HtB1]; · iexact HtB1
    isplitl [Hrb1]; · iexact Hrb1
    isplitr; · iexact HrO1
    iexact HrB1
  iintro HO
  sl_exec
  iapply (wp_sig m ρ K c _ 2 rfl _ (by decide) _ W) $$ [HO HtB2 Hrb2]
  · isplitr; · iexact HIb2
    isplitl [HO]; · iexact HO
    isplitl [HtB2]; · iexact HtB2
    isplitl [Hrb2]; · iexact Hrb2
    isplitr; · iexact HrO2
    iexact HrB2
  iintro HO
  sl_exec
  iapply (wp_sig m ρ K c _ 3 rfl _ (by decide) _ W) $$ [HO HtB3 Hrb3]
  · isplitr; · iexact HIb3
    isplitl [HO]; · iexact HO
    isplitl [HtB3]; · iexact HtB3
    isplitl [Hrb3]; · iexact Hrb3
    isplitr; · iexact HrO3
    iexact HrB3
  iintro HO
  sl_exec
  iapply (wp_sig m ρ K c _ 4 rfl _ (by decide) _ W) $$ [HO HtB4 Hrb4]
  · isplitr; · iexact HIb4
    isplitl [HO]; · iexact HO
    isplitl [HtB4]; · iexact HtB4
    isplitl [Hrb4]; · iexact Hrb4
    isplitr; · iexact HrO4
    iexact HrB4
  iintro HO
  sl_exec
  iapply (wp_sig m ρ K c _ 5 rfl _ (by decide) _ W) $$ [HO HtB5 Hrb5]
  · isplitr; · iexact HIb5
    isplitl [HO]; · iexact HO
    isplitl [HtB5]; · iexact HtB5
    isplitl [Hrb5]; · iexact Hrb5
    isplitr; · iexact HrO5
    iexact HrB5
  iintro HO
  sl_exec
  iapply (wp_sig m ρ K c _ 6 rfl _ (by decide) _ W) $$ [HO HtB6 Hrb6]
  · isplitr; · iexact HIb6
    isplitl [HO]; · iexact HO
    isplitl [HtB6]; · iexact HtB6
    isplitl [Hrb6]; · iexact Hrb6
    isplitr; · iexact HrO6
    iexact HrB6
  iintro HO
  sl_exec
  -- the wait for the whole round of the barrier cell: the seven peers' landing buffers come with it
  iapply (Rounds.wp_wait_rest_token 𝒱₀ ER (sched m ρ) (c : Thread nD τ) none (κ := K (c, 0))
      (wpE_semWait_eq 𝒱₀ (c : Thread nD τ) none Set.univ) (Set.mem_univ _) () (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  simp only [bigSep_fin7]
  unfold barPay
  icases Hp with ⟨⟨⟨%fr0, Hr0⟩, #HrQ0⟩, ⟨⟨%fr1, Hr1⟩, #HrQ1⟩, ⟨⟨%fr2, Hr2⟩, #HrQ2⟩, ⟨⟨%fr3, Hr3⟩, #HrQ3⟩, ⟨⟨%fr4, Hr4⟩, #HrQ4⟩, ⟨⟨%fr5, Hr5⟩, #HrQ5⟩, ⟨⟨%fr6, Hr6⟩, #HrQ6⟩⟩
  ihave Hx := (Entails.of_eq (pts_view c cc0_stg0_0 _)) $$ Hx
  ihave Hw := (Entails.of_eq (pts_view c cc0_stg1_0 _)) $$ Hw
  ihave Hout := (Entails.of_eq (pts_view c cc0_stg2_0 _)) $$ Hout
  ihave Hs0 := (Entails.of_eq (sPts_lit c fs0).1) $$ Hsb0
  ihave Hs1 := (Entails.of_eq (sPts_lit c fs1).2.1) $$ Hsb1
  ihave Hs2 := (Entails.of_eq (sPts_lit c fs2).2.2.1) $$ Hsb2
  ihave Hs3 := (Entails.of_eq (sPts_lit c fs3).2.2.2.1) $$ Hsb3
  ihave Hs4 := (Entails.of_eq (sPts_lit c fs4).2.2.2.2.1) $$ Hsb4
  ihave Hs5 := (Entails.of_eq (sPts_lit c fs5).2.2.2.2.2.1) $$ Hsb5
  ihave Hs6 := (Entails.of_eq (sPts_lit c fs6).2.2.2.2.2.2) $$ Hsb6
  ihave Hq0 := (Entails.of_eq (rPts_lit (tgt 0 c) fr0).1) $$ Hr0
  ihave Hq1 := (Entails.of_eq (rPts_lit (tgt 1 c) fr1).2.1) $$ Hr1
  ihave Hq2 := (Entails.of_eq (rPts_lit (tgt 2 c) fr2).2.2.1) $$ Hr2
  ihave Hq3 := (Entails.of_eq (rPts_lit (tgt 3 c) fr3).2.2.2.1) $$ Hr3
  ihave Hq4 := (Entails.of_eq (rPts_lit (tgt 4 c) fr4).2.2.2.2.1) $$ Hr4
  ihave Hq5 := (Entails.of_eq (rPts_lit (tgt 5 c) fr5).2.2.2.2.2.1) $$ Hr5
  ihave Hq6 := (Entails.of_eq (rPts_lit (tgt 6 c) fr6).2.2.2.2.2.2) $$ Hr6
  sl_exec
  -- slot 0's block goes to its peer: the send cell's duty and the peer's receive cell's duty
  ihave Hs0 := (Entails.of_eq (pts_set c cc0_scratch0 _)) $$ Hs0
  ihave Hq0 := (Entails.of_eq (pts_set (tgt 0 c) cc0_scratch7 _)) $$ Hq0
  iapply (wp_snd m ρ K c _ 0 (dev_tgt0 c) (Memref.whole cc0_scratch0) (Memref.whole cc0_scratch7) _ fr0 _ rfl
      (pay_send0 m ρ c _) (pay_recv0 m ρ c _ fr0) (0 + tR c 6 + tR c 5 + tR c 4 + tR c 3 + tR c 2 + tR c 1) _) $$ [Hs0 Hq0 HO HtS0 HtP0]
  · isplitr; · iexact HIs0
    isplitr; · iexact HIp0
    isplitl [Hs0]; · iexact Hs0
    isplitl [Hq0]
    · isplitl [Hq0]; · iexact Hq0
      ipureintro; exact (writes_whole1 cc0_scratch0 _ hz2 _ _).trans rfl
    isplitl [HO]; · iexact HO
    isplitl [HtS0]; · iexact HtS0
    isplitr; · iexact HrS0
    isplitl [HtP0]; · iexact HtP0
    iexact HrP0
  iintro ⟨HcS0, HO⟩
  sl_exec
  -- slot 1's block goes to its peer: the send cell's duty and the peer's receive cell's duty
  ihave Hs1 := (Entails.of_eq (pts_set c cc0_scratch1 _)) $$ Hs1
  ihave Hq1 := (Entails.of_eq (pts_set (tgt 1 c) cc0_scratch8 _)) $$ Hq1
  iapply (wp_snd m ρ K c _ 1 (dev_tgt1 c) (Memref.whole cc0_scratch1) (Memref.whole cc0_scratch8) _ fr1 _ rfl
      (pay_send1 m ρ c _) (pay_recv1 m ρ c _ fr1) (0 + tR c 6 + tR c 5 + tR c 4 + tR c 3 + tR c 2) _) $$ [Hs1 Hq1 HO HtS1 HtP1]
  · isplitr; · iexact HIs1
    isplitr; · iexact HIp1
    isplitl [Hs1]; · iexact Hs1
    isplitl [Hq1]
    · isplitl [Hq1]; · iexact Hq1
      ipureintro; exact (writes_whole1 cc0_scratch1 _ hz2 _ _).trans rfl
    isplitl [HO]; · iexact HO
    isplitl [HtS1]; · iexact HtS1
    isplitr; · iexact HrS1
    isplitl [HtP1]; · iexact HtP1
    iexact HrP1
  iintro ⟨HcS1, HO⟩
  sl_exec
  -- slot 2's block goes to its peer: the send cell's duty and the peer's receive cell's duty
  ihave Hs2 := (Entails.of_eq (pts_set c cc0_scratch2 _)) $$ Hs2
  ihave Hq2 := (Entails.of_eq (pts_set (tgt 2 c) cc0_scratch9 _)) $$ Hq2
  iapply (wp_snd m ρ K c _ 2 (dev_tgt2 c) (Memref.whole cc0_scratch2) (Memref.whole cc0_scratch9) _ fr2 _ rfl
      (pay_send2 m ρ c _) (pay_recv2 m ρ c _ fr2) (0 + tR c 6 + tR c 5 + tR c 4 + tR c 3) _) $$ [Hs2 Hq2 HO HtS2 HtP2]
  · isplitr; · iexact HIs2
    isplitr; · iexact HIp2
    isplitl [Hs2]; · iexact Hs2
    isplitl [Hq2]
    · isplitl [Hq2]; · iexact Hq2
      ipureintro; exact (writes_whole1 cc0_scratch2 _ hz2 _ _).trans rfl
    isplitl [HO]; · iexact HO
    isplitl [HtS2]; · iexact HtS2
    isplitr; · iexact HrS2
    isplitl [HtP2]; · iexact HtP2
    iexact HrP2
  iintro ⟨HcS2, HO⟩
  sl_exec
  -- slot 3's block goes to its peer: the send cell's duty and the peer's receive cell's duty
  ihave Hs3 := (Entails.of_eq (pts_set c cc0_scratch3 _)) $$ Hs3
  ihave Hq3 := (Entails.of_eq (pts_set (tgt 3 c) cc0_scratch10 _)) $$ Hq3
  iapply (wp_snd m ρ K c _ 3 (dev_tgt3 c) (Memref.whole cc0_scratch3) (Memref.whole cc0_scratch10) _ fr3 _ rfl
      (pay_send3 m ρ c _) (pay_recv3 m ρ c _ fr3) (0 + tR c 6 + tR c 5 + tR c 4) _) $$ [Hs3 Hq3 HO HtS3 HtP3]
  · isplitr; · iexact HIs3
    isplitr; · iexact HIp3
    isplitl [Hs3]; · iexact Hs3
    isplitl [Hq3]
    · isplitl [Hq3]; · iexact Hq3
      ipureintro; exact (writes_whole1 cc0_scratch3 _ hz2 _ _).trans rfl
    isplitl [HO]; · iexact HO
    isplitl [HtS3]; · iexact HtS3
    isplitr; · iexact HrS3
    isplitl [HtP3]; · iexact HtP3
    iexact HrP3
  iintro ⟨HcS3, HO⟩
  sl_exec
  -- slot 4's block goes to its peer: the send cell's duty and the peer's receive cell's duty
  ihave Hs4 := (Entails.of_eq (pts_set c cc0_scratch4 _)) $$ Hs4
  ihave Hq4 := (Entails.of_eq (pts_set (tgt 4 c) cc0_scratch11 _)) $$ Hq4
  iapply (wp_snd m ρ K c _ 4 (dev_tgt4 c) (Memref.whole cc0_scratch4) (Memref.whole cc0_scratch11) _ fr4 _ rfl
      (pay_send4 m ρ c _) (pay_recv4 m ρ c _ fr4) (0 + tR c 6 + tR c 5) _) $$ [Hs4 Hq4 HO HtS4 HtP4]
  · isplitr; · iexact HIs4
    isplitr; · iexact HIp4
    isplitl [Hs4]; · iexact Hs4
    isplitl [Hq4]
    · isplitl [Hq4]; · iexact Hq4
      ipureintro; exact (writes_whole1 cc0_scratch4 _ hz2 _ _).trans rfl
    isplitl [HO]; · iexact HO
    isplitl [HtS4]; · iexact HtS4
    isplitr; · iexact HrS4
    isplitl [HtP4]; · iexact HtP4
    iexact HrP4
  iintro ⟨HcS4, HO⟩
  sl_exec
  -- slot 5's block goes to its peer: the send cell's duty and the peer's receive cell's duty
  ihave Hs5 := (Entails.of_eq (pts_set c cc0_scratch5 _)) $$ Hs5
  ihave Hq5 := (Entails.of_eq (pts_set (tgt 5 c) cc0_scratch12 _)) $$ Hq5
  iapply (wp_snd m ρ K c _ 5 (dev_tgt5 c) (Memref.whole cc0_scratch5) (Memref.whole cc0_scratch12) _ fr5 _ rfl
      (pay_send5 m ρ c _) (pay_recv5 m ρ c _ fr5) (0 + tR c 6) _) $$ [Hs5 Hq5 HO HtS5 HtP5]
  · isplitr; · iexact HIs5
    isplitr; · iexact HIp5
    isplitl [Hs5]; · iexact Hs5
    isplitl [Hq5]
    · isplitl [Hq5]; · iexact Hq5
      ipureintro; exact (writes_whole1 cc0_scratch5 _ hz2 _ _).trans rfl
    isplitl [HO]; · iexact HO
    isplitl [HtS5]; · iexact HtS5
    isplitr; · iexact HrS5
    isplitl [HtP5]; · iexact HtP5
    iexact HrP5
  iintro ⟨HcS5, HO⟩
  sl_exec
  -- slot 6's block goes to its peer: the send cell's duty and the peer's receive cell's duty
  ihave Hs6 := (Entails.of_eq (pts_set c cc0_scratch6 _)) $$ Hs6
  ihave Hq6 := (Entails.of_eq (pts_set (tgt 6 c) cc0_scratch13 _)) $$ Hq6
  iapply (wp_snd m ρ K c _ 6 (dev_tgt6 c) (Memref.whole cc0_scratch6) (Memref.whole cc0_scratch13) _ fr6 _ rfl
      (pay_send6 m ρ c _) (pay_recv6 m ρ c _ fr6) (0) _) $$ [Hs6 Hq6 HO HtS6 HtP6]
  · isplitr; · iexact HIs6
    isplitr; · iexact HIp6
    isplitl [Hs6]; · iexact Hs6
    isplitl [Hq6]
    · isplitl [Hq6]; · iexact Hq6
      ipureintro; exact (writes_whole1 cc0_scratch6 _ hz2 _ _).trans rfl
    isplitl [HO]; · iexact HO
    isplitl [HtS6]; · iexact HtS6
    isplitr; · iexact HrS6
    isplitl [HtP6]; · iexact HtP6
    iexact HrP6
  iintro ⟨HcS6, HO⟩
  sl_exec
  -- every transfer waited for: the fourteen own cells close, their counters at zero
  imod (Rounds.cell_close ER (sched m ρ) (Set.mem_univ (K (c, sIdx 0))) (fun h => h) (R := 1) (duties_later m ρ (sendCell c 0))) $$ [HatS0] with HzS0
  · isplitr; · iexact HIs0
    iexact HatS0
  imod (Rounds.cell_close ER (sched m ρ) (Set.mem_univ (K (c, sIdx 1))) (fun h => h) (R := 1) (duties_later m ρ (sendCell c 1))) $$ [HatS1] with HzS1
  · isplitr; · iexact HIs1
    iexact HatS1
  imod (Rounds.cell_close ER (sched m ρ) (Set.mem_univ (K (c, sIdx 2))) (fun h => h) (R := 1) (duties_later m ρ (sendCell c 2))) $$ [HatS2] with HzS2
  · isplitr; · iexact HIs2
    iexact HatS2
  imod (Rounds.cell_close ER (sched m ρ) (Set.mem_univ (K (c, sIdx 3))) (fun h => h) (R := 1) (duties_later m ρ (sendCell c 3))) $$ [HatS3] with HzS3
  · isplitr; · iexact HIs3
    iexact HatS3
  imod (Rounds.cell_close ER (sched m ρ) (Set.mem_univ (K (c, sIdx 4))) (fun h => h) (R := 1) (duties_later m ρ (sendCell c 4))) $$ [HatS4] with HzS4
  · isplitr; · iexact HIs4
    iexact HatS4
  imod (Rounds.cell_close ER (sched m ρ) (Set.mem_univ (K (c, sIdx 5))) (fun h => h) (R := 1) (duties_later m ρ (sendCell c 5))) $$ [HatS5] with HzS5
  · isplitr; · iexact HIs5
    iexact HatS5
  imod (Rounds.cell_close ER (sched m ρ) (Set.mem_univ (K (c, sIdx 6))) (fun h => h) (R := 1) (duties_later m ρ (sendCell c 6))) $$ [HatS6] with HzS6
  · isplitr; · iexact HIs6
    iexact HatS6
  imod (Rounds.cell_close ER (sched m ρ) (Set.mem_univ (K (c, rIdx 0))) (fun h => h) (R := 1) (duties_later m ρ (recvCell c 0))) $$ [HatR0] with HzR0
  · isplitr; · iexact HIr0
    iexact HatR0
  imod (Rounds.cell_close ER (sched m ρ) (Set.mem_univ (K (c, rIdx 1))) (fun h => h) (R := 1) (duties_later m ρ (recvCell c 1))) $$ [HatR1] with HzR1
  · isplitr; · iexact HIr1
    iexact HatR1
  imod (Rounds.cell_close ER (sched m ρ) (Set.mem_univ (K (c, rIdx 2))) (fun h => h) (R := 1) (duties_later m ρ (recvCell c 2))) $$ [HatR2] with HzR2
  · isplitr; · iexact HIr2
    iexact HatR2
  imod (Rounds.cell_close ER (sched m ρ) (Set.mem_univ (K (c, rIdx 3))) (fun h => h) (R := 1) (duties_later m ρ (recvCell c 3))) $$ [HatR3] with HzR3
  · isplitr; · iexact HIr3
    iexact HatR3
  imod (Rounds.cell_close ER (sched m ρ) (Set.mem_univ (K (c, rIdx 4))) (fun h => h) (R := 1) (duties_later m ρ (recvCell c 4))) $$ [HatR4] with HzR4
  · isplitr; · iexact HIr4
    iexact HatR4
  imod (Rounds.cell_close ER (sched m ρ) (Set.mem_univ (K (c, rIdx 5))) (fun h => h) (R := 1) (duties_later m ρ (recvCell c 5))) $$ [HatR5] with HzR5
  · isplitr; · iexact HIr5
    iexact HatR5
  imod (Rounds.cell_close ER (sched m ρ) (Set.mem_univ (K (c, rIdx 6))) (fun h => h) (R := 1) (duties_later m ρ (recvCell c 6))) $$ [HatR6] with HzR6
  · isplitr; · iexact HIr6
    iexact HatR6
  unfold sendPay
  ihave Hl0 := (Entails.of_eq (rPts_lit c (landed m ρ c 0)).1.symm) $$ HatR0_pay1
  ihave Hl1 := (Entails.of_eq (rPts_lit c (landed m ρ c 1)).2.1.symm) $$ HatR1_pay1
  ihave Hl2 := (Entails.of_eq (rPts_lit c (landed m ρ c 2)).2.2.1.symm) $$ HatR2_pay1
  ihave Hl3 := (Entails.of_eq (rPts_lit c (landed m ρ c 3)).2.2.2.1.symm) $$ HatR3_pay1
  ihave Hl4 := (Entails.of_eq (rPts_lit c (landed m ρ c 4)).2.2.2.2.1.symm) $$ HatR4_pay1
  ihave Hl5 := (Entails.of_eq (rPts_lit c (landed m ρ c 5)).2.2.2.2.2.1.symm) $$ HatR5_pay1
  ihave Hl6 := (Entails.of_eq (rPts_lit c (landed m ρ c 6)).2.2.2.2.2.2.symm) $$ HatR6_pay1
  sl_step
  iapply Hk
  unfold bodyPostX Dat.owesAt Pipeline.owesWithin
  rw [show (dats m ρ 0 c).owed t₀.succ = 0 from rfl]
  isplitr [HO Hx Hw Hout]
  · isplitl [HatS0_pay1 HatS1_pay1 HatS2_pay1 HatS3_pay1 HatS4_pay1 HatS5_pay1 HatS6_pay1]
    · isplitl [HatS0_pay1]; · iexact HatS0_pay1
      isplitl [HatS1_pay1]; · iexact HatS1_pay1
      isplitl [HatS2_pay1]; · iexact HatS2_pay1
      isplitl [HatS3_pay1]; · iexact HatS3_pay1
      isplitl [HatS4_pay1]; · iexact HatS4_pay1
      isplitl [HatS5_pay1]; · iexact HatS5_pay1
      iexact HatS6_pay1
    isplitl [Hl0 Hl1 Hl2 Hl3 Hl4 Hl5 Hl6]
    · isplitl [Hl0]; · (iexists _; iexact Hl0)
      isplitl [Hl1]; · (iexists _; iexact Hl1)
      isplitl [Hl2]; · (iexists _; iexact Hl2)
      isplitl [Hl3]; · (iexists _; iexact Hl3)
      isplitl [Hl4]; · (iexists _; iexact Hl4)
      isplitl [Hl5]; · (iexists _; iexact Hl5)
      iexists _; iexact Hl6
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _
    isplitr
    on_goal 2 => iexact HO
    ipureintro; exact fun _ _ => Or.inl trivial
  isplitl [Hx]
  · iexists _; isplitr; · (ipureintro; rfl)
    iexact Hx
  isplitl [Hw]
  · iexists _; isplitr; · (ipureintro; rfl)
    iexact Hw
  iexists _; isplitr
  · ipureintro; exact out_final m ρ c g2
  iexact Hout

end Body

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15) (fun _ => bodyPost m ρ c)
  unfold bodyPre' Φ₀ start
  iintro ⟨⟨⟨⟨%K, Hg⟩, HcB, HcR, Hlev⟩, Hsb, Hrb⟩, Ho, Hx, Hw, Hout⟩
  iapply (sound_body m ρ K c fun _ => bodyPost m ρ c)
  unfold bodyPre
  isplitr []
  · isplitl [Hg HcB HcR Hlev Hsb Hrb]
    · isplitl [Hg]; · iexact Hg
      isplitl [HcB]; · iexact HcB
      isplitl [HcR]; · iexact HcR
      isplitl [Hlev]; · iexact Hlev
      isplitl [Hsb]; · iexact Hsb
      iexact Hrb
    isplitl [Ho]; · iexact Ho
    isplitl [Hx]; · iexact Hx
    isplitl [Hw]; · iexact Hw
    iexact Hout
  · iintro H
    iapply (Entails.of_eq (bodyPostX_eq m ρ c))
    iexact H

/-- info: 'Cert.Kernel.A2A.body_obligation' depends on axioms: [propext, Classical.choice, Quot.sound] -/
#guard_msgs in #print axioms body_obligation

end Cert.Kernel.A2A

end
-- ==== Proof.KernelIdeal.Chains.lean ====
/-
  The printed device chains and offset chains of the kernel in closed form over the mesh maps:
  the seven handshake signals address `bsig j c`, the seven transfers `tgt σ c`; the column block of
  `w` a transfer's product reads is the peer's, `256 · tgt σ c`, the one the local product reads is the
  device's own; the row block of the result a received block is stored at is the peer's.
-/
import proofs.«900795_g7700000000000796_dist_gemm_a2a_m2048_k2048_n2048_f32_none_v7x_i8_1_alg».proof.Proof.Mesh8
import proofs.«900795_g7700000000000796_dist_gemm_a2a_m2048_k2048_n2048_f32_none_v7x_i8_1_alg».proof.Proof.Gen.KernelIdeal

set_option Elab.async false

namespace Cert.KernelIdeal.A2A

open Idealize.ShloMosaic Idealize.SL.Sem Cert.KernelIdeal Cert.KernelIdeal.Gen Cert.A2A
open Facts₀ Facts

theorem dev_sig0 : ∀ c : Dev nD, (⟨k0_dev1 c, Facts₀.k0_dev1_lt c⟩ : Dev nD) = bsig 0 c := by decide +kernel
theorem dev_sig1 : ∀ c : Dev nD, (⟨k0_dev2 c, Facts₀.k0_dev2_lt c⟩ : Dev nD) = bsig 1 c := by decide +kernel
theorem dev_sig2 : ∀ c : Dev nD, (⟨k0_dev3 c, Facts₀.k0_dev3_lt c⟩ : Dev nD) = bsig 2 c := by decide +kernel
theorem dev_sig3 : ∀ c : Dev nD, (⟨k0_dev4 c, Facts₀.k0_dev4_lt c⟩ : Dev nD) = bsig 3 c := by decide +kernel
theorem dev_sig4 : ∀ c : Dev nD, (⟨k0_dev5 c, Facts₀.k0_dev5_lt c⟩ : Dev nD) = bsig 4 c := by decide +kernel
theorem dev_sig5 : ∀ c : Dev nD, (⟨k0_dev6 c, Facts₀.k0_dev6_lt c⟩ : Dev nD) = bsig 5 c := by decide +kernel
theorem dev_sig6 : ∀ c : Dev nD, (⟨k0_dev7 c, Facts₀.k0_dev7_lt c⟩ : Dev nD) = bsig 6 c := by decide +kernel
theorem dev_tgt0 : ∀ c : Dev nD, (⟨k0_dev8 c, Facts₀.k0_dev8_lt c⟩ : Dev nD) = tgt 0 c := by decide +kernel
theorem dev_tgt1 : ∀ c : Dev nD, (⟨k0_dev9 c, Facts₀.k0_dev9_lt c⟩ : Dev nD) = tgt 1 c := by decide +kernel
theorem dev_tgt2 : ∀ c : Dev nD, (⟨k0_dev10 c, Facts₀.k0_dev10_lt c⟩ : Dev nD) = tgt 2 c := by decide +kernel
theorem dev_tgt3 : ∀ c : Dev nD, (⟨k0_dev11 c, Facts₀.k0_dev11_lt c⟩ : Dev nD) = tgt 3 c := by decide +kernel
theorem dev_tgt4 : ∀ c : Dev nD, (⟨k0_dev12 c, Facts₀.k0_dev12_lt c⟩ : Dev nD) = tgt 4 c := by decide +kernel
theorem dev_tgt5 : ∀ c : Dev nD, (⟨k0_dev13 c, Facts₀.k0_dev13_lt c⟩ : Dev nD) = tgt 5 c := by decide +kernel
theorem dev_tgt6 : ∀ c : Dev nD, (⟨k0_dev14 c, Facts₀.k0_dev14_lt c⟩ : Dev nD) = tgt 6 c := by decide +kernel

/-- The columns of `w` slot `σ`'s product reads: the peer's block. -/
theorem off1_eq : ∀ (c : Dev nD) (σ : Fin 7),
    k0_off1 c (k0_off1_at σ).1 (k0_off1_at σ).2.1 (k0_off1_at σ).2.2 = ![0, 256 * (tgt σ c).val] := by decide +kernel
/-- The rows of the result slot `σ`'s received block is stored at: the peer's block. -/
theorem off4_eq : ∀ (c : Dev nD) (σ : Fin 7),
    k0_off4 c (k0_off4_at σ).1 (k0_off4_at σ).2.1 (k0_off4_at σ).2.2 = ![256 * (tgt σ c).val, 0] := by decide +kernel

end Cert.KernelIdeal.A2A
-- ==== Proof.KernelIdeal.Proto.lean ====
/-
  The cross-device protocol of the all-to-all product, as a schedule of the rounds library, and the pipeline's
  proof data over it.

  Device `c` holds its 256 rows `x_c` of `x` and a copy of `w`.  For each slot `σ` it forms the
  256 × 256 product of `x_c` with the column block of `w` that belongs to its peer `tgt σ c`, narrows it,
  and copies it into the peer's landing buffer `σ`; it keeps the product with its own column block.  What lands
  in its own landing buffer `σ` is therefore the peer's rows times the device's own columns, and it is
  stored widened at the peer's row block of the result.

  Cells, one round each.  The barrier cell of `d` has seven duties of one unit: duty `δ` is paid by
  `tgt δ d` and hands `d` that device's landing buffer `δ` (the buffer `d` is about to fill) together with the
  fact that the buffer's receive cell has reached round 0.  A send cell has one duty, paid by the copy's
  reading end: it hands the send buffer back.  A receive cell has one duty, paid by the copy's writing end on
  the peer: it hands the landing buffer holding the peer's product.
  Levels: barrier cells 1, receive cells 2, everything else 0 — a device waits on its barrier owing only
  receive credit, and on its transfers owing nothing.
-/
import proofs.«900795_g7700000000000796_dist_gemm_a2a_m2048_k2048_n2048_f32_none_v7x_i8_1_alg».proof.Proof.KernelIdeal.Chains
import proofs.«900795_g7700000000000796_dist_gemm_a2a_m2048_k2048_n2048_f32_none_v7x_i8_1_alg».proof.Proof.Gen.KernelIdeal.Skeleton
import proofs.«900795_g7700000000000796_dist_gemm_a2a_m2048_k2048_n2048_f32_none_v7x_i8_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's, duties named by `Fin 7` -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Buffers, semaphores, cells -/

/-- Slot `σ`'s send buffer and landing buffer. -/
abbrev sbuf : Fin 7 → Ref sig .tc
  | ⟨0, _⟩ => cc0_scratch0 | ⟨1, _⟩ => cc0_scratch1 | ⟨2, _⟩ => cc0_scratch2 | ⟨3, _⟩ => cc0_scratch3
  | ⟨4, _⟩ => cc0_scratch4 | ⟨5, _⟩ => cc0_scratch5 | ⟨6, _⟩ => cc0_scratch6
  | ⟨_ + 7, h⟩ => absurd h (Nat.not_lt.2 (Nat.le_add_left _ _))
abbrev rbuf : Fin 7 → Ref sig .tc
  | ⟨0, _⟩ => cc0_scratch7 | ⟨1, _⟩ => cc0_scratch8 | ⟨2, _⟩ => cc0_scratch9 | ⟨3, _⟩ => cc0_scratch10
  | ⟨4, _⟩ => cc0_scratch11 | ⟨5, _⟩ => cc0_scratch12 | ⟨6, _⟩ => cc0_scratch13
  | ⟨_ + 7, h⟩ => absurd h (Nat.not_lt.2 (Nat.le_add_left _ _))

/-- A 256 × 256 block of narrow floats: what a send buffer or a landing buffer holds. -/
abbrev Blk (F : FTy → Type) : Type := Vec F S256x256 .bf16

abbrev barS : Sem sig := (SemArray.scalar (sig.barrier 0 rfl) : Sems sig S_).sem
abbrev sendSem (σ : Fin 7) : DmaSem sig := ⟨3 + σ.val, by have := σ.isLt; show _ < 17; omega⟩
abbrev recvSem (σ : Fin 7) : DmaSem sig := ⟨10 + σ.val, by have := σ.isLt; show _ < 17; omega⟩

abbrev barCell (c : Dev nD) : GSem nD τ sig := ((c : Thread nD τ), .reg barS)
abbrev sendCell (c : Dev nD) (σ : Fin 7) : GSem nD τ sig := ((c : Thread nD τ), .dma (sendSem σ))
abbrev recvCell (c : Dev nD) (σ : Fin 7) : GSem nD τ sig := ((c : Thread nD τ), .dma (recvSem σ))

/-- The kernel's own (scoped) semaphores as the launch indexes them: the seven send ones, then the seven receive ones; -/
abbrev osem : Fin 14 → SemLoc sig := fun k => .dma ⟨3 + k.val, by have := k.isLt; show _ < 17; omega⟩
/-- all fifteen of the protocol's: the barrier, then those. -/
abbrev csem : Fin 15 → SemLoc sig := fun k => if h : k.val = 0 then .reg barS else .dma ⟨2 + k.val, by have := k.isLt; show _ < 17; omega⟩
abbrev kcell (ck : Dev nD × Fin 15) : GSem nD τ sig := ((ck.1 : Thread nD τ), csem ck.2)
abbrev sIdx (σ : Fin 7) : Fin 15 := ⟨1 + σ.val, by omega⟩
abbrev rIdx (σ : Fin 7) : Fin 15 := ⟨8 + σ.val, by omega⟩

/-- The credit of one 256 × 256 block of narrow floats. -/
abbrev N : ℕ := (Memref.whole cc0_scratch7 : Memref sig .tc .vmem S256x256 .bf16).view.dmaCredit
theorem N_pos : 0 < N := View.dmaCredit_pos _ (by decide)

/-- A send buffer / a landing buffer of device `c` whole at contents `f`. -/
def sPts (c : Dev nD) : (σ : Fin 7) → Blk F → sProp 𝕄
  | ⟨0, _⟩, f => (((c : Thread nD τ).loc cc0_scratch0) ↦{fullShare} f)
  | ⟨1, _⟩, f => (((c : Thread nD τ).loc cc0_scratch1) ↦{fullShare} f)
  | ⟨2, _⟩, f => (((c : Thread nD τ).loc cc0_scratch2) ↦{fullShare} f)
  | ⟨3, _⟩, f => (((c : Thread nD τ).loc cc0_scratch3) ↦{fullShare} f)
  | ⟨4, _⟩, f => (((c : Thread nD τ).loc cc0_scratch4) ↦{fullShare} f)
  | ⟨5, _⟩, f => (((c : Thread nD τ).loc cc0_scratch5) ↦{fullShare} f)
  | ⟨6, _⟩, f => (((c : Thread nD τ).loc cc0_scratch6) ↦{fullShare} f)
  | ⟨_ + 7, h⟩, _ => absurd h (Nat.not_lt.2 (Nat.le_add_left _ _))
def rPts (c : Dev nD) : (σ : Fin 7) → Blk F → sProp 𝕄
  | ⟨0, _⟩, f => (((c : Thread nD τ).loc cc0_scratch7) ↦{fullShare} f)
  | ⟨1, _⟩, f => (((c : Thread nD τ).loc cc0_scratch8) ↦{fullShare} f)
  | ⟨2, _⟩, f => (((c : Thread nD τ).loc cc0_scratch9) ↦{fullShare} f)
  | ⟨3, _⟩, f => (((c : Thread nD τ).loc cc0_scratch10) ↦{fullShare} f)
  | ⟨4, _⟩, f => (((c : Thread nD τ).loc cc0_scratch11) ↦{fullShare} f)
  | ⟨5, _⟩, f => (((c : Thread nD τ).loc cc0_scratch12) ↦{fullShare} f)
  | ⟨6, _⟩, f => (((c : Thread nD τ).loc cc0_scratch13) ↦{fullShare} f)
  | ⟨_ + 7, h⟩, _ => absurd h (Nat.not_lt.2 (Nat.le_add_left _ _))

/-! ## Contents -/

/-- Device `c`'s staged rows of `x` and staged copy of `w`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

abbrev xM : Memref sig .tc .vmem S256x2048 .f32 := Memref.whole cc0_stg0_0
abbrev wM : Memref sig .tc .vmem S2048x2048 .f32 := Memref.whole cc0_stg1_0
abbrev oM : Memref sig .tc .vmem S2048x256 .f32 := Memref.whole cc0_stg2_0

/-- The rows as the body's first load reads them. -/
def xv (c : Dev nD) : FVec F S256x2048 .f32 :=
  k0_pay1 ((xM : Memref sig .tc .vmem S256x2048 .f32).view.readAt (Elt F)
    (Rect.unit (s := S256x2048) ![0, 0] S256x2048.size inb_S256x2048_S256x2048_0_0).toLoadRect (xstg m ρ c))
/-- The column block of `w` at offsets `o`, as a load of the body reads it. -/
def wcolAt (c : Dev nD) (o : Fin 2 → ℕ) (h : ∀ a, o a + S2048x256.size a ≤ S2048x2048.size a) : Vec F S2048x256 .f32 :=
  (wM : Memref sig .tc .vmem S2048x2048 .f32).view.readAt (Elt F) (Rect.unit (s := S2048x2048) o S2048x256.size h).toLoadRect (wstg m ρ c)
/-- Slot `σ`'s column block: the peer's. -/
def wcol (c : Dev nD) (σ : Fin 7) : Vec F S2048x256 .f32 :=
  wcolAt m ρ c (k0_off1 c (k0_off1_at σ).1 (k0_off1_at σ).2.1 (k0_off1_at σ).2.2) (k0_off1_inb c σ)

/-- What device `c` puts in its send buffer `σ`: its rows times the peer's columns, narrowed. -/
def sent (c : Dev nD) : Fin 7 → Blk F
  | ⟨0, _⟩ => k0_pay3 (xv m ρ c) (k0_pay2 (wcol m ρ c 0))
  | ⟨1, _⟩ => k0_pay4 (xv m ρ c) (wcol m ρ c 1)
  | ⟨2, _⟩ => k0_pay5 (xv m ρ c) (wcol m ρ c 2)
  | ⟨3, _⟩ => k0_pay6 (xv m ρ c) (wcol m ρ c 3)
  | ⟨4, _⟩ => k0_pay7 (xv m ρ c) (wcol m ρ c 4)
  | ⟨5, _⟩ => k0_pay8 (xv m ρ c) (wcol m ρ c 5)
  | ⟨6, _⟩ => k0_pay9 (xv m ρ c) (wcol m ρ c 6)
  | ⟨_ + 7, h⟩ => absurd h (Nat.not_lt.2 (Nat.le_add_left _ _))

/-- What lands in device `c`'s landing buffer `σ`: the peer's send buffer `σ`. -/
def landed (c : Dev nD) (σ : Fin 7) : Blk F := sent m ρ (tgt σ c) σ

/-- The product device `c` keeps: its rows times its own columns. -/
def own (c : Dev nD) : FVec F S256x256 .f32 :=
  k0_pay10 (xv m ρ c) (wcolAt m ρ c (k0_off2 c) (k0_off2_inb c))

/-- The landed block of slot `σ`, widened, as it is stored in the result. -/
def widened (c : Dev nD) : Fin 7 → FVec F S256x256 .f32
  | ⟨0, _⟩ => k0_pay11 (landed m ρ c 0) | ⟨1, _⟩ => k0_pay12 (landed m ρ c 1) | ⟨2, _⟩ => k0_pay13 (landed m ρ c 2)
  | ⟨3, _⟩ => k0_pay14 (landed m ρ c 3) | ⟨4, _⟩ => k0_pay15 (landed m ρ c 4) | ⟨5, _⟩ => k0_pay16 (landed m ρ c 5)
  | ⟨6, _⟩ => k0_pay17 (landed m ρ c 6)
  | ⟨_ + 7, h⟩ => absurd h (Nat.not_lt.2 (Nat.le_add_left _ _))

/-- The slot by which `c` exchanges with device `b` (any slot if `b = c`). -/
def slotTo (c b : Fin 8) : Fin 7 := ((List.finRange 7).find? fun σ => tgt σ c = b).getD 0
theorem tgt_slotTo : ∀ c b : Fin 8, b ≠ c → tgt (slotTo c b) c = b := by decide
theorem slotTo_tgt : ∀ (c : Fin 8) (σ : Fin 7), slotTo c (tgt σ c) = σ := by decide

/-- The row block an index of the result lies in, and its place inside the block. -/
def rowBlk (i : S2048x256.Idx) : Fin 8 := ⟨(i 0).val / 256, by have := (i 0).isLt; exact Nat.div_lt_of_lt_mul (by simpa using this)⟩
def inBlk (i : S2048x256.Idx) : S256x256.Idx := ValueIdx.ix2 (⟨(i 0).val % 256, Nat.mod_lt _ (by decide)⟩ : Fin 256) (i 1)

/-- The result block device `c` leaves staged: at its own row block its own product, at a peer's row block
    the peer's rows times its own columns. -/
def outAt (c : Dev nD) : (cc0_stg2_0 : Ref sig .tc).ty.Contents (Elt F) := fun i =>
  if rowBlk i = c then own m ρ c (inBlk i) else widened m ρ c (slotTo c (rowBlk i)) (inBlk i)

/-! ## The schedule -/

/-- Duty `δ` of `d`'s barrier cell: the payer `tgt δ d`'s landing buffer `δ`, and its receive cell at round 0. -/
def barPay (d : Dev nD) (δ : Fin 7) : sProp 𝕄 :=
  iprop((∃ f, rPts (F := F) (tgt δ d) δ f) ∗ reached ER (recvCell (tgt δ d) δ) 0)
def recvPay (c : Dev nD) (σ : Fin 7) : sProp 𝕄 := rPts c σ (landed m ρ c σ)
/-- The send cell's duty hands the send buffer back; nobody reads it again, so at some contents. -/
def sendPay (c : Dev nD) (σ : Fin 7) : sProp 𝕄 := iprop(∃ f, sPts (F := F) c σ f)

abbrev IsBar (g : GSem nD τ sig) : Prop := g.1.2 = .tc ∧ g.2 = .reg barS
abbrev IsXfer (g : GSem nD τ sig) : Prop := g.1.2 = .tc ∧ ∃ q : DmaSem sig, g.2 = .dma q ∧ 3 ≤ q.val

/-- The slot of a transfer semaphore. -/
def slotOf (q : DmaSem sig) : Fin 7 := ⟨(q.val - 3) % 7, Nat.mod_lt _ (by decide)⟩

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := match g.2 with
    | .reg _ => barPay g.1.1 d
    | .dma q => if 10 ≤ q.val then recvPay m ρ g.1.1 (slotOf q) else if 3 ≤ q.val then sendPay (F := F) g.1.1 (slotOf q) else iprop(emp)
  amount_pos g _ _ _ := by
    by_cases h : g.2 = .reg barS
    · rw [if_pos h]; exact Nat.one_pos
    · rw [if_neg h]; exact N_pos

/-! ### The schedule's payloads can be stored in an invariant -/

omit [FloatOps F] in
instance sPts_storable (c : Dev nD) : (σ : Fin 7) → (f : Blk F) → BI.Storable (upEmb : UEmb _ 𝕄) (sPts (F := F) c σ f)
  | ⟨0, _⟩, f => (inferInstance : BI.Storable upEmb ((((c : Thread nD τ).loc cc0_scratch0) ↦{fullShare} f : sProp 𝕄)))
  | ⟨1, _⟩, f => (inferInstance : BI.Storable upEmb ((((c : Thread nD τ).loc cc0_scratch1) ↦{fullShare} f : sProp 𝕄)))
  | ⟨2, _⟩, f => (inferInstance : BI.Storable upEmb ((((c : Thread nD τ).loc cc0_scratch2) ↦{fullShare} f : sProp 𝕄)))
  | ⟨3, _⟩, f => (inferInstance : BI.Storable upEmb ((((c : Thread nD τ).loc cc0_scratch3) ↦{fullShare} f : sProp 𝕄)))
  | ⟨4, _⟩, f => (inferInstance : BI.Storable upEmb ((((c : Thread nD τ).loc cc0_scratch4) ↦{fullShare} f : sProp 𝕄)))
  | ⟨5, _⟩, f => (inferInstance : BI.Storable upEmb ((((c : Thread nD τ).loc cc0_scratch5) ↦{fullShare} f : sProp 𝕄)))
  | ⟨6, _⟩, f => (inferInstance : BI.Storable upEmb ((((c : Thread nD τ).loc cc0_scratch6) ↦{fullShare} f : sProp 𝕄)))
  | ⟨_ + 7, h⟩, _ => absurd h (Nat.not_lt.2 (Nat.le_add_left _ _))
omit [FloatOps F] in
instance rPts_storable (c : Dev nD) : (σ : Fin 7) → (f : Blk F) → BI.Storable (upEmb : UEmb _ 𝕄) (rPts (F := F) c σ f)
  | ⟨0, _⟩, f => (inferInstance : BI.Storable upEmb ((((c : Thread nD τ).loc cc0_scratch7) ↦{fullShare} f : sProp 𝕄)))
  | ⟨1, _⟩, f => (inferInstance : BI.Storable upEmb ((((c : Thread nD τ).loc cc0_scratch8) ↦{fullShare} f : sProp 𝕄)))
  | ⟨2, _⟩, f => (inferInstance : BI.Storable upEmb ((((c : Thread nD τ).loc cc0_scratch9) ↦{fullShare} f : sProp 𝕄)))
  | ⟨3, _⟩, f => (inferInstance : BI.Storable upEmb ((((c : Thread nD τ).loc cc0_scratch10) ↦{fullShare} f : sProp 𝕄)))
  | ⟨4, _⟩, f => (inferInstance : BI.Storable upEmb ((((c : Thread nD τ).loc cc0_scratch11) ↦{fullShare} f : sProp 𝕄)))
  | ⟨5, _⟩, f => (inferInstance : BI.Storable upEmb ((((c : Thread nD τ).loc cc0_scratch12) ↦{fullShare} f : sProp 𝕄)))
  | ⟨6, _⟩, f => (inferInstance : BI.Storable upEmb ((((c : Thread nD τ).loc cc0_scratch13) ↦{fullShare} f : sProp 𝕄)))
  | ⟨_ + 7, h⟩, _ => absurd h (Nat.not_lt.2 (Nat.le_add_left _ _))

instance sched_payload_storable (g : GSem nD τ sig) (r : ℕ) (d : Fin 7) :
    BI.Storable (upEmb : UEmb _ 𝕄) ((sched (F := F) m ρ).payload g r d) := by
  show BI.Storable upEmb (match g.2 with
    | .reg _ => barPay g.1.1 d
    | .dma q => if 10 ≤ q.val then recvPay m ρ g.1.1 (slotOf q) else if 3 ≤ q.val then sendPay (F := F) g.1.1 (slotOf q) else iprop(emp))
  unfold barPay recvPay sendPay
  (repeat' split) <;> infer_instance

/-! ## The schedule's tables -/

section Sched
variable (c : Dev nD) (σ : Fin 7)

omit [FloatOps F] in
theorem send_ne_bar : (SemLoc.dma (sendSem σ) : SemLoc sig) ≠ .reg barS := fun h => by cases h
omit [FloatOps F] in
theorem recv_ne_bar : (SemLoc.dma (recvSem σ) : SemLoc sig) ≠ .reg barS := fun h => by cases h
omit [FloatOps F] in
theorem isXfer_send : IsXfer (sendCell c σ) := ⟨rfl, sendSem σ, rfl, by show 3 ≤ 3 + σ.val; omega⟩
omit [FloatOps F] in
theorem isXfer_recv : IsXfer (recvCell c σ) := ⟨rfl, recvSem σ, rfl, by show 3 ≤ 10 + σ.val; omega⟩
omit [FloatOps F] in
theorem not_bar_send : ¬ IsBar (sendCell c σ) := fun h => send_ne_bar σ h.2
omit [FloatOps F] in
theorem not_bar_recv : ¬ IsBar (recvCell c σ) := fun h => recv_ne_bar σ h.2
omit [FloatOps F] in
theorem slotOf_send : slotOf (sendSem σ) = σ := Fin.ext (by show (3 + σ.val - 3) % 7 = σ.val; have := σ.isLt; omega)
omit [FloatOps F] in
theorem slotOf_recv : slotOf (recvSem σ) = σ := Fin.ext (by show (10 + σ.val - 3) % 7 = σ.val; have := σ.isLt; omega)

theorem duties_bar : (sched (F := F) m ρ).duties (barCell c) 0 = Finset.univ := by dsimp only [sched]; exact if_pos ⟨rfl, rfl, rfl⟩
theorem duties_send : (sched (F := F) m ρ).duties (sendCell c σ) 0 = {0} := by
  dsimp only [sched]; rw [if_neg (fun h => not_bar_send c σ h.2)]; exact if_pos ⟨rfl, isXfer_send c σ⟩
theorem duties_recv : (sched (F := F) m ρ).duties (recvCell c σ) 0 = {0} := by
  dsimp only [sched]; rw [if_neg (fun h => not_bar_recv c σ h.2)]; exact if_pos ⟨rfl, isXfer_recv c σ⟩
theorem duties_later (g : GSem nD τ sig) : ∀ r, 1 ≤ r → (sched (F := F) m ρ).duties g r = ∅ :=
  fun r hr => by dsimp only [sched]; rw [if_neg fun h => by omega, if_neg fun h => by omega]

theorem amount_bar (d : Fin 7) : (sched (F := F) m ρ).amount (barCell c) 0 d = 1 := by dsimp only [sched]; exact if_pos rfl
theorem amount_send (d : Fin 7) : (sched (F := F) m ρ).amount (sendCell c σ) 0 d = N := by dsimp only [sched]; exact if_neg (send_ne_bar σ)
theorem amount_recv (d : Fin 7) : (sched (F := F) m ρ).amount (recvCell c σ) 0 d = N := by dsimp only [sched]; exact if_neg (recv_ne_bar σ)

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c σ) 0 = N := by
  unfold Schedule.expect Schedule.amountOf; rw [duties_send, Finset.sum_singleton, amount_send]
theorem expect_recv : (sched (F := F) m ρ).expect (recvCell c σ) 0 = N := by
  unfold Schedule.expect Schedule.amountOf; rw [duties_recv, Finset.sum_singleton, amount_recv]

theorem payload_bar (δ : Fin 7) : (sched (F := F) m ρ).payload (barCell c) 0 δ = barPay c δ := rfl
theorem payload_send (d : Fin 7) : (sched (F := F) m ρ).payload (sendCell c σ) 0 d = sendPay (F := F) c σ := by
  show (if 10 ≤ (sendSem σ).val then recvPay m ρ c (slotOf (sendSem σ)) else if 3 ≤ (sendSem σ).val then sendPay (F := F) c (slotOf (sendSem σ)) else iprop(emp)) = _
  rw [if_neg (by show ¬ 10 ≤ 3 + σ.val; have := σ.isLt; omega), if_pos (by show 3 ≤ 3 + σ.val; omega), slotOf_send]
theorem payload_recv (d : Fin 7) : (sched (F := F) m ρ).payload (recvCell c σ) 0 d = recvPay m ρ c σ := by
  show (if 10 ≤ (recvSem σ).val then recvPay m ρ c (slotOf (recvSem σ)) else if 3 ≤ (recvSem σ).val then sendPay (F := F) c (slotOf (recvSem σ)) else iprop(emp)) = _
  rw [if_pos (by show 10 ≤ 10 + σ.val; omega), slotOf_recv]

/-- The whole round of the barrier cell: the seven peers' landing buffers. -/
theorem rest_bar : bigSep ((sched (F := F) m ρ).duties (barCell c) 0 \ ∅) (fun d => (sched (F := F) m ρ).payload (barCell c) 0 d)
    = bigSep Finset.univ (fun δ => barPay (F := F) c δ) := by
  rw [Finset.sdiff_empty, duties_bar]; rfl
theorem rest_send : bigSep ((sched (F := F) m ρ).duties (sendCell c σ) 0 \ ∅) (fun d => (sched (F := F) m ρ).payload (sendCell c σ) 0 d) = sendPay (F := F) c σ := by
  rw [Finset.sdiff_empty, duties_send, bigSep_singleton, payload_send]
theorem rest_recv : bigSep ((sched (F := F) m ρ).duties (recvCell c σ) 0 \ ∅) (fun d => (sched (F := F) m ρ).payload (recvCell c σ) 0 d) = recvPay m ρ c σ := by
  rw [Finset.sdiff_empty, duties_recv, bigSep_singleton, payload_recv]

end Sched

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-! ## What each device owes at launch; the levels -/

/-- The credit of slot `σ`'s transfer, owed to the peer's receive cell; the unit of signal `j`, owed to its target's barrier cell. -/
abbrev tR (c : Dev nD) (σ : Fin 7) : CellTallies nD τ sig Unit := tallyAt (recvCell (tgt σ c) σ) () N
abbrev tB (c : Dev nD) (j : Fin 7) : CellTallies nD τ sig Unit := tallyAt (barCell (bsig j c)) () 1

/-- The transfers' credit, summed so that slot 0's is the last summand, slot 1's the one before, …: each transfer
    peels the last one left. -/
def Orecv (c : Dev nD) : CellTallies nD τ sig Unit := (0 : CellTallies nD τ sig Unit) + tR c 6 + tR c 5 + tR c 4 + tR c 3 + tR c 2 + tR c 1 + tR c 0
/-- Everything owed at launch: the transfers' credit, then the seven handshake units, signal 0's last. -/
def O₀ (c : Dev nD) : CellTallies nD τ sig Unit := Orecv c + tB c 6 + tB c 5 + tB c 4 + tB c 3 + tB c 2 + tB c 1 + tB c 0

def L (g : GSem nD τ sig) : Finset Unit := if g.1.2 = .tc then {()} else ∅
/-- Whether a semaphore is one of the seven receive semaphores. -/
def isRecv : SemLoc sig → Bool
  | .dma q => decide (10 ≤ q.val)
  | _ => false
/-- barrier cells at 1, receive cells at 2, everything else (staging, send) at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state a device starts from, and the pipeline's proof data -/

/-- Everything of the protocol's ghost state device `c`'s body uses, under the names `K` the launch allocated the
    cells' invariants at: the invariants of its own fifteen cells, of the seven barrier cells it signals and of the
    seven receive cells it fills; its positions at round 0 of its own cells; that round 0 is reached of every
    cell it pays, of its send cells, and of its own receive cells (read in the order the handshake hands their
    buffers out); and the duty tokens it pays with. -/
def ghost (K : Dev nD × Fin 15 → ℕ) (c : Dev nD) : sProp 𝕄 :=
  iprop(cellInv ER (sched m ρ) (K (c, 0)) (barCell c)
    ∗ (bigSep Finset.univ fun σ : Fin 7 => cellInv ER (sched m ρ) (K (c, sIdx σ)) (sendCell c σ))
    ∗ (bigSep Finset.univ fun σ : Fin 7 => cellInv ER (sched m ρ) (K (c, rIdx σ)) (recvCell c σ))
    ∗ (bigSep Finset.univ fun j : Fin 7 => cellInv ER (sched m ρ) (K (bsig j c, 0)) (barCell (bsig j c)))
    ∗ (bigSep Finset.univ fun σ : Fin 7 => cellInv ER (sched m ρ) (K (tgt σ c, rIdx σ)) (recvCell (tgt σ c) σ))
    ∗ atPos ER (barCell c) 0 ∅ 0
    ∗ (bigSep Finset.univ fun σ : Fin 7 => atPos ER (sendCell c σ) 0 ∅ 0)
    ∗ (bigSep Finset.univ fun σ : Fin 7 => atPos ER (recvCell c σ) 0 ∅ 0)
    ∗ (bigSep Finset.univ fun j : Fin 7 => reached ER (barCell (bsig j c)) 0)
    ∗ (bigSep Finset.univ fun σ : Fin 7 => reached ER (recvCell (tgt σ c) σ) 0)
    ∗ (bigSep Finset.univ fun σ : Fin 7 => reached ER (sendCell c σ) 0)
    ∗ (bigSep Finset.univ fun j : Fin 7 => reached ER (recvCell c (slot j c)) 0)
    ∗ (bigSep Finset.univ fun j : Fin 7 => dutyTok ER (barCell (bsig j c)) 0 (slot j c))
    ∗ (bigSep Finset.univ fun σ : Fin 7 => dutyTok ER (recvCell (tgt σ c) σ) 0 (0 : Fin 7))
    ∗ (bigSep Finset.univ fun σ : Fin 7 => dutyTok ER (sendCell c σ) 0 (0 : Fin 7)))

/-- What device `c`'s body starts from: that at some names, the credit tokens of its barrier cell (seven units) and of
    its seven receive cells, and the level facts. -/
def start (c : Dev nD) : sProp 𝕄 :=
  iprop((∃ K, ghost m ρ K c) ∗ cred (tallyAt (barCell c) () 7)
    ∗ (bigSep Finset.univ fun σ : Fin 7 => cred (tallyAt (recvCell c σ) () N)) ∗ levAts L lv)

/-- Before the point: that, the seven send buffers at some contents, and the seven landing buffers at some contents,
    read in the order the handshake hands them out. -/
def Φ₀ (c : Dev nD) : sProp 𝕄 :=
  iprop(start m ρ c ∗ (bigSep Finset.univ fun σ : Fin 7 => iprop(∃ f, sPts (F := F) c σ f))
    ∗ (bigSep Finset.univ fun j : Fin 7 => iprop(∃ f, rPts (F := F) c (slot j c) f)))
/-- After the point: the send buffers back, the landing buffers filled, the fourteen own cells at zero, closed. -/
def Φ₁ (c : Dev nD) : sProp 𝕄 :=
  iprop((bigSep Finset.univ fun σ : Fin 7 => iprop(∃ f, sPts (F := F) c σ f))
    ∗ (bigSep Finset.univ fun σ : Fin 7 => iprop(∃ f, rPts (F := F) c σ f))
    ∗ (bigSep Finset.univ fun k : Fin 14 => semVal ((c : Thread nD τ), osem k) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
    | ⟨_ + 3, h⟩ => absurd h (Nat.not_lt.2 (Nat.le_add_left _ _))
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.A2A

end
-- ==== Proof.KernelIdeal.Launch.lean ====
/- The launch: the protocol's ghost state funded and dealt, the cells allocated, and the run of @main. -/
import proofs.«900795_g7700000000000796_dist_gemm_a2a_m2048_k2048_n2048_f32_none_v7x_i8_1_alg».proof.Proof.KernelIdeal.Proto

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-! ### The fifteen cells of a device and the tokens they mint -/

omit [FloatOps F] in
theorem kcell_zero (c : Dev nD) : kcell (c, 0) = barCell c := rfl
omit [FloatOps F] in
theorem kcell_sIdx (c : Dev nD) (σ : Fin 7) : kcell (c, sIdx σ) = sendCell c σ := by fin_cases σ <;> rfl
omit [FloatOps F] in
theorem kcell_rIdx (c : Dev nD) (σ : Fin 7) : kcell (c, rIdx σ) = recvCell c σ := by fin_cases σ <;> rfl
omit [FloatOps F] in
/-- The cells after the barrier's are the kernel's own fourteen, in the launch's order. -/
theorem kcell_succ (c : Dev nD) (k : Fin 14) : kcell (c, k.succ) = ((c : Thread nD τ), osem k) := by fin_cases k <;> rfl

omit [FloatOps F] in
theorem csem_injective : Function.Injective (csem : Fin 15 → SemLoc sig) := by decide

omit [FloatOps F] in
theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def protoCells : Finset (GSem nD τ sig) := Finset.univ.map ⟨kcell, kcell_injective⟩

/-- A device's own cells' duty tokens as minted: (device, kind, index) — the barrier cell's seven duties, each send
    cell's one, each receive cell's one. -/
abbrev tokOf (x : Dev nD × Fin 3 × Fin 7) : GSem nD τ sig × ℕ × Fin 7 := match x.2.1 with
  | 0 => (barCell x.1, 0, x.2.2) | 1 => (sendCell x.1 x.2.2, 0, 0) | 2 => (recvCell x.1 x.2.2, 0, 0)

omit [FloatOps F] in
theorem sendSem_inj {i i' : Fin 7} (h : (SemLoc.dma (sendSem i) : SemLoc sig) = .dma (sendSem i')) : i = i' := by
  have h' : 3 + i.val = 3 + i'.val := congrArg Fin.val (SemLoc.dma.inj h)
  exact Fin.ext (by omega)
omit [FloatOps F] in
theorem recvSem_inj {i i' : Fin 7} (h : (SemLoc.dma (recvSem i) : SemLoc sig) = .dma (recvSem i')) : i = i' := by
  have h' : 10 + i.val = 10 + i'.val := congrArg Fin.val (SemLoc.dma.inj h)
  exact Fin.ext (by omega)
omit [FloatOps F] in
theorem send_ne_recv {i i' : Fin 7} : (SemLoc.dma (sendSem i) : SemLoc sig) ≠ .dma (recvSem i') := fun h => by
  have h' : 3 + i.val = 10 + i'.val := congrArg Fin.val (SemLoc.dma.inj h)
  have := i.isLt; omega

omit [FloatOps F] in
theorem tokOf_injective : Function.Injective (tokOf : Dev nD × Fin 3 × Fin 7 → GSem nD τ sig × ℕ × Fin 7) := by
  rintro ⟨c, k, i⟩ ⟨c', k', i'⟩ h
  have h1 : c = c' := by
    have := congrArg (fun x : GSem nD τ sig × ℕ × Fin 7 => x.1.1.1) h
    fin_cases k <;> fin_cases k' <;> exact this
  subst h1
  have hs := congrArg (fun x : GSem nD τ sig × ℕ × Fin 7 => x.1.2) h
  have hd := congrArg (fun x : GSem nD τ sig × ℕ × Fin 7 => x.2.2) h
  have : k = k' ∧ i = i' := by
    fin_cases k <;> fin_cases k'
    · exact ⟨rfl, hd⟩
    · exact absurd hs (fun h' => by cases h')
    · exact absurd hs (fun h' => by cases h')
    · exact absurd hs (fun h' => by cases h')
    · exact ⟨rfl, sendSem_inj hs⟩
    · exact absurd hs send_ne_recv
    · exact absurd hs (fun h' => by cases h')
    · exact absurd hs.symm send_ne_recv
    · exact ⟨rfl, recvSem_inj hs⟩
  obtain ⟨rfl, rfl⟩ := this; rfl
def protoToks : Finset (GSem nD τ sig × ℕ × Fin 7) := Finset.univ.map ⟨tokOf, tokOf_injective⟩

def u₀ : UU :=
  (initOf (Pipeline.cells cfgs cellOf_inj) (Pipeline.launchToks cfgs cellOf_inj), initOf protoCells protoToks)

/-- The duty tokens of device `c`'s own cells. -/
def toks (c : Dev nD) : sProp 𝕄 :=
  iprop((bigSep Finset.univ fun δ : Fin 7 => dutyTok ER (barCell c) 0 δ)
    ∗ (bigSep Finset.univ fun σ : Fin 7 => dutyTok ER (sendCell c σ) 0 (0 : Fin 7))
    ∗ (bigSep Finset.univ fun σ : Fin 7 => dutyTok ER (recvCell c σ) 0 (0 : Fin 7)))

/-- What the launch element deals device `c`. -/
def G (c : Dev nD) : sProp 𝕄 :=
  iprop((bigSep Finset.univ fun k : Fin 15 => roundState ER (sched m ρ) (kcell (c, k)) 0)
    ∗ (bigSep Finset.univ fun k : Fin 15 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun k : Fin 15 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by
      unfold toks
      exact (bigSep_univ_prod (fun x : Fin 3 × Fin 7 => (dutyTok ER (tokOf (c, x)).1 (tokOf (c, x)).2.1 (tokOf (c, x)).2.2 : sProp 𝕄))).trans
        ((bigSep_fin3 _).trans rfl)
  iintro HX
  imod (Rounds.fund ER (sched m ρ) protoCells protoToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### The counters at zero, and the cells' invariants allocated -/

omit [FloatOps F] in
theorem bigSep_fin15 (Φ : Fin 15 → sProp 𝕄) : bigSep Finset.univ Φ = iprop(Φ 0 ∗ bigSep Finset.univ fun k : Fin 14 => Φ k.succ) := by
  rw [bigSep_univ_at Φ (0 : Fin 15), show (Finset.univ.erase (0 : Fin 15)) = Finset.univ.map (Fin.succEmb 14) from by decide, bigSep_map]; rfl

omit [FloatOps F] in
/-- A device's fifteen cells: the barrier's, the seven send cells, the seven receive cells. -/
theorem bigSep_cells (Φ : GSem nD τ sig → sProp 𝕄) (c : Dev nD) :
    (bigSep Finset.univ fun k : Fin 15 => Φ (kcell (c, k)))
      = iprop(Φ (barCell c) ∗ (bigSep Finset.univ fun σ : Fin 7 => Φ (sendCell c σ)) ∗ bigSep Finset.univ fun σ : Fin 7 => Φ (recvCell c σ)) := by
  have hs : ∀ σ : Fin 7, kcell (c, ((finSumFinEquiv (Sum.inl σ : Fin 7 ⊕ Fin 7) : Fin 14)).succ) = sendCell c σ := fun σ => by fin_cases σ <;> rfl
  have hr : ∀ σ : Fin 7, kcell (c, ((finSumFinEquiv (Sum.inr σ : Fin 7 ⊕ Fin 7) : Fin 14)).succ) = recvCell c σ := fun σ => by fin_cases σ <;> rfl
  refine (bigSep_fin15 _).trans (congrArg (BI.sep _) ?_)
  refine (bigSep_univ_equiv (finSumFinEquiv : Fin 7 ⊕ Fin 7 ≃ Fin 14) _).trans ((bigSep_univ_sum _).trans ?_)
  exact congrArg₂ BI.sep (bigSep_congr fun σ _ => congrArg Φ (hs σ)) (bigSep_congr fun σ _ => congrArg Φ (hr σ))

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  have h : (bigSep Finset.univ fun k : Fin 15 => semVal (kcell (c, k)) 0 : sProp 𝕄)
      = iprop(semVal (barCell c) 0 ∗ bigSep Finset.univ fun k : Fin 14 => semVal ((c : Thread nD τ), osem k) 0) :=
    (bigSep_fin15 _).trans (congrArg (BI.sep _) (bigSep_congr fun k _ => by
      show (semVal (kcell (c, k.succ)) 0 : sProp 𝕄) = _; rw [kcell_succ]))
  rw [unscopedSems0_eq, h]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The records every device reads, and what stays with each -/

def records (K : Dev nD × Fin 15 → ℕ) : sProp 𝕄 :=
  iprop((bigSep Finset.univ fun ck : Dev nD × Fin 15 => cellInv ER (sched m ρ) (K ck) (kcell ck))
    ∗ bigSep Finset.univ fun ck : Dev nD × Fin 15 => reached ER (kcell ck) 0)

instance records_persistent (K : Dev nD × Fin 15 → ℕ) : BI.Persistent (records m ρ K) := by unfold records; infer_instance

theorem inv_at (K : Dev nD × Fin 15 → ℕ) (ck : Dev nD × Fin 15) : records m ρ K ⊢ cellInv ER (sched m ρ) (K ck) (kcell ck) := by
  have h : (bigSep Finset.univ fun ck : Dev nD × Fin 15 => (cellInv ER (sched m ρ) (K ck) (kcell ck) : sProp 𝕄)) ⊢ cellInv ER (sched m ρ) (K ck) (kcell ck) :=
    bigSep_elim (Finset.mem_univ ck)
  unfold records; iintro ⟨H, -⟩; iapply h; iexact H
theorem reached_at (K : Dev nD × Fin 15 → ℕ) (ck : Dev nD × Fin 15) : records m ρ K ⊢ reached ER (kcell ck) 0 := by
  have h : (bigSep Finset.univ fun ck : Dev nD × Fin 15 => (reached ER (kcell ck) 0 : sProp 𝕄)) ⊢ reached ER (kcell ck) 0 :=
    bigSep_elim (Finset.mem_univ ck)
  unfold records; iintro ⟨-, H⟩; iapply h; iexact H

/-- The tokens of the duties device `c` pays: its seven handshake signals, its seven transfers' landing, its seven transfers' reading. -/
def payToks (c : Dev nD) : sProp 𝕄 :=
  iprop((bigSep Finset.univ fun j : Fin 7 => dutyTok ER (barCell (bsig j c)) 0 (slot j c))
    ∗ (bigSep Finset.univ fun σ : Fin 7 => dutyTok ER (recvCell (tgt σ c) σ) 0 (0 : Fin 7))
    ∗ (bigSep Finset.univ fun σ : Fin 7 => dutyTok ER (sendCell c σ) 0 (0 : Fin 7)))
/-- What stays with device `c`: its positions, and those tokens. -/
def linear (c : Dev nD) : sProp 𝕄 :=
  iprop((atPos ER (barCell c) 0 ∅ 0 ∗ (bigSep Finset.univ fun σ : Fin 7 => atPos ER (sendCell c σ) 0 ∅ 0)
      ∗ (bigSep Finset.univ fun σ : Fin 7 => atPos ER (recvCell c σ) 0 ∅ 0)) ∗ payToks c)

theorem ghost_intro (K : Dev nD × Fin 15 → ℕ) (c : Dev nD) : iprop(records m ρ K ∗ linear c) ⊢ G' m ρ c := by
  unfold linear payToks G' ghost
  iintro ⟨#HR, ⟨HaB, HaS, HaV⟩, HtB, HtV, HtS⟩
  iexists K
  isplitr; · iapply ((inv_at m ρ K (c, 0)).trans (Entails.of_eq (by rw [kcell_zero]))); iexact HR
  isplitr
  · iapply (BI.bigSep_intro_persistent (R := records m ρ K) fun σ _ => (inv_at m ρ K (c, sIdx σ)).trans (Entails.of_eq (by rw [kcell_sIdx]))); iexact HR
  isplitr
  · iapply (BI.bigSep_intro_persistent (R := records m ρ K) fun σ _ => (inv_at m ρ K (c, rIdx σ)).trans (Entails.of_eq (by rw [kcell_rIdx]))); iexact HR
  isplitr
  · iapply (BI.bigSep_intro_persistent (R := records m ρ K) fun j _ => (inv_at m ρ K (bsig j c, 0)).trans (Entails.of_eq (by rw [kcell_zero]))); iexact HR
  isplitr
  · iapply (BI.bigSep_intro_persistent (R := records m ρ K) fun σ _ => (inv_at m ρ K (tgt σ c, rIdx σ)).trans (Entails.of_eq (by rw [kcell_rIdx]))); iexact HR
  isplitl [HaB]; · iexact HaB
  isplitl [HaS]; · iexact HaS
  isplitl [HaV]; · iexact HaV
  isplitr
  · iapply (BI.bigSep_intro_persistent (R := records m ρ K) fun j _ => (reached_at m ρ K (bsig j c, 0)).trans (Entails.of_eq (by rw [kcell_zero]))); iexact HR
  isplitr
  · iapply (BI.bigSep_intro_persistent (R := records m ρ K) fun σ _ => (reached_at m ρ K (tgt σ c, rIdx σ)).trans (Entails.of_eq (by rw [kcell_rIdx]))); iexact HR
  isplitr
  · iapply (BI.bigSep_intro_persistent (R := records m ρ K) fun σ _ => (reached_at m ρ K (c, sIdx σ)).trans (Entails.of_eq (by rw [kcell_sIdx]))); iexact HR
  isplitr
  · iapply (BI.bigSep_intro_persistent (R := records m ρ K) fun j _ => (reached_at m ρ K (c, rIdx (slot j c))).trans (Entails.of_eq (by rw [kcell_rIdx]))); iexact HR
  isplitl [HtB]; · iexact HtB
  isplitl [HtV]; · iexact HtV
  iexact HtS

omit [FloatOps F] in
/-- The tokens dealt to their payers: a barrier cell's duty `δ` goes to `tgt δ d`, whose signal `jof δ` it is (the
    pairing of signals and duties is a permutation); a receive cell's duty goes to the slot's peer. -/
theorem toks_around : (bigSep Finset.univ fun c : Dev nD => (toks c : sProp 𝕄)) ⊢ bigSep Finset.univ fun c : Dev nD => payToks c := by
  have hA : (bigSep Finset.univ fun c : Dev nD => bigSep Finset.univ fun δ : Fin 7 => (dutyTok ER (barCell c) 0 δ : sProp 𝕄))
      = bigSep Finset.univ fun c : Dev nD => bigSep Finset.univ fun j : Fin 7 => dutyTok ER (barCell (bsig j c)) 0 (slot j c) :=
    (bigSep_univ_prod (fun p : Dev nD × Fin 7 => (dutyTok ER (barCell p.1) 0 p.2 : sProp 𝕄))).symm.trans
      ((bigSep_univ_equiv sigEquiv _).trans (bigSep_univ_prod _))
  have hB : (bigSep Finset.univ fun c : Dev nD => bigSep Finset.univ fun σ : Fin 7 => (dutyTok ER (recvCell c σ) 0 (0 : Fin 7) : sProp 𝕄))
      = bigSep Finset.univ fun c : Dev nD => bigSep Finset.univ fun σ : Fin 7 => dutyTok ER (recvCell (tgt σ c) σ) 0 (0 : Fin 7) :=
    (BI.bigSep_univ_comm _).trans ((bigSep_congr fun σ _ =>
      bigSep_univ_equiv (tgtEquiv σ) (fun c : Dev nD => (dutyTok ER (recvCell c σ) 0 (0 : Fin 7) : sProp 𝕄))).trans (BI.bigSep_univ_comm _))
  unfold toks payToks
  rw [bigSep_sep', bigSep_sep', bigSep_sep', bigSep_sep', hA, hB]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 15 => iprop(∃ κ : ℕ, cellInv ER (sched m ρ) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok⟩
  ihave HK := (BI.bigSep_exists_pi Finset.univ (fun (ck : Dev nD × Fin 15) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear; rw [bigSep_cells (fun g => (atPos ER g 0 ∅ 0 : sProp 𝕄)) c])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
/-- What a device owes at launch, as two sums: its seven transfers' credit and its seven handshake units. -/
theorem O₀_eq (c : Dev nD) : O₀ c = (∑ σ : Fin 7, tR c σ) + ∑ j : Fin 7, tB c j := by
  unfold O₀ Orecv
  rw [Fin.sum_univ_seven, Fin.sum_univ_seven, zero_add]
  ac_rfl

/-- What the devices together owe device `d`'s cells: seven units on its barrier cell, a block's credit on each receive cell. -/
abbrev owedTo (d : Dev nD) : CellTallies nD τ sig Unit := tallyAt (barCell d) () 7 + ∑ σ : Fin 7, tallyAt (recvCell d σ) () N

omit [FloatOps F] in
/-- Summed over the payers, the dues are each device's own: slot `σ`'s exchange is an involution of the devices, and the
    pairing of handshake signals with barrier duties a permutation of the pairs. -/
theorem owed_sum : (∑ d : Dev nD, O₀ d) = ∑ d : Dev nD, owedTo d := by
  have hR : (∑ d : Dev nD, ∑ σ : Fin 7, tR d σ) = ∑ d : Dev nD, ∑ σ : Fin 7, (tallyAt (recvCell d σ) () N : CellTallies nD τ sig Unit) := by
    rw [Finset.sum_comm, Finset.sum_comm (f := fun (d : Dev nD) (σ : Fin 7) => (tallyAt (recvCell d σ) () N : CellTallies nD τ sig Unit))]
    exact Finset.sum_congr rfl fun σ _ => Equiv.sum_comp (tgtEquiv σ) (fun d : Dev nD => (tallyAt (recvCell d σ) () N : CellTallies nD τ sig Unit))
  have h7 (g : GSem nD τ sig) : (∑ _δ : Fin 7, (tallyAt g () 1 : CellTallies nD τ sig Unit)) = tallyAt g () 7 := by
    rw [Fin.sum_univ_seven]; simp only [tallyAt_add]
  have hB : (∑ d : Dev nD, ∑ j : Fin 7, tB d j) = ∑ d : Dev nD, (tallyAt (barCell d) () 7 : CellTallies nD τ sig Unit) :=
    calc (∑ d : Dev nD, ∑ j : Fin 7, tB d j)
        = ∑ p : Dev nD × Fin 7, (tallyAt (barCell (sigEquiv p).1) () 1 : CellTallies nD τ sig Unit) :=
          (Fintype.sum_prod_type' (fun (d : Dev nD) (j : Fin 7) => tB d j)).symm
      _ = ∑ p : Dev nD × Fin 7, (tallyAt (barCell p.1) () 1 : CellTallies nD τ sig Unit) :=
          Equiv.sum_comp sigEquiv (fun p : Dev nD × Fin 7 => (tallyAt (barCell p.1) () 1 : CellTallies nD τ sig Unit))
      _ = ∑ d : Dev nD, ∑ _δ : Fin 7, (tallyAt (barCell d) () 1 : CellTallies nD τ sig Unit) :=
          Fintype.sum_prod_type' (fun (d : Dev nD) (_ : Fin 7) => (tallyAt (barCell d) () 1 : CellTallies nD τ sig Unit))
      _ = _ := Finset.sum_congr rfl fun d _ => h7 _
  rw [Finset.sum_congr rfl (fun d _ => O₀_eq d), Finset.sum_add_distrib, Finset.sum_add_distrib, hR, hB, add_comm]

omit [FloatOps F] in
theorem owedTo_own (d : Dev nD) (g : GSem nD τ sig) (h : owedTo d g ≠ 0) : g.1 = (d.tc : Thread nD τ) := by
  by_contra hne
  refine h ?_
  show (tallyAt (barCell d) () 7 + ∑ σ : Fin 7, tallyAt (recvCell d σ) () N : CellTallies nD τ sig Unit) g = 0
  rw [Pi.add_apply, Finset.sum_apply, tallyAt_ne_cell (fun e => hne (by rw [e])),
    Finset.sum_eq_zero (fun σ _ => tallyAt_ne_cell (fun e => hne (by rw [e])) () N), add_zero]

omit [FloatOps F] in
theorem creds (c : Dev nD) :
    (Pipeline.launchCred O₀ c : sProp 𝕄) ⊢ iprop(cred (tallyAt (barCell c) () 7) ∗ bigSep Finset.univ fun σ : Fin 7 => cred (tallyAt (recvCell c σ) () N)) :=
  (Entails.of_eq (Pipeline.launchCred_of_sum O₀ owedTo owed_sum owedTo_own c)).trans
    ((cred_add _ _).1.trans (sep_mono_right (Entails.of_eq
      (Pipeline.cred_finsetSum Finset.univ (fun σ : Fin 7 => (tallyAt (recvCell c σ) () N : CellTallies nD τ sig Unit))))))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
/-- The seven send buffers, and the seven landing buffers, each at some contents, one by one. -/
theorem sBufs_eq (c : Dev nD) : (bigSep Finset.univ fun σ : Fin 7 => iprop(∃ f, sPts (F := F) c σ f))
    = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) := (bigSep_fin7 _).trans rfl
omit [FloatOps F] in
theorem rBufs_eq (c : Dev nD) : (bigSep Finset.univ fun σ : Fin 7 => iprop(∃ f, rPts (F := F) c σ f))
    = iprop((∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f) ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f) ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f)) := (bigSep_fin7 _).trans rfl
omit [FloatOps F] in
/-- The landing buffers read in the order the handshake hands them out are the landing buffers. -/
theorem rBufs_slot (c : Dev nD) : (bigSep Finset.univ fun j : Fin 7 => iprop(∃ f, rPts (F := F) c (slot j c) f))
    = bigSep Finset.univ fun σ : Fin 7 => iprop(∃ f, rPts (F := F) c σ f) :=
  (bigSep_univ_equiv (slotEquiv c) (fun σ : Fin 7 => iprop(∃ f, rPts (F := F) c σ f))).symm

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  rw [rBufs_slot, sBufs_eq, rBufs_eq]
  iintro ⟨Hs, -, H0, H1, H2, H3, H4, H5, H6, H7, H8, H9, H10, H11, H12, H13⟩
  isplitl [Hs]; · iexact Hs
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  · isplitl [H7]; · iexact H7
    isplitl [H8]; · iexact H8
    isplitl [H9]; · iexact H9
    isplitl [H10]; · iexact H10
    isplitl [H11]; · iexact H11
    isplitl [H12]; · iexact H12
    iexact H13

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  rw [sBufs_eq, rBufs_eq]
  iintro ⟨⟨H0, H1, H2, H3, H4, H5, H6⟩, ⟨H7, H8, H9, H10, H11, H12, H13⟩, Hz⟩
  isplitr; · iempintro
  isplitl [Hz]; · iexact Hz
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ### The waits of the staging pipeline -/

omit [FloatOps F] in
theorem O₀_pos {c : Dev nD} {g : GSem nD τ sig} {u : Unit} (h : 0 < O₀ c g u) :
    (∃ σ : Fin 7, g = recvCell (tgt σ c) σ) ∨ ∃ j : Fin 7, g = barCell (bsig j c) := by
  rw [O₀_eq] at h
  rcases Pipeline.add_pos_cases h with h | h
  · obtain ⟨σ, -, hσ⟩ := Pipeline.sum_pos_exists h; exact Or.inl ⟨σ, (Pipeline.tallyAt_pos hσ).1⟩
  · obtain ⟨j, -, hj⟩ := Pipeline.sum_pos_exists h; exact Or.inr ⟨j, (Pipeline.tallyAt_pos hj).1⟩

omit [FloatOps F] in
/-- A staging cell sits at level 0, below everything a device owes: barrier cells at 1, receive cells at 2. -/
theorem mayWait_stage (c : Dev nD) (q : DmaSem sig) (hq : isRecv (SemLoc.dma q : SemLoc sig) = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨σ, rfl⟩ | ⟨j, rfl⟩ <;> exact Finset.mem_singleton_self _)
      (fun p hp => by
        rw [Finset.mem_singleton.mp hp]; dsimp only [lv]
        rw [if_neg (fun h => by cases h), if_neg (by rw [hq]; exact Bool.false_ne_true)])
      (fun g u hg => by
        rcases O₀_pos hg with ⟨σ, rfl⟩ | ⟨j, rfl⟩
        · dsimp only [lv]
          rw [if_neg (recv_ne_bar σ), if_pos (show isRecv (SemLoc.dma (recvSem σ) : SemLoc sig) = true from decide_eq_true (by show 10 ≤ 10 + σ.val; omega))]
          decide
        · dsimp only [lv]; rw [if_pos rfl]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The arrays after the run -/

/-- The result array after the one point's write-back: what the body left staged. -/
theorem final_out (c : Dev nD) : (dats (F := F) m ρ 0 c).arrAt (2 : Fin 3) cfg0.N = outAt m ρ c := by
  have ho : ((cfg0.win (2 : Fin 3)).blk t0_0).view.read (Elt F) ((dats (F := F) m ρ 0 c).arrAt (2 : Fin 3) cfg0.N)
      = (dats (F := F) m ρ 0 c).flushed (2 : Fin 3) t0_0 := by
    rw [show cfg0.N = (t0_0 : Fin cfg0.N).val + 1 from rfl, (dats (F := F) m ρ 0 c).arrAt_succ (2 : Fin 3) t0_0]
    rw [show (cfg0.win (2 : Fin 3)).flush t0_0 = true from by decide, if_pos rfl]
    exact View.read_write_univ _ _
  have hz : (fun a => (win0_2.index t0_0) a * main_v1.ty.shape.size a) = fun _ => 0 := funext fun a => by fin_cases a <;> decide
  rw [Memref.read_access_unit_zero (Elt F) main_v1 hz (fun a => by fin_cases a <;> decide)] at ho
  exact ho.trans rfl

/-! ### The run -/

set_option maxRecDepth 8000 in
/-- From any memory with zero counters every weakly fair execution of the eight kernels terminates without fault; each
    device's result array ends at its staged result and its two argument arrays end unchanged. -/
theorem kernel_run (hbody : ∀ c : Dev nD, BodyObligation (dats (F := F) m ρ 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun s h c => ⟨((h c).1 (2 : Fin 3)).trans (final_out m ρ c),
      ((h c).1 (0 : Fin 3)).trans ((dats (F := F) m ρ 0 c).arrAt_in (0 : Fin 3) rfl _),
      ((h c).1 (1 : Fin 3)).trans ((dats (F := F) m ρ 0 c).arrAt_in (1 : Fin 3) rfl _)⟩)

/-- info: 'Cert.KernelIdeal.A2A.kernel_run' depends on axioms: [propext, Classical.choice, Quot.sound] -/
#guard_msgs in #print axioms kernel_run

end Cert.KernelIdeal.A2A

end
-- ==== Proof.KernelIdeal.Pay.lean ====
/- What a transfer pays: the facts the body's transfer steps hand the schedule, at any contents; and one store through
   the whole extent of a buffer. -/
import proofs.«900795_g7700000000000796_dist_gemm_a2a_m2048_k2048_n2048_f32_none_v7x_i8_1_alg».proof.Proof.KernelIdeal.Proto
import Idealize.ShloMosaic.Lib.Writes
import Idealize.ShloMosaic.Lib.Pipeline.FrameBody
import Idealize.ShloMosaic.Lib.Pipeline.Value

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer -/

omit [FloatOps F] in
/-- A whole buffer held through its whole view on all of the view's set is the buffer held. -/
theorem pts_whole (c : Dev nD) (b : Ref sig .tc) (f : b.ty.Contents (Elt F)) :
    ((Memref.whole b : Memref sig .tc _ _ _).view.loc (c : Thread nD τ) ↦[(Memref.whole b : Memref sig .tc _ _ _).view.set]{fullShare} f : sProp 𝕄)
      = (((c : Thread nD τ).loc b) ↦{fullShare} f) := by
  have hs : (Memref.whole b : Memref sig .tc _ _ _).view.set = Finset.univ := View.set_whole b
  rw [hs]

/-- One store through the rectangle of the buffer's own sizes at zero offsets leaves its payload. -/
theorem writes_whole1 (b : Ref sig .tc) (f : b.ty.Contents (Elt F)) {off : Fin b.ty.shape.rank → ℕ} (h : off = fun _ => 0) (inb : ∀ a, off a + b.ty.shape.size a ≤ b.ty.shape.size a) (w : b.ty.shape.Idx → Elt F b.ty.elt) :
    (Memref.whole b).view.writes (Elt F) f [(⟨Rect.unit off b.ty.shape.size inb, w⟩ : View.Piece (Elt F) b.ty.shape b.ty.elt)] = w := by
  have hcov : ∀ y : b.ty.shape.Idx, ∃ p ∈ [(⟨Rect.unit off b.ty.shape.size inb, w⟩ : View.Piece (Elt F) b.ty.shape b.ty.elt)], y ∈ p.1.set := fun y =>
    ⟨_, List.mem_cons_self, by subst h; show y ∈ (Rect.whole _).set; rw [Rect.set_whole]; exact Finset.mem_univ y⟩
  have hr := View.read_writes_eq_canon (Val := Elt F) (Memref.whole b : Memref sig .tc _ _ _).view f _ hcov
  rw [View.canon_unit_zero h inb w] at hr
  exact hr

/-- So the buffer held at what that one store leaves is the buffer held at the payload. -/
theorem pts_store1 (c : Dev nD) (b : Ref sig .tc) (f : b.ty.Contents (Elt F)) {off : Fin b.ty.shape.rank → ℕ} (h : off = fun _ => 0) (inb : ∀ a, off a + b.ty.shape.size a ≤ b.ty.shape.size a) (w : b.ty.shape.Idx → Elt F b.ty.elt) :
    ((Memref.whole b).view.loc (c : Thread nD τ) ↦{fullShare} (Memref.whole b).view.writes (Elt F) f [(⟨Rect.unit off b.ty.shape.size inb, w⟩ : View.Piece (Elt F) b.ty.shape b.ty.elt)] : sProp 𝕄)
      ⊢ ((Memref.whole b).view.loc (c : Thread nD τ) ↦{fullShare} w) :=
  Entails.of_eq (by rw [writes_whole1 (F := F) b f h inb w])

/-! ## What the reading end of a transfer hands back -/

/-- Slot 0's send buffer, whole at any contents, is what the send cell's duty hands back. -/
theorem pay_send0 (c : Dev nD) (fs : Blk F) :
    ((Memref.whole cc0_scratch0 : Memref sig .tc .vmem S256x256 .bf16).view.loc (c : Thread nD τ)
        ↦[(Memref.whole cc0_scratch0 : Memref sig .tc .vmem S256x256 .bf16).view.set]{fullShare} fs : sProp 𝕄)
      ⊢ (sched (F := F) m ρ).payload (sendCell c 0) 0 0 := by
  rw [payload_send]
  unfold sendPay
  refine (Entails.of_eq (pts_whole c cc0_scratch0 fs)).trans ?_
  show _ ⊢ iprop(∃ f : Blk F, (((c : Thread nD τ).loc cc0_scratch0) ↦{fullShare} f : sProp 𝕄))
  iintro H; iexists fs; iexact H

/-- Slot 1's send buffer, whole at any contents, is what the send cell's duty hands back. -/
theorem pay_send1 (c : Dev nD) (fs : Blk F) :
    ((Memref.whole cc0_scratch1 : Memref sig .tc .vmem S256x256 .bf16).view.loc (c : Thread nD τ)
        ↦[(Memref.whole cc0_scratch1 : Memref sig .tc .vmem S256x256 .bf16).view.set]{fullShare} fs : sProp 𝕄)
      ⊢ (sched (F := F) m ρ).payload (sendCell c 1) 0 0 := by
  rw [payload_send]
  unfold sendPay
  refine (Entails.of_eq (pts_whole c cc0_scratch1 fs)).trans ?_
  show _ ⊢ iprop(∃ f : Blk F, (((c : Thread nD τ).loc cc0_scratch1) ↦{fullShare} f : sProp 𝕄))
  iintro H; iexists fs; iexact H

/-- Slot 2's send buffer, whole at any contents, is what the send cell's duty hands back. -/
theorem pay_send2 (c : Dev nD) (fs : Blk F) :
    ((Memref.whole cc0_scratch2 : Memref sig .tc .vmem S256x256 .bf16).view.loc (c : Thread nD τ)
        ↦[(Memref.whole cc0_scratch2 : Memref sig .tc .vmem S256x256 .bf16).view.set]{fullShare} fs : sProp 𝕄)
      ⊢ (sched (F := F) m ρ).payload (sendCell c 2) 0 0 := by
  rw [payload_send]
  unfold sendPay
  refine (Entails.of_eq (pts_whole c cc0_scratch2 fs)).trans ?_
  show _ ⊢ iprop(∃ f : Blk F, (((c : Thread nD τ).loc cc0_scratch2) ↦{fullShare} f : sProp 𝕄))
  iintro H; iexists fs; iexact H

/-- Slot 3's send buffer, whole at any contents, is what the send cell's duty hands back. -/
theorem pay_send3 (c : Dev nD) (fs : Blk F) :
    ((Memref.whole cc0_scratch3 : Memref sig .tc .vmem S256x256 .bf16).view.loc (c : Thread nD τ)
        ↦[(Memref.whole cc0_scratch3 : Memref sig .tc .vmem S256x256 .bf16).view.set]{fullShare} fs : sProp 𝕄)
      ⊢ (sched (F := F) m ρ).payload (sendCell c 3) 0 0 := by
  rw [payload_send]
  unfold sendPay
  refine (Entails.of_eq (pts_whole c cc0_scratch3 fs)).trans ?_
  show _ ⊢ iprop(∃ f : Blk F, (((c : Thread nD τ).loc cc0_scratch3) ↦{fullShare} f : sProp 𝕄))
  iintro H; iexists fs; iexact H

/-- Slot 4's send buffer, whole at any contents, is what the send cell's duty hands back. -/
theorem pay_send4 (c : Dev nD) (fs : Blk F) :
    ((Memref.whole cc0_scratch4 : Memref sig .tc .vmem S256x256 .bf16).view.loc (c : Thread nD τ)
        ↦[(Memref.whole cc0_scratch4 : Memref sig .tc .vmem S256x256 .bf16).view.set]{fullShare} fs : sProp 𝕄)
      ⊢ (sched (F := F) m ρ).payload (sendCell c 4) 0 0 := by
  rw [payload_send]
  unfold sendPay
  refine (Entails.of_eq (pts_whole c cc0_scratch4 fs)).trans ?_
  show _ ⊢ iprop(∃ f : Blk F, (((c : Thread nD τ).loc cc0_scratch4) ↦{fullShare} f : sProp 𝕄))
  iintro H; iexists fs; iexact H

/-- Slot 5's send buffer, whole at any contents, is what the send cell's duty hands back. -/
theorem pay_send5 (c : Dev nD) (fs : Blk F) :
    ((Memref.whole cc0_scratch5 : Memref sig .tc .vmem S256x256 .bf16).view.loc (c : Thread nD τ)
        ↦[(Memref.whole cc0_scratch5 : Memref sig .tc .vmem S256x256 .bf16).view.set]{fullShare} fs : sProp 𝕄)
      ⊢ (sched (F := F) m ρ).payload (sendCell c 5) 0 0 := by
  rw [payload_send]
  unfold sendPay
  refine (Entails.of_eq (pts_whole c cc0_scratch5 fs)).trans ?_
  show _ ⊢ iprop(∃ f : Blk F, (((c : Thread nD τ).loc cc0_scratch5) ↦{fullShare} f : sProp 𝕄))
  iintro H; iexists fs; iexact H

/-- Slot 6's send buffer, whole at any contents, is what the send cell's duty hands back. -/
theorem pay_send6 (c : Dev nD) (fs : Blk F) :
    ((Memref.whole cc0_scratch6 : Memref sig .tc .vmem S256x256 .bf16).view.loc (c : Thread nD τ)
        ↦[(Memref.whole cc0_scratch6 : Memref sig .tc .vmem S256x256 .bf16).view.set]{fullShare} fs : sProp 𝕄)
      ⊢ (sched (F := F) m ρ).payload (sendCell c 6) 0 0 := by
  rw [payload_send]
  unfold sendPay
  refine (Entails.of_eq (pts_whole c cc0_scratch6 fs)).trans ?_
  show _ ⊢ iprop(∃ f : Blk F, (((c : Thread nD τ).loc cc0_scratch6) ↦{fullShare} f : sProp 𝕄))
  iintro H; iexists fs; iexact H

/-! ## What the writing end of a transfer lands -/

/-- The peer's landing buffer 0 written everywhere with what the device's send buffer 0 holds, that being what the
    device sends in slot 0, is the payload of the peer's receive cell: the peer's slot-0 peer is the device itself. -/
theorem pay_recv0 (c : Dev nD) (fs fd : Blk F) :
    iprop(((Memref.whole cc0_scratch7 : Memref sig .tc .vmem S256x256 .bf16).view.loc (tgt 0 c : Thread nD τ)
          ↦[(Memref.whole cc0_scratch7 : Memref sig .tc .vmem S256x256 .bf16).view.set]{fullShare}
            ((Memref.whole cc0_scratch7 : Memref sig .tc .vmem S256x256 .bf16).view.write (Elt F) fd
              ((Memref.whole cc0_scratch0 : Memref sig .tc .vmem S256x256 .bf16).view.read (Elt F) fs) Finset.univ))
        ∗ ⌜fs = sent m ρ c 0⌝)
      ⊢ (sched (F := F) m ρ).payload (recvCell (tgt 0 c) 0) 0 0 := by
  have hl : landed m ρ (tgt 0 c) 0 = sent m ρ c 0 := by unfold landed; rw [tgt_tgt]
  have hw : (Memref.whole cc0_scratch7 : Memref sig .tc .vmem S256x256 .bf16).view.write (Elt F) fd
      ((Memref.whole cc0_scratch0 : Memref sig .tc .vmem S256x256 .bf16).view.read (Elt F) fs) Finset.univ = fs := View.write_whole_univ cc0_scratch7 fd fs
  rw [payload_recv]
  unfold recvPay
  rw [hl, pts_whole, hw]
  show _ ⊢ ((((tgt 0 c : Dev nD) : Thread nD τ).loc cc0_scratch7) ↦{fullShare} sent m ρ c 0 : sProp 𝕄)
  iintro ⟨H, %h⟩
  subst h
  iexact H

/-- The peer's landing buffer 1 written everywhere with what the device's send buffer 1 holds, that being what the
    device sends in slot 1, is the payload of the peer's receive cell: the peer's slot-1 peer is the device itself. -/
theorem pay_recv1 (c : Dev nD) (fs fd : Blk F) :
    iprop(((Memref.whole cc0_scratch8 : Memref sig .tc .vmem S256x256 .bf16).view.loc (tgt 1 c : Thread nD τ)
          ↦[(Memref.whole cc0_scratch8 : Memref sig .tc .vmem S256x256 .bf16).view.set]{fullShare}
            ((Memref.whole cc0_scratch8 : Memref sig .tc .vmem S256x256 .bf16).view.write (Elt F) fd
              ((Memref.whole cc0_scratch1 : Memref sig .tc .vmem S256x256 .bf16).view.read (Elt F) fs) Finset.univ))
        ∗ ⌜fs = sent m ρ c 1⌝)
      ⊢ (sched (F := F) m ρ).payload (recvCell (tgt 1 c) 1) 0 0 := by
  have hl : landed m ρ (tgt 1 c) 1 = sent m ρ c 1 := by unfold landed; rw [tgt_tgt]
  have hw : (Memref.whole cc0_scratch8 : Memref sig .tc .vmem S256x256 .bf16).view.write (Elt F) fd
      ((Memref.whole cc0_scratch1 : Memref sig .tc .vmem S256x256 .bf16).view.read (Elt F) fs) Finset.univ = fs := View.write_whole_univ cc0_scratch8 fd fs
  rw [payload_recv]
  unfold recvPay
  rw [hl, pts_whole, hw]
  show _ ⊢ ((((tgt 1 c : Dev nD) : Thread nD τ).loc cc0_scratch8) ↦{fullShare} sent m ρ c 1 : sProp 𝕄)
  iintro ⟨H, %h⟩
  subst h
  iexact H

/-- The peer's landing buffer 2 written everywhere with what the device's send buffer 2 holds, that being what the
    device sends in slot 2, is the payload of the peer's receive cell: the peer's slot-2 peer is the device itself. -/
theorem pay_recv2 (c : Dev nD) (fs fd : Blk F) :
    iprop(((Memref.whole cc0_scratch9 : Memref sig .tc .vmem S256x256 .bf16).view.loc (tgt 2 c : Thread nD τ)
          ↦[(Memref.whole cc0_scratch9 : Memref sig .tc .vmem S256x256 .bf16).view.set]{fullShare}
            ((Memref.whole cc0_scratch9 : Memref sig .tc .vmem S256x256 .bf16).view.write (Elt F) fd
              ((Memref.whole cc0_scratch2 : Memref sig .tc .vmem S256x256 .bf16).view.read (Elt F) fs) Finset.univ))
        ∗ ⌜fs = sent m ρ c 2⌝)
      ⊢ (sched (F := F) m ρ).payload (recvCell (tgt 2 c) 2) 0 0 := by
  have hl : landed m ρ (tgt 2 c) 2 = sent m ρ c 2 := by unfold landed; rw [tgt_tgt]
  have hw : (Memref.whole cc0_scratch9 : Memref sig .tc .vmem S256x256 .bf16).view.write (Elt F) fd
      ((Memref.whole cc0_scratch2 : Memref sig .tc .vmem S256x256 .bf16).view.read (Elt F) fs) Finset.univ = fs := View.write_whole_univ cc0_scratch9 fd fs
  rw [payload_recv]
  unfold recvPay
  rw [hl, pts_whole, hw]
  show _ ⊢ ((((tgt 2 c : Dev nD) : Thread nD τ).loc cc0_scratch9) ↦{fullShare} sent m ρ c 2 : sProp 𝕄)
  iintro ⟨H, %h⟩
  subst h
  iexact H

/-- The peer's landing buffer 3 written everywhere with what the device's send buffer 3 holds, that being what the
    device sends in slot 3, is the payload of the peer's receive cell: the peer's slot-3 peer is the device itself. -/
theorem pay_recv3 (c : Dev nD) (fs fd : Blk F) :
    iprop(((Memref.whole cc0_scratch10 : Memref sig .tc .vmem S256x256 .bf16).view.loc (tgt 3 c : Thread nD τ)
          ↦[(Memref.whole cc0_scratch10 : Memref sig .tc .vmem S256x256 .bf16).view.set]{fullShare}
            ((Memref.whole cc0_scratch10 : Memref sig .tc .vmem S256x256 .bf16).view.write (Elt F) fd
              ((Memref.whole cc0_scratch3 : Memref sig .tc .vmem S256x256 .bf16).view.read (Elt F) fs) Finset.univ))
        ∗ ⌜fs = sent m ρ c 3⌝)
      ⊢ (sched (F := F) m ρ).payload (recvCell (tgt 3 c) 3) 0 0 := by
  have hl : landed m ρ (tgt 3 c) 3 = sent m ρ c 3 := by unfold landed; rw [tgt_tgt]
  have hw : (Memref.whole cc0_scratch10 : Memref sig .tc .vmem S256x256 .bf16).view.write (Elt F) fd
      ((Memref.whole cc0_scratch3 : Memref sig .tc .vmem S256x256 .bf16).view.read (Elt F) fs) Finset.univ = fs := View.write_whole_univ cc0_scratch10 fd fs
  rw [payload_recv]
  unfold recvPay
  rw [hl, pts_whole, hw]
  show _ ⊢ ((((tgt 3 c : Dev nD) : Thread nD τ).loc cc0_scratch10) ↦{fullShare} sent m ρ c 3 : sProp 𝕄)
  iintro ⟨H, %h⟩
  subst h
  iexact H

/-- The peer's landing buffer 4 written everywhere with what the device's send buffer 4 holds, that being what the
    device sends in slot 4, is the payload of the peer's receive cell: the peer's slot-4 peer is the device itself. -/
theorem pay_recv4 (c : Dev nD) (fs fd : Blk F) :
    iprop(((Memref.whole cc0_scratch11 : Memref sig .tc .vmem S256x256 .bf16).view.loc (tgt 4 c : Thread nD τ)
          ↦[(Memref.whole cc0_scratch11 : Memref sig .tc .vmem S256x256 .bf16).view.set]{fullShare}
            ((Memref.whole cc0_scratch11 : Memref sig .tc .vmem S256x256 .bf16).view.write (Elt F) fd
              ((Memref.whole cc0_scratch4 : Memref sig .tc .vmem S256x256 .bf16).view.read (Elt F) fs) Finset.univ))
        ∗ ⌜fs = sent m ρ c 4⌝)
      ⊢ (sched (F := F) m ρ).payload (recvCell (tgt 4 c) 4) 0 0 := by
  have hl : landed m ρ (tgt 4 c) 4 = sent m ρ c 4 := by unfold landed; rw [tgt_tgt]
  have hw : (Memref.whole cc0_scratch11 : Memref sig .tc .vmem S256x256 .bf16).view.write (Elt F) fd
      ((Memref.whole cc0_scratch4 : Memref sig .tc .vmem S256x256 .bf16).view.read (Elt F) fs) Finset.univ = fs := View.write_whole_univ cc0_scratch11 fd fs
  rw [payload_recv]
  unfold recvPay
  rw [hl, pts_whole, hw]
  show _ ⊢ ((((tgt 4 c : Dev nD) : Thread nD τ).loc cc0_scratch11) ↦{fullShare} sent m ρ c 4 : sProp 𝕄)
  iintro ⟨H, %h⟩
  subst h
  iexact H

/-- The peer's landing buffer 5 written everywhere with what the device's send buffer 5 holds, that being what the
    device sends in slot 5, is the payload of the peer's receive cell: the peer's slot-5 peer is the device itself. -/
theorem pay_recv5 (c : Dev nD) (fs fd : Blk F) :
    iprop(((Memref.whole cc0_scratch12 : Memref sig .tc .vmem S256x256 .bf16).view.loc (tgt 5 c : Thread nD τ)
          ↦[(Memref.whole cc0_scratch12 : Memref sig .tc .vmem S256x256 .bf16).view.set]{fullShare}
            ((Memref.whole cc0_scratch12 : Memref sig .tc .vmem S256x256 .bf16).view.write (Elt F) fd
              ((Memref.whole cc0_scratch5 : Memref sig .tc .vmem S256x256 .bf16).view.read (Elt F) fs) Finset.univ))
        ∗ ⌜fs = sent m ρ c 5⌝)
      ⊢ (sched (F := F) m ρ).payload (recvCell (tgt 5 c) 5) 0 0 := by
  have hl : landed m ρ (tgt 5 c) 5 = sent m ρ c 5 := by unfold landed; rw [tgt_tgt]
  have hw : (Memref.whole cc0_scratch12 : Memref sig .tc .vmem S256x256 .bf16).view.write (Elt F) fd
      ((Memref.whole cc0_scratch5 : Memref sig .tc .vmem S256x256 .bf16).view.read (Elt F) fs) Finset.univ = fs := View.write_whole_univ cc0_scratch12 fd fs
  rw [payload_recv]
  unfold recvPay
  rw [hl, pts_whole, hw]
  show _ ⊢ ((((tgt 5 c : Dev nD) : Thread nD τ).loc cc0_scratch12) ↦{fullShare} sent m ρ c 5 : sProp 𝕄)
  iintro ⟨H, %h⟩
  subst h
  iexact H

/-- The peer's landing buffer 6 written everywhere with what the device's send buffer 6 holds, that being what the
    device sends in slot 6, is the payload of the peer's receive cell: the peer's slot-6 peer is the device itself. -/
theorem pay_recv6 (c : Dev nD) (fs fd : Blk F) :
    iprop(((Memref.whole cc0_scratch13 : Memref sig .tc .vmem S256x256 .bf16).view.loc (tgt 6 c : Thread nD τ)
          ↦[(Memref.whole cc0_scratch13 : Memref sig .tc .vmem S256x256 .bf16).view.set]{fullShare}
            ((Memref.whole cc0_scratch13 : Memref sig .tc .vmem S256x256 .bf16).view.write (Elt F) fd
              ((Memref.whole cc0_scratch6 : Memref sig .tc .vmem S256x256 .bf16).view.read (Elt F) fs) Finset.univ))
        ∗ ⌜fs = sent m ρ c 6⌝)
      ⊢ (sched (F := F) m ρ).payload (recvCell (tgt 6 c) 6) 0 0 := by
  have hl : landed m ρ (tgt 6 c) 6 = sent m ρ c 6 := by unfold landed; rw [tgt_tgt]
  have hw : (Memref.whole cc0_scratch13 : Memref sig .tc .vmem S256x256 .bf16).view.write (Elt F) fd
      ((Memref.whole cc0_scratch6 : Memref sig .tc .vmem S256x256 .bf16).view.read (Elt F) fs) Finset.univ = fs := View.write_whole_univ cc0_scratch13 fd fs
  rw [payload_recv]
  unfold recvPay
  rw [hl, pts_whole, hw]
  show _ ⊢ ((((tgt 6 c : Dev nD) : Thread nD τ).loc cc0_scratch13) ↦{fullShare} sent m ρ c 6 : sProp 𝕄)
  iintro ⟨H, %h⟩
  subst h
  iexact H

/-- info: 'Cert.KernelIdeal.A2A.pts_store1' depends on axioms: [propext, Classical.choice, Quot.sound] -/
#guard_msgs in #print axioms pts_store1

/-- info: 'Cert.KernelIdeal.A2A.pay_send6' depends on axioms: [propext, Classical.choice, Quot.sound] -/
#guard_msgs in #print axioms pay_send6

/-- info: 'Cert.KernelIdeal.A2A.pay_recv6' depends on axioms: [propext, Classical.choice, Quot.sound] -/
#guard_msgs in #print axioms pay_recv6

end Cert.KernelIdeal.A2A

end
-- ==== Proof.KernelIdeal.Cover.lean ====
/- The staged result after the body's eight stores: the eight row blocks, each written once. -/
import proofs.«900795_g7700000000000796_dist_gemm_a2a_m2048_k2048_n2048_f32_none_v7x_i8_1_alg».proof.Proof.KernelIdeal.Proto
import Idealize.ShloMosaic.Lib.Writes

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One store of a row block -/

/-- The staged result buffer, whole. -/
abbrev vO : View sig .tc .vmem S2048x256 .f32 := (Memref.whole cc0_stg2_0 : Memref sig .tc .vmem S2048x256 .f32).view

omit [FloatOps F] in
/-- The rectangle of 256 rows from row `256 d` holds exactly the indices of row block `d`. -/
theorem mem_rowBlk (d : Dev nD) (inb : ∀ a, (![256 * d.val, 0] : Fin 2 → ℕ) a + S256x256.size a ≤ S2048x256.size a) (i : S2048x256.Idx) :
    i ∈ (Rect.unit (s := S2048x256) ![256 * d.val, 0] S256x256.size inb).set ↔ rowBlk i = d := by
  rw [Rect.mem_set_unit]
  constructor
  · intro h
    have h0 : 256 * d.val ≤ (i 0).val ∧ (i 0).val < 256 * d.val + 256 := h 0
    exact Fin.ext (by show (i 0).val / 256 = d.val; omega)
  · intro h a
    have hv : (i 0).val / 256 = d.val := congrArg Fin.val h
    have h1 : (i 1).val < 256 := (i 1).isLt
    fin_cases a
    · show 256 * d.val ≤ (i 0).val ∧ (i 0).val < 256 * d.val + 256; omega
    · show 0 ≤ (i 1).val ∧ (i 1).val < 0 + 256; omega

/-- A store of row block `d` leaves an index of another row block as it was; -/
theorem writes_skip (f : (cc0_stg2_0 : Ref sig .tc).ty.Contents (Elt F)) (d : Dev nD)
    (inb : ∀ a, (![256 * d.val, 0] : Fin 2 → ℕ) a + S256x256.size a ≤ S2048x256.size a) (w : Vec F S256x256 .f32)
    (L : List (View.Piece (Elt F) S2048x256 .f32)) (i : S2048x256.Idx) (h : rowBlk i ≠ d) :
    vO.writes (Elt F) f ((⟨Rect.unit (s := S2048x256) ![256 * d.val, 0] S256x256.size inb, w⟩ : View.Piece (Elt F) S2048x256 .f32) :: L) i = vO.writes (Elt F) f L i := by
  have hy : i ∉ Finset.univ.map (Rect.unit (s := S2048x256) ![256 * d.val, 0] S256x256.size inb).emb := by
    rw [Rect.map_emb_univ, mem_rowBlk]; exact h
  exact View.read_slice_write_of_not_mem (v := vO) _ _ w Finset.univ hy

/-- at an index of row block `d` it leaves the payload at the index's place inside the block. -/
theorem writes_hit (f : (cc0_stg2_0 : Ref sig .tc).ty.Contents (Elt F)) (d : Dev nD)
    (inb : ∀ a, (![256 * d.val, 0] : Fin 2 → ℕ) a + S256x256.size a ≤ S2048x256.size a) (w : Vec F S256x256 .f32)
    (L : List (View.Piece (Elt F) S2048x256 .f32)) (i : S2048x256.Idx) (h : rowBlk i = d) :
    vO.writes (Elt F) f ((⟨Rect.unit (s := S2048x256) ![256 * d.val, 0] S256x256.size inb, w⟩ : View.Piece (Elt F) S2048x256 .f32) :: L) i = w (inBlk i) := by
  have e : (Rect.unit (s := S2048x256) ![256 * d.val, 0] S256x256.size inb).emb (inBlk i) = i := by
    have hv : (i 0).val / 256 = d.val := congrArg Fin.val h
    funext a
    fin_cases a
    · exact Fin.ext (by show 256 * d.val + 1 * ((i 0).val % 256) = (i 0).val; omega)
    · exact Fin.ext (by show 0 + 1 * (i 1).val = (i 1).val; omega)
  have hrd := View.read_writes_cons_emb (v := vO) f (Rect.unit (s := S2048x256) ![256 * d.val, 0] S256x256.size inb) w L (inBlk i)
  rw [e] at hrd
  exact hrd

/-! ## The eight stores -/

/-- Eight stores, one to the device's own row block and one to each peer's: an index of the own block reads the own
    store's payload, an index of a peer's block the payload of the slot that reaches that peer; the earlier contents are
    nowhere left. The offsets are variables with their closed forms as hypotheses. -/
theorem out_cover_aux (c : Dev nD) (g2 : (cc0_stg2_0 : Ref sig .tc).ty.Contents (Elt F)) (p0 : Vec F S256x256 .f32) (p : Fin 7 → Vec F S256x256 .f32)
    (oc o0 o1 o2 o3 o4 o5 o6 : Fin 2 → ℕ)
    (ec : oc = ![256 * c.val, 0])
    (e0 : o0 = ![256 * (tgt 0 c).val, 0])
    (e1 : o1 = ![256 * (tgt 1 c).val, 0])
    (e2 : o2 = ![256 * (tgt 2 c).val, 0])
    (e3 : o3 = ![256 * (tgt 3 c).val, 0])
    (e4 : o4 = ![256 * (tgt 4 c).val, 0])
    (e5 : o5 = ![256 * (tgt 5 c).val, 0])
    (e6 : o6 = ![256 * (tgt 6 c).val, 0])
    (ic : ∀ a, oc a + S256x256.size a ≤ S2048x256.size a)
    (i0 : ∀ a, o0 a + S256x256.size a ≤ S2048x256.size a)
    (i1 : ∀ a, o1 a + S256x256.size a ≤ S2048x256.size a)
    (i2 : ∀ a, o2 a + S256x256.size a ≤ S2048x256.size a)
    (i3 : ∀ a, o3 a + S256x256.size a ≤ S2048x256.size a)
    (i4 : ∀ a, o4 a + S256x256.size a ≤ S2048x256.size a)
    (i5 : ∀ a, o5 a + S256x256.size a ≤ S2048x256.size a)
    (i6 : ∀ a, o6 a + S256x256.size a ≤ S2048x256.size a) :
    vO.writes (Elt F) g2
      [
       (⟨Rect.unit (s := S2048x256) o6 S256x256.size i6, p 6⟩ : View.Piece (Elt F) S2048x256 .f32),
       (⟨Rect.unit (s := S2048x256) o5 S256x256.size i5, p 5⟩ : View.Piece (Elt F) S2048x256 .f32),
       (⟨Rect.unit (s := S2048x256) o4 S256x256.size i4, p 4⟩ : View.Piece (Elt F) S2048x256 .f32),
       (⟨Rect.unit (s := S2048x256) o3 S256x256.size i3, p 3⟩ : View.Piece (Elt F) S2048x256 .f32),
       (⟨Rect.unit (s := S2048x256) o2 S256x256.size i2, p 2⟩ : View.Piece (Elt F) S2048x256 .f32),
       (⟨Rect.unit (s := S2048x256) o1 S256x256.size i1, p 1⟩ : View.Piece (Elt F) S2048x256 .f32),
       (⟨Rect.unit (s := S2048x256) o0 S256x256.size i0, p 0⟩ : View.Piece (Elt F) S2048x256 .f32),
       (⟨Rect.unit (s := S2048x256) oc S256x256.size ic, p0⟩ : View.Piece (Elt F) S2048x256 .f32)]
      = fun i => if rowBlk i = c then p0 (inBlk i) else p (slotTo c (rowBlk i)) (inBlk i) := by
  subst ec e0 e1 e2 e3 e4 e5 e6
  funext i
  by_cases hb : rowBlk i = c
  · rw [if_pos hb,
      writes_skip (d := tgt 6 c) (h := fun e => tgt_ne 6 c (e.symm.trans hb)),
      writes_skip (d := tgt 5 c) (h := fun e => tgt_ne 5 c (e.symm.trans hb)),
      writes_skip (d := tgt 4 c) (h := fun e => tgt_ne 4 c (e.symm.trans hb)),
      writes_skip (d := tgt 3 c) (h := fun e => tgt_ne 3 c (e.symm.trans hb)),
      writes_skip (d := tgt 2 c) (h := fun e => tgt_ne 2 c (e.symm.trans hb)),
      writes_skip (d := tgt 1 c) (h := fun e => tgt_ne 1 c (e.symm.trans hb)),
      writes_skip (d := tgt 0 c) (h := fun e => tgt_ne 0 c (e.symm.trans hb)),
      writes_hit (d := c) (h := hb)]
  · rw [if_neg hb]
    by_cases h6 : rowBlk i = tgt 6 c
    · rw [writes_hit (d := tgt 6 c) (h := h6), h6, slotTo_tgt]
    rw [writes_skip (d := tgt 6 c) (h := h6)]
    by_cases h5 : rowBlk i = tgt 5 c
    · rw [writes_hit (d := tgt 5 c) (h := h5), h5, slotTo_tgt]
    rw [writes_skip (d := tgt 5 c) (h := h5)]
    by_cases h4 : rowBlk i = tgt 4 c
    · rw [writes_hit (d := tgt 4 c) (h := h4), h4, slotTo_tgt]
    rw [writes_skip (d := tgt 4 c) (h := h4)]
    by_cases h3 : rowBlk i = tgt 3 c
    · rw [writes_hit (d := tgt 3 c) (h := h3), h3, slotTo_tgt]
    rw [writes_skip (d := tgt 3 c) (h := h3)]
    by_cases h2 : rowBlk i = tgt 2 c
    · rw [writes_hit (d := tgt 2 c) (h := h2), h2, slotTo_tgt]
    rw [writes_skip (d := tgt 2 c) (h := h2)]
    by_cases h1 : rowBlk i = tgt 1 c
    · rw [writes_hit (d := tgt 1 c) (h := h1), h1, slotTo_tgt]
    rw [writes_skip (d := tgt 1 c) (h := h1)]
    by_cases h0 : rowBlk i = tgt 0 c
    · rw [writes_hit (d := tgt 0 c) (h := h0), h0, slotTo_tgt]
    rw [writes_skip (d := tgt 0 c) (h := h0)]
    exfalso
    have hall : ∀ σ : Fin 7, rowBlk i ≠ tgt σ c := fun σ => by
      fin_cases σ
      exacts [h0, h1, h2, h3, h4, h5, h6]
    exact hall _ (tgt_slotTo c (rowBlk i) hb).symm

theorem out_cover (c : Dev nD) (g2 : (cc0_stg2_0 : Ref sig .tc).ty.Contents (Elt F)) (p0 : Vec F S256x256 .f32) (p : Fin 7 → Vec F S256x256 .f32) :
    (Memref.whole cc0_stg2_0 : Memref sig .tc .vmem S2048x256 .f32).view.writes (Elt F) g2
      [
       (⟨Rect.unit (s := S2048x256) (k0_off4 c 1#32 0#32 0#32) S256x256.size (k0_off4_inb c 6), p 6⟩ : View.Piece (Elt F) S2048x256 .f32),
       (⟨Rect.unit (s := S2048x256) (k0_off4 c 0#32 1#32 0#32) S256x256.size (k0_off4_inb c 5), p 5⟩ : View.Piece (Elt F) S2048x256 .f32),
       (⟨Rect.unit (s := S2048x256) (k0_off4 c 0#32 0#32 1#32) S256x256.size (k0_off4_inb c 4), p 4⟩ : View.Piece (Elt F) S2048x256 .f32),
       (⟨Rect.unit (s := S2048x256) (k0_off4 c 1#32 1#32 0#32) S256x256.size (k0_off4_inb c 3), p 3⟩ : View.Piece (Elt F) S2048x256 .f32),
       (⟨Rect.unit (s := S2048x256) (k0_off4 c 1#32 0#32 1#32) S256x256.size (k0_off4_inb c 2), p 2⟩ : View.Piece (Elt F) S2048x256 .f32),
       (⟨Rect.unit (s := S2048x256) (k0_off4 c 0#32 1#32 1#32) S256x256.size (k0_off4_inb c 1), p 1⟩ : View.Piece (Elt F) S2048x256 .f32),
       (⟨Rect.unit (s := S2048x256) (k0_off4 c 1#32 1#32 1#32) S256x256.size (k0_off4_inb c 0), p 0⟩ : View.Piece (Elt F) S2048x256 .f32),
       (⟨Rect.unit (s := S2048x256) (k0_off3 c) S256x256.size (k0_off3_inb c), p0⟩ : View.Piece (Elt F) S2048x256 .f32)]
      = fun i => if rowBlk i = c then p0 (inBlk i) else p (slotTo c (rowBlk i)) (inBlk i) :=
  out_cover_aux c g2 p0 p _ _ _ _ _ _ _ _ (k0_off3_eq c)
    (off4_eq c 0)
    (off4_eq c 1)
    (off4_eq c 2)
    (off4_eq c 3)
    (off4_eq c 4)
    (off4_eq c 5)
    (off4_eq c 6)
    _ _ _ _ _ _ _ _

theorem out_final (c : Dev nD) (g2 : (cc0_stg2_0 : Ref sig .tc).ty.Contents (Elt F)) :
    (Memref.whole cc0_stg2_0 : Memref sig .tc .vmem S2048x256 .f32).view.writes (Elt F) g2
      [
       (⟨Rect.unit (s := S2048x256) (k0_off4 c 1#32 0#32 0#32) S256x256.size (k0_off4_inb c 6), k0_pay17 ((Memref.whole cc0_scratch13 : Memref sig .tc .vmem S256x256 .bf16).view.readAt (Elt F) (Rect.unit (s := S256x256) ![0, 0] S256x256.size inb_S256x256_S256x256_0_0).toLoadRect (landed m ρ c 6))⟩ : View.Piece (Elt F) S2048x256 .f32),
       (⟨Rect.unit (s := S2048x256) (k0_off4 c 0#32 1#32 0#32) S256x256.size (k0_off4_inb c 5), k0_pay16 ((Memref.whole cc0_scratch12 : Memref sig .tc .vmem S256x256 .bf16).view.readAt (Elt F) (Rect.unit (s := S256x256) ![0, 0] S256x256.size inb_S256x256_S256x256_0_0).toLoadRect (landed m ρ c 5))⟩ : View.Piece (Elt F) S2048x256 .f32),
       (⟨Rect.unit (s := S2048x256) (k0_off4 c 0#32 0#32 1#32) S256x256.size (k0_off4_inb c 4), k0_pay15 ((Memref.whole cc0_scratch11 : Memref sig .tc .vmem S256x256 .bf16).view.readAt (Elt F) (Rect.unit (s := S256x256) ![0, 0] S256x256.size inb_S256x256_S256x256_0_0).toLoadRect (landed m ρ c 4))⟩ : View.Piece (Elt F) S2048x256 .f32),
       (⟨Rect.unit (s := S2048x256) (k0_off4 c 1#32 1#32 0#32) S256x256.size (k0_off4_inb c 3), k0_pay14 ((Memref.whole cc0_scratch10 : Memref sig .tc .vmem S256x256 .bf16).view.readAt (Elt F) (Rect.unit (s := S256x256) ![0, 0] S256x256.size inb_S256x256_S256x256_0_0).toLoadRect (landed m ρ c 3))⟩ : View.Piece (Elt F) S2048x256 .f32),
       (⟨Rect.unit (s := S2048x256) (k0_off4 c 1#32 0#32 1#32) S256x256.size (k0_off4_inb c 2), k0_pay13 ((Memref.whole cc0_scratch9 : Memref sig .tc .vmem S256x256 .bf16).view.readAt (Elt F) (Rect.unit (s := S256x256) ![0, 0] S256x256.size inb_S256x256_S256x256_0_0).toLoadRect (landed m ρ c 2))⟩ : View.Piece (Elt F) S2048x256 .f32),
       (⟨Rect.unit (s := S2048x256) (k0_off4 c 0#32 1#32 1#32) S256x256.size (k0_off4_inb c 1), k0_pay12 ((Memref.whole cc0_scratch8 : Memref sig .tc .vmem S256x256 .bf16).view.readAt (Elt F) (Rect.unit (s := S256x256) ![0, 0] S256x256.size inb_S256x256_S256x256_0_0).toLoadRect (landed m ρ c 1))⟩ : View.Piece (Elt F) S2048x256 .f32),
       (⟨Rect.unit (s := S2048x256) (k0_off4 c 1#32 1#32 1#32) S256x256.size (k0_off4_inb c 0), k0_pay11 ((Memref.whole cc0_scratch7 : Memref sig .tc .vmem S256x256 .bf16).view.readAt (Elt F) (Rect.unit (s := S256x256) ![0, 0] S256x256.size inb_S256x256_S256x256_0_0).toLoadRect (landed m ρ c 0))⟩ : View.Piece (Elt F) S2048x256 .f32),
       (⟨Rect.unit (s := S2048x256) (k0_off3 c) S256x256.size (k0_off3_inb c), k0_pay10 (xv m ρ c) (wcolAt m ρ c (k0_off2 c) (k0_off2_inb c))⟩ : View.Piece (Elt F) S2048x256 .f32)]
      = outAt m ρ c := by
  have hz : (![0, 0] : Fin 2 → ℕ) = fun _ => 0 := funext fun a => by fin_cases a <;> rfl
  have hr0 : ((Memref.whole cc0_scratch7 : Memref sig .tc .vmem S256x256 .bf16).view.readAt (Elt F) (Rect.unit (s := S256x256) ![0, 0] S256x256.size inb_S256x256_S256x256_0_0).toLoadRect (landed m ρ c 0)) = landed m ρ c 0 :=
    Memref.readAt_unit_zero (Elt F) cc0_scratch7 hz _ _
  have hr1 : ((Memref.whole cc0_scratch8 : Memref sig .tc .vmem S256x256 .bf16).view.readAt (Elt F) (Rect.unit (s := S256x256) ![0, 0] S256x256.size inb_S256x256_S256x256_0_0).toLoadRect (landed m ρ c 1)) = landed m ρ c 1 :=
    Memref.readAt_unit_zero (Elt F) cc0_scratch8 hz _ _
  have hr2 : ((Memref.whole cc0_scratch9 : Memref sig .tc .vmem S256x256 .bf16).view.readAt (Elt F) (Rect.unit (s := S256x256) ![0, 0] S256x256.size inb_S256x256_S256x256_0_0).toLoadRect (landed m ρ c 2)) = landed m ρ c 2 :=
    Memref.readAt_unit_zero (Elt F) cc0_scratch9 hz _ _
  have hr3 : ((Memref.whole cc0_scratch10 : Memref sig .tc .vmem S256x256 .bf16).view.readAt (Elt F) (Rect.unit (s := S256x256) ![0, 0] S256x256.size inb_S256x256_S256x256_0_0).toLoadRect (landed m ρ c 3)) = landed m ρ c 3 :=
    Memref.readAt_unit_zero (Elt F) cc0_scratch10 hz _ _
  have hr4 : ((Memref.whole cc0_scratch11 : Memref sig .tc .vmem S256x256 .bf16).view.readAt (Elt F) (Rect.unit (s := S256x256) ![0, 0] S256x256.size inb_S256x256_S256x256_0_0).toLoadRect (landed m ρ c 4)) = landed m ρ c 4 :=
    Memref.readAt_unit_zero (Elt F) cc0_scratch11 hz _ _
  have hr5 : ((Memref.whole cc0_scratch12 : Memref sig .tc .vmem S256x256 .bf16).view.readAt (Elt F) (Rect.unit (s := S256x256) ![0, 0] S256x256.size inb_S256x256_S256x256_0_0).toLoadRect (landed m ρ c 5)) = landed m ρ c 5 :=
    Memref.readAt_unit_zero (Elt F) cc0_scratch12 hz _ _
  have hr6 : ((Memref.whole cc0_scratch13 : Memref sig .tc .vmem S256x256 .bf16).view.readAt (Elt F) (Rect.unit (s := S256x256) ![0, 0] S256x256.size inb_S256x256_S256x256_0_0).toLoadRect (landed m ρ c 6)) = landed m ρ c 6 :=
    Memref.readAt_unit_zero (Elt F) cc0_scratch13 hz _ _
  rw [hr0, hr1, hr2, hr3, hr4, hr5, hr6]
  exact out_cover c g2 (own m ρ c) (widened m ρ c)

/-- info: 'Cert.KernelIdeal.A2A.out_final' depends on axioms: [propext, Classical.choice, Quot.sound] -/
#guard_msgs in #print axioms out_final

end Cert.KernelIdeal.A2A

end
-- ==== Proof.KernelIdeal.Body.lean ====
/-
  One device's body, stepped from the protocol's ghost state to the staged result.

  The order of the body is the protocol's: seven handshake signals, each handing a peer the landing buffer that
  peer will fill; the wait for the seven units of the device's own barrier cell, which brings the seven peers'
  landing buffers; for each slot the product with the peer's columns, stored narrowed in the send buffer and copied
  into the peer's landing buffer; the product with the device's own columns stored at its own row block; for each
  slot the wait on the receive cell, which brings the landing buffer holding the peer's rows times the device's
  own columns, stored widened at the peer's row block; the seven waits on the send cells.  After them nothing is in
  flight on the device's fourteen own cells, which close at zero, and the eight stores have written the whole
  staged result.
-/
import proofs.«900795_g7700000000000796_dist_gemm_a2a_m2048_k2048_n2048_f32_none_v7x_i8_1_alg».proof.Proof.KernelIdeal.Proto
import proofs.«900795_g7700000000000796_dist_gemm_a2a_m2048_k2048_n2048_f32_none_v7x_i8_1_alg».proof.Proof.KernelIdeal.Pay
import proofs.«900795_g7700000000000796_dist_gemm_a2a_m2048_k2048_n2048_f32_none_v7x_i8_1_alg».proof.Proof.KernelIdeal.Cover

noncomputable section

namespace Cert.KernelIdeal.A2A

open Cert.KernelIdeal Cert.KernelIdeal.Gen Cert.A2A
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Buffers as the stepping reads them, and the rules of the remote steps at this protocol's cells -/

omit [FloatOps F] in
theorem sPts_lit (c : Dev nD) (f : Blk F) :
    (sPts c 0 f = ((Memref.whole cc0_scratch0 : Memref sig .tc .vmem S256x256 .bf16).view.loc (c : Thread nD τ) ↦{fullShare} f : sProp 𝕄))
    ∧ (sPts c 1 f = ((Memref.whole cc0_scratch1 : Memref sig .tc .vmem S256x256 .bf16).view.loc (c : Thread nD τ) ↦{fullShare} f : sProp 𝕄))
    ∧ (sPts c 2 f = ((Memref.whole cc0_scratch2 : Memref sig .tc .vmem S256x256 .bf16).view.loc (c : Thread nD τ) ↦{fullShare} f : sProp 𝕄))
    ∧ (sPts c 3 f = ((Memref.whole cc0_scratch3 : Memref sig .tc .vmem S256x256 .bf16).view.loc (c : Thread nD τ) ↦{fullShare} f : sProp 𝕄))
    ∧ (sPts c 4 f = ((Memref.whole cc0_scratch4 : Memref sig .tc .vmem S256x256 .bf16).view.loc (c : Thread nD τ) ↦{fullShare} f : sProp 𝕄))
    ∧ (sPts c 5 f = ((Memref.whole cc0_scratch5 : Memref sig .tc .vmem S256x256 .bf16).view.loc (c : Thread nD τ) ↦{fullShare} f : sProp 𝕄))
    ∧ (sPts c 6 f = ((Memref.whole cc0_scratch6 : Memref sig .tc .vmem S256x256 .bf16).view.loc (c : Thread nD τ) ↦{fullShare} f : sProp 𝕄)) :=
  ⟨rfl, rfl, rfl, rfl, rfl, rfl, rfl⟩
omit [FloatOps F] in
theorem rPts_lit (c : Dev nD) (f : Blk F) :
    (rPts c 0 f = ((Memref.whole cc0_scratch7 : Memref sig .tc .vmem S256x256 .bf16).view.loc (c : Thread nD τ) ↦{fullShare} f : sProp 𝕄))
    ∧ (rPts c 1 f = ((Memref.whole cc0_scratch8 : Memref sig .tc .vmem S256x256 .bf16).view.loc (c : Thread nD τ) ↦{fullShare} f : sProp 𝕄))
    ∧ (rPts c 2 f = ((Memref.whole cc0_scratch9 : Memref sig .tc .vmem S256x256 .bf16).view.loc (c : Thread nD τ) ↦{fullShare} f : sProp 𝕄))
    ∧ (rPts c 3 f = ((Memref.whole cc0_scratch10 : Memref sig .tc .vmem S256x256 .bf16).view.loc (c : Thread nD τ) ↦{fullShare} f : sProp 𝕄))
    ∧ (rPts c 4 f = ((Memref.whole cc0_scratch11 : Memref sig .tc .vmem S256x256 .bf16).view.loc (c : Thread nD τ) ↦{fullShare} f : sProp 𝕄))
    ∧ (rPts c 5 f = ((Memref.whole cc0_scratch12 : Memref sig .tc .vmem S256x256 .bf16).view.loc (c : Thread nD τ) ↦{fullShare} f : sProp 𝕄))
    ∧ (rPts c 6 f = ((Memref.whole cc0_scratch13 : Memref sig .tc .vmem S256x256 .bf16).view.loc (c : Thread nD τ) ↦{fullShare} f : sProp 𝕄)) :=
  ⟨rfl, rfl, rfl, rfl, rfl, rfl, rfl⟩
omit [FloatOps F] in
/-- A whole buffer's points-to, through the whole memref's view. -/
theorem pts_view (c : Dev nD) (b : Ref sig .tc) (f : Buf (Elt F) ((c : Thread nD τ).loc b)) :
    ((((c : Thread nD τ).loc b) ↦{fullShare} f : sProp 𝕄)) = ((Memref.whole b).view.loc (c : Thread nD τ) ↦{fullShare} f) := rfl

omit [FloatOps F] in
theorem hz2 : (![0, 0] : Fin 2 → ℕ) = fun _ => 0 := funext fun a => by fin_cases a <;> rfl
omit [FloatOps F] in
/-- A whole buffer's points-to over the whole memref's own element set. -/
theorem pts_set (c : Dev nD) (b : Ref sig .tc) (f : Buf (Elt F) ((Memref.whole b).view.loc (c : Thread nD τ))) :
    (((Memref.whole b).view.loc (c : Thread nD τ) ↦{fullShare} f : sProp 𝕄)) = ((Memref.whole b).view.loc (c : Thread nD τ) ↦[(Memref.whole b).view.set]{fullShare} f) :=
  congrArg (fun S => ((Memref.whole b).view.loc (c : Thread nD τ) ↦[S]{fullShare} f : sProp 𝕄)) (View.set_whole b).symm

section Body
variable (K : Dev nD × Fin 15 → ℕ)

def bodyPre (c : Dev nD) : sProp 𝕄 :=
  iprop((ghost m ρ K c ∗ cred (tallyAt (barCell c) () 7) ∗ (bigSep Finset.univ fun σ : Fin 7 => cred (tallyAt (recvCell c σ) () N)) ∗ levAts L lv
      ∗ (bigSep Finset.univ fun σ : Fin 7 => iprop(∃ f, sPts (F := F) c σ f))
      ∗ (bigSep Finset.univ fun j : Fin 7 => iprop(∃ f, rPts (F := F) c (slot j c) f)))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

/-- Signal number `j` of the entry handshake: it pays duty `slot j c` of the target's barrier cell, handing over the
    landing buffer that target will fill and that the buffer's receive cell is at round 0. -/
theorem wp_sig (c n : Dev nD) (j : Fin 7) (hn : n = bsig j c) (k' : ℕ) (hk' : 1 = k') (O : CellTallies nD τ sig Unit) (W : Waits sig Unit)
    {α : Type} {Q : α → sProp 𝕄} {k : PUnit → Prog (TpuEff nD τ sig (Elt F) Λ₀ .tc) α} :
    iprop(cellInv ER (sched m ρ) (K (bsig j c, 0)) (barCell (bsig j c))
        ∗ owes (c : Thread nD τ) (O + tB c j) W
        ∗ dutyTok ER (barCell (bsig j c)) 0 (slot j c)
        ∗ (∃ f, rPts (F := F) c (slot j c) f) ∗ reached ER (recvCell c (slot j c)) 0
        ∗ reached ER (barCell (bsig j c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn
  subst hk'
  iintro ⟨#HI, HO, Htok, Hbuf, #Hr, #HrB⟩
  iapply (Rounds.wp_signal 𝒱₀ ER (sched m ρ) (c : Thread nD τ) none (dst := (bsig j c : Thread nD τ)) (κ := K (bsig j c, 0))
      (d := slot j c) (by rw [duties_bar]; exact Finset.mem_univ _) (amount_bar m ρ (bsig j c) (slot j c)) () O rfl) $$ [HO Htok Hbuf]
  isplitr; · iexact HI
  isplitl [HO]; · iexact HO
  isplitl [Htok]; · iexact Htok
  isplitl [Hbuf]
  · rw [payload_bar]; unfold barPay; rw [tgt_slot_bsig]
    isplitl [Hbuf]; · iexact Hbuf
    iexact Hr
  · iexact HrB

omit [FloatOps F] in
theorem Orecv_pos {c : Dev nD} {g : GSem nD τ sig} {u : Unit} (h : 0 < Orecv c g u) : ∃ σ : Fin 7, g = recvCell (tgt σ c) σ := by
  by_contra hn
  rw [not_exists] at hn
  have hz : ∀ σ : Fin 7, (tallyAt (recvCell (tgt σ c) σ) () N : CellTallies nD τ sig Unit) g u = 0 := fun σ => by
    rw [tallyAt_apply, if_neg (fun h' => hn σ h'.1)]
  unfold Orecv at h
  simp only [Pi.add_apply, Finsupp.add_apply, hz, Pi.zero_apply, Finsupp.zero_apply, Nat.add_zero] at h
  exact Nat.lt_irrefl 0 h

omit [FloatOps F] in
theorem lv_recv (c : Dev nD) (σ : Fin 7) : lv (recvCell c σ) () = 2 := by
  dsimp only [lv]; rw [if_neg (recv_ne_bar σ), if_pos (by show decide (10 ≤ 10 + σ.val) = true; exact decide_eq_true (by omega))]

omit [FloatOps F] in
/-- At its barrier wait a device owes the transfers' credit only: receive cells, above its barrier cell. -/
theorem mayWait_bar (c : Dev nD) : (levAts L lv : sProp 𝕄) ⊢ MayWait (c : Thread nD τ) (.reg barS) () (Orecv c) :=
  MayOwe.of_cut (L := L) (lev := lv) 1 (fun p hp => by rw [Finset.mem_singleton.mp hp, L_tc]; exact Finset.mem_singleton_self _)
    (fun g u hg => by obtain ⟨σ, rfl⟩ := Orecv_pos hg; rw [L_tc]; exact Finset.mem_singleton_self _)
    (fun p hp => by rw [Finset.mem_singleton.mp hp]; dsimp only [lv]; rw [if_pos rfl])
    (fun g u hg => by obtain ⟨σ, rfl⟩ := Orecv_pos hg; rw [lv_recv]; decide)

/-- Slot `σ`'s transfer, addressed to `n = tgt σ c`: it pays the one duty of the issuer's send cell (the send buffer
    back at its contents) and the one duty of the peer's receive cell (the landing buffer rewritten), the fact `P` about
    what was sent travelling with the landing. -/
theorem wp_snd (c n : Dev nD) (σ : Fin 7) (hn : n = tgt σ c)
    (src dst : Memref sig .tc .vmem S256x256 .bf16)
    {hsc : dst.view.ref.isScScratch = false} {hsrc : src.view.WordExact} {hdst : dst.view.WordExact}
    {hsem : DmaTarget.Typed .vmem (.dma (recvSem σ)) (.remote (Dev.tc n : Thread nD τ) dst (.dma (sendSem σ)) hsc)}
    (fs : Buf (Elt F) (src.view.loc (c : Thread nD τ))) (fd : Buf (Elt F) (dst.view.loc (Dev.tc (tgt σ c) : Thread nD τ))) (P : Prop)
    (hN : dst.view.amount (.dma (recvSem σ)) = N)
    (h₁ : (src.view.loc (c : Thread nD τ) ↦[src.view.set]{fullShare} fs : sProp 𝕄) ⊢ (sched (F := F) m ρ).payload (sendCell c σ) 0 0)
    (h₂ : iprop((dst.view.loc (Dev.tc (tgt σ c) : Thread nD τ) ↦[dst.view.set]{fullShare} (dst.view.write (Elt F) fd (src.view.read (Elt F) fs) Finset.univ)) ∗ ⌜P⌝)
            ⊢ (sched (F := F) m ρ).payload (recvCell (tgt σ c) σ) 0 0)
    (O : CellTallies nD τ sig Unit) (W : Waits sig Unit)
    {α : Type} {Q : α → sProp 𝕄} {k : PUnit → Prog (TpuEff nD τ sig (Elt F) Λ₀ .tc) α} :
    iprop(cellInv ER (sched m ρ) (K (c, sIdx σ)) (sendCell c σ) ∗ cellInv ER (sched m ρ) (K (tgt σ c, rIdx σ)) (recvCell (tgt σ c) σ)
        ∗ (src.view.loc (c : Thread nD τ) ↦[src.view.set]{fullShare} fs)
        ∗ ((dst.view.loc (Dev.tc (tgt σ c) : Thread nD τ) ↦[dst.view.set]{fullShare} fd) ∗ ⌜P⌝)
        ∗ owes (c : Thread nD τ) (O + tR c σ) W
        ∗ dutyTok ER (sendCell c σ) 0 0 ∗ reached ER (sendCell c σ) 0
        ∗ dutyTok ER (recvCell (tgt σ c) σ) 0 0 ∗ reached ER (recvCell (tgt σ c) σ) 0)
      ⊢ iprop(((cred (tallyAt (sendCell c σ) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sendSem σ)) hsc) (.dma (recvSem σ)) hsrc hdst hsem) k) Q) := by
  subst hn
  exact Rounds.wp_send_pointsTo_with 𝒱₀ ER (sched m ρ) (c : Thread nD τ) none (κ₁ := K (c, sIdx σ)) (κ₂ := K (tgt σ c, rIdx σ))
    (r₁ := 0) (r₂ := 0) (d₁ := (0 : Fin 7)) (d₂ := (0 : Fin 7)) (fd := fd)
    (by rw [duties_send]; exact Finset.mem_singleton_self _) (by rw [duties_recv]; exact Finset.mem_singleton_self _)
    () () N hN (amount_send m ρ c σ 0) (amount_recv m ρ (tgt σ c) σ 0) O rfl (W := W) h₁ h₂
theorem payload_recvL0 (c : Dev nD) (d : Fin 7) : (sched (F := F) m ρ).payload (recvCell c 0) 0 d
    = ((Memref.whole cc0_scratch7 : Memref sig .tc .vmem S256x256 .bf16).view.loc (c : Thread nD τ) ↦{fullShare} landed m ρ c 0 : sProp 𝕄) :=
  (payload_recv m ρ c 0 d).trans (rPts_lit c (landed m ρ c 0)).1
theorem payload_recvL1 (c : Dev nD) (d : Fin 7) : (sched (F := F) m ρ).payload (recvCell c 1) 0 d
    = ((Memref.whole cc0_scratch8 : Memref sig .tc .vmem S256x256 .bf16).view.loc (c : Thread nD τ) ↦{fullShare} landed m ρ c 1 : sProp 𝕄) :=
  (payload_recv m ρ c 1 d).trans (rPts_lit c (landed m ρ c 1)).2.1
theorem payload_recvL2 (c : Dev nD) (d : Fin 7) : (sched (F := F) m ρ).payload (recvCell c 2) 0 d
    = ((Memref.whole cc0_scratch9 : Memref sig .tc .vmem S256x256 .bf16).view.loc (c : Thread nD τ) ↦{fullShare} landed m ρ c 2 : sProp 𝕄) :=
  (payload_recv m ρ c 2 d).trans (rPts_lit c (landed m ρ c 2)).2.2.1
theorem payload_recvL3 (c : Dev nD) (d : Fin 7) : (sched (F := F) m ρ).payload (recvCell c 3) 0 d
    = ((Memref.whole cc0_scratch10 : Memref sig .tc .vmem S256x256 .bf16).view.loc (c : Thread nD τ) ↦{fullShare} landed m ρ c 3 : sProp 𝕄) :=
  (payload_recv m ρ c 3 d).trans (rPts_lit c (landed m ρ c 3)).2.2.2.1
theorem payload_recvL4 (c : Dev nD) (d : Fin 7) : (sched (F := F) m ρ).payload (recvCell c 4) 0 d
    = ((Memref.whole cc0_scratch11 : Memref sig .tc .vmem S256x256 .bf16).view.loc (c : Thread nD τ) ↦{fullShare} landed m ρ c 4 : sProp 𝕄) :=
  (payload_recv m ρ c 4 d).trans (rPts_lit c (landed m ρ c 4)).2.2.2.2.1
theorem payload_recvL5 (c : Dev nD) (d : Fin 7) : (sched (F := F) m ρ).payload (recvCell c 5) 0 d
    = ((Memref.whole cc0_scratch12 : Memref sig .tc .vmem S256x256 .bf16).view.loc (c : Thread nD τ) ↦{fullShare} landed m ρ c 5 : sProp 𝕄) :=
  (payload_recv m ρ c 5 d).trans (rPts_lit c (landed m ρ c 5)).2.2.2.2.2.1
theorem payload_recvL6 (c : Dev nD) (d : Fin 7) : (sched (F := F) m ρ).payload (recvCell c 6) 0 d
    = ((Memref.whole cc0_scratch13 : Memref sig .tc .vmem S256x256 .bf16).view.loc (c : Thread nD τ) ↦{fullShare} landed m ρ c 6 : sProp 𝕄) :=
  (payload_recv m ρ c 6 d).trans (rPts_lit c (landed m ρ c 6)).2.2.2.2.2.2
attribute [local sl_rounds] duties_bar duties_send duties_recv amount_bar amount_send amount_recv expect_bar expect_send expect_recv
  payload_bar payload_send payload_recvL0 payload_recvL1 payload_recvL2 payload_recvL3 payload_recvL4 payload_recvL5 payload_recvL6 tgt_slot_bsig
attribute [local sl_canon] dev_sig0 dev_sig1 dev_sig2 dev_sig3 dev_sig4 dev_sig5 dev_sig6 dev_tgt0 dev_tgt1 dev_tgt2 dev_tgt3 dev_tgt4 dev_tgt5 dev_tgt6

omit [FloatOps F] in
/-- The kernel's own fourteen semaphores, listed. -/
theorem own_sems (c : Dev nD) : (bigSep Finset.univ fun k : Fin 14 => semVal ((c : Thread nD τ), osem k) 0 : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) := by
  rw [bigSep_univ_eq_bigSepL [0, 1, 2, 3, 4, 5, 6, 7, 8, 9, 10, 11, 12, 13] (by decide) (by decide)]; rfl

/-- The body's postcondition with its three families listed slot by slot. -/
def bodyPostX (c : Dev nD) : sProp 𝕄 :=
  iprop((((∃ f, sPts (F := F) c 0 f) ∗ (∃ f, sPts (F := F) c 1 f) ∗ (∃ f, sPts (F := F) c 2 f) ∗ (∃ f, sPts (F := F) c 3 f) ∗ (∃ f, sPts (F := F) c 4 f) ∗ (∃ f, sPts (F := F) c 5 f) ∗ (∃ f, sPts (F := F) c 6 f))
      ∗ ((∃ f, rPts (F := F) c 0 f) ∗ (∃ f, rPts (F := F) c 1 f) ∗ (∃ f, rPts (F := F) c 2 f) ∗ (∃ f, rPts (F := F) c 3 f) ∗ (∃ f, rPts (F := F) c 4 f) ∗ (∃ f, rPts (F := F) c 5 f) ∗ (∃ f, rPts (F := F) c 6 f))
      ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0))
    ∗ (dats m ρ 0 c).owesAt () t₀.succ ∗ stg c cc0_stg0_0 (xstg m ρ c) ∗ stg c cc0_stg1_0 (wstg m ρ c) ∗ stg c cc0_stg2_0 (outAt m ρ c))

theorem bodyPostX_eq (c : Dev nD) : bodyPostX m ρ c = bodyPost m ρ c := by
  unfold bodyPostX bodyPost Φ₁
  rw [bigSep_fin7, bigSep_fin7, own_sems]

set_option maxHeartbeats 4000000 in
/-- The body from `bodyPre` to `bodyPostX`: the local stretches in program order, the handshake signals and the
    transfers by the rules of their cells. -/
theorem sound_body (c : Dev nD) (Kt : PUnit → sProp 𝕄) :
    iprop(bodyPre m ρ K c ∗ (bodyPostX m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15) Kt := by
  unfold bodyPre ghost
  simp only [bigSep_fin7]
  iintro ⟨⟨⟨⟨#HIbar, ⟨#HIs0, #HIs1, #HIs2, #HIs3, #HIs4, #HIs5, #HIs6⟩, ⟨#HIr0, #HIr1, #HIr2, #HIr3, #HIr4, #HIr5, #HIr6⟩, ⟨#HIb0, #HIb1, #HIb2, #HIb3, #HIb4, #HIb5, #HIb6⟩, ⟨#HIp0, #HIp1, #HIp2, #HIp3, #HIp4, #HIp5, #HIp6⟩, HatB, ⟨HatS0, HatS1, HatS2, HatS3, HatS4, HatS5, HatS6⟩, ⟨HatR0, HatR1, HatR2, HatR3, HatR4, HatR5, HatR6⟩, ⟨#HrB0, #HrB1, #HrB2, #HrB3, #HrB4, #HrB5, #HrB6⟩, ⟨#HrP0, #HrP1, #HrP2, #HrP3, #HrP4, #HrP5, #HrP6⟩, ⟨#HrS0, #HrS1, #HrS2, #HrS3, #HrS4, #HrS5, #HrS6⟩, ⟨#HrO0, #HrO1, #HrO2, #HrO3, #HrO4, #HrO5, #HrO6⟩, ⟨HtB0, HtB1, HtB2, HtB3, HtB4, HtB5, HtB6⟩, ⟨HtP0, HtP1, HtP2, HtP3, HtP4, HtP5, HtP6⟩, HtS0, HtS1, HtS2, HtS3, HtS4, HtS5, HtS6⟩, HcB, ⟨HcR0, HcR1, HcR2, HcR3, HcR4, HcR5, HcR6⟩, #Hlev, ⟨⟨%fs0, Hsb0⟩, ⟨%fs1, Hsb1⟩, ⟨%fs2, Hsb2⟩, ⟨%fs3, Hsb3⟩, ⟨%fs4, Hsb4⟩, ⟨%fs5, Hsb5⟩, ⟨%fs6, Hsb6⟩⟩, Hrb0, Hrb1, Hrb2, Hrb3, Hrb4, Hrb5, Hrb6⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, %hW, HO⟩
  rw [show (dats m ρ 0 c).owed t₀.castSucc = O₀ c from rfl]
  unfold O₀ Orecv
  sl_exec
  -- the seven handshake signals
  iapply (wp_sig m ρ K c _ 0 rfl _ (by decide) _ W) $$ [HO HtB0 Hrb0]
  · isplitr; · iexact HIb0
    isplitl [HO]; · iexact HO
    isplitl [HtB0]; · iexact HtB0
    isplitl [Hrb0]; · iexact Hrb0
    isplitr; · iexact HrO0
    iexact HrB0
  iintro HO
  sl_exec
  iapply (wp_sig m ρ K c _ 1 rfl _ (by decide) _ W) $$ [HO HtB1 Hrb1]
  · isplitr; · iexact HIb1
    isplitl [HO]; · iexact HO
    isplitl [HtB1]; · iexact HtB1
    isplitl [Hrb1]; · iexact Hrb1
    isplitr; · iexact HrO1
    iexact HrB1
  iintro HO
  sl_exec
  iapply (wp_sig m ρ K c _ 2 rfl _ (by decide) _ W) $$ [HO HtB2 Hrb2]
  · isplitr; · iexact HIb2
    isplitl [HO]; · iexact HO
    isplitl [HtB2]; · iexact HtB2
    isplitl [Hrb2]; · iexact Hrb2
    isplitr; · iexact HrO2
    iexact HrB2
  iintro HO
  sl_exec
  iapply (wp_sig m ρ K c _ 3 rfl _ (by decide) _ W) $$ [HO HtB3 Hrb3]
  · isplitr; · iexact HIb3
    isplitl [HO]; · iexact HO
    isplitl [HtB3]; · iexact HtB3
    isplitl [Hrb3]; · iexact Hrb3
    isplitr; · iexact HrO3
    iexact HrB3
  iintro HO
  sl_exec
  iapply (wp_sig m ρ K c _ 4 rfl _ (by decide) _ W) $$ [HO HtB4 Hrb4]
  · isplitr; · iexact HIb4
    isplitl [HO]; · iexact HO
    isplitl [HtB4]; · iexact HtB4
    isplitl [Hrb4]; · iexact Hrb4
    isplitr; · iexact HrO4
    iexact HrB4
  iintro HO
  sl_exec
  iapply (wp_sig m ρ K c _ 5 rfl _ (by decide) _ W) $$ [HO HtB5 Hrb5]
  · isplitr; · iexact HIb5
    isplitl [HO]; · iexact HO
    isplitl [HtB5]; · iexact HtB5
    isplitl [Hrb5]; · iexact Hrb5
    isplitr; · iexact HrO5
    iexact HrB5
  iintro HO
  sl_exec
  iapply (wp_sig m ρ K c _ 6 rfl _ (by decide) _ W) $$ [HO HtB6 Hrb6]
  · isplitr; · iexact HIb6
    isplitl [HO]; · iexact HO
    isplitl [HtB6]; · iexact HtB6
    isplitl [Hrb6]; · iexact Hrb6
    isplitr; · iexact HrO6
    iexact HrB6
  iintro HO
  sl_exec
  -- the wait for the whole round of the barrier cell: the seven peers' landing buffers come with it
  iapply (Rounds.wp_wait_rest_token 𝒱₀ ER (sched m ρ) (c : Thread nD τ) none (κ := K (c, 0))
      (wpE_semWait_eq 𝒱₀ (c : Thread nD τ) none Set.univ) (Set.mem_univ _) () (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  simp only [bigSep_fin7]
  unfold barPay
  icases Hp with ⟨⟨⟨%fr0, Hr0⟩, #HrQ0⟩, ⟨⟨%fr1, Hr1⟩, #HrQ1⟩, ⟨⟨%fr2, Hr2⟩, #HrQ2⟩, ⟨⟨%fr3, Hr3⟩, #HrQ3⟩, ⟨⟨%fr4, Hr4⟩, #HrQ4⟩, ⟨⟨%fr5, Hr5⟩, #HrQ5⟩, ⟨⟨%fr6, Hr6⟩, #HrQ6⟩⟩
  ihave Hx := (Entails.of_eq (pts_view c cc0_stg0_0 _)) $$ Hx
  ihave Hw := (Entails.of_eq (pts_view c cc0_stg1_0 _)) $$ Hw
  ihave Hout := (Entails.of_eq (pts_view c cc0_stg2_0 _)) $$ Hout
  ihave Hs0 := (Entails.of_eq (sPts_lit c fs0).1) $$ Hsb0
  ihave Hs1 := (Entails.of_eq (sPts_lit c fs1).2.1) $$ Hsb1
  ihave Hs2 := (Entails.of_eq (sPts_lit c fs2).2.2.1) $$ Hsb2
  ihave Hs3 := (Entails.of_eq (sPts_lit c fs3).2.2.2.1) $$ Hsb3
  ihave Hs4 := (Entails.of_eq (sPts_lit c fs4).2.2.2.2.1) $$ Hsb4
  ihave Hs5 := (Entails.of_eq (sPts_lit c fs5).2.2.2.2.2.1) $$ Hsb5
  ihave Hs6 := (Entails.of_eq (sPts_lit c fs6).2.2.2.2.2.2) $$ Hsb6
  ihave Hq0 := (Entails.of_eq (rPts_lit (tgt 0 c) fr0).1) $$ Hr0
  ihave Hq1 := (Entails.of_eq (rPts_lit (tgt 1 c) fr1).2.1) $$ Hr1
  ihave Hq2 := (Entails.of_eq (rPts_lit (tgt 2 c) fr2).2.2.1) $$ Hr2
  ihave Hq3 := (Entails.of_eq (rPts_lit (tgt 3 c) fr3).2.2.2.1) $$ Hr3
  ihave Hq4 := (Entails.of_eq (rPts_lit (tgt 4 c) fr4).2.2.2.2.1) $$ Hr4
  ihave Hq5 := (Entails.of_eq (rPts_lit (tgt 5 c) fr5).2.2.2.2.2.1) $$ Hr5
  ihave Hq6 := (Entails.of_eq (rPts_lit (tgt 6 c) fr6).2.2.2.2.2.2) $$ Hr6
  sl_exec
  -- slot 0's block goes to its peer: the send cell's duty and the peer's receive cell's duty
  ihave Hs0 := (Entails.of_eq (pts_set c cc0_scratch0 _)) $$ Hs0
  ihave Hq0 := (Entails.of_eq (pts_set (tgt 0 c) cc0_scratch7 _)) $$ Hq0
  iapply (wp_snd m ρ K c _ 0 (dev_tgt0 c) (Memref.whole cc0_scratch0) (Memref.whole cc0_scratch7) _ fr0 _ rfl
      (pay_send0 m ρ c _) (pay_recv0 m ρ c _ fr0) (0 + tR c 6 + tR c 5 + tR c 4 + tR c 3 + tR c 2 + tR c 1) _) $$ [Hs0 Hq0 HO HtS0 HtP0]
  · isplitr; · iexact HIs0
    isplitr; · iexact HIp0
    isplitl [Hs0]; · iexact Hs0
    isplitl [Hq0]
    · isplitl [Hq0]; · iexact Hq0
      ipureintro; exact (writes_whole1 cc0_scratch0 _ hz2 _ _).trans rfl
    isplitl [HO]; · iexact HO
    isplitl [HtS0]; · iexact HtS0
    isplitr; · iexact HrS0
    isplitl [HtP0]; · iexact HtP0
    iexact HrP0
  iintro ⟨HcS0, HO⟩
  sl_exec
  -- slot 1's block goes to its peer: the send cell's duty and the peer's receive cell's duty
  ihave Hs1 := (Entails.of_eq (pts_set c cc0_scratch1 _)) $$ Hs1
  ihave Hq1 := (Entails.of_eq (pts_set (tgt 1 c) cc0_scratch8 _)) $$ Hq1
  iapply (wp_snd m ρ K c _ 1 (dev_tgt1 c) (Memref.whole cc0_scratch1) (Memref.whole cc0_scratch8) _ fr1 _ rfl
      (pay_send1 m ρ c _) (pay_recv1 m ρ c _ fr1) (0 + tR c 6 + tR c 5 + tR c 4 + tR c 3 + tR c 2) _) $$ [Hs1 Hq1 HO HtS1 HtP1]
  · isplitr; · iexact HIs1
    isplitr; · iexact HIp1
    isplitl [Hs1]; · iexact Hs1
    isplitl [Hq1]
    · isplitl [Hq1]; · iexact Hq1
      ipureintro; exact (writes_whole1 cc0_scratch1 _ hz2 _ _).trans rfl
    isplitl [HO]; · iexact HO
    isplitl [HtS1]; · iexact HtS1
    isplitr; · iexact HrS1
    isplitl [HtP1]; · iexact HtP1
    iexact HrP1
  iintro ⟨HcS1, HO⟩
  sl_exec
  -- slot 2's block goes to its peer: the send cell's duty and the peer's receive cell's duty
  ihave Hs2 := (Entails.of_eq (pts_set c cc0_scratch2 _)) $$ Hs2
  ihave Hq2 := (Entails.of_eq (pts_set (tgt 2 c) cc0_scratch9 _)) $$ Hq2
  iapply (wp_snd m ρ K c _ 2 (dev_tgt2 c) (Memref.whole cc0_scratch2) (Memref.whole cc0_scratch9) _ fr2 _ rfl
      (pay_send2 m ρ c _) (pay_recv2 m ρ c _ fr2) (0 + tR c 6 + tR c 5 + tR c 4 + tR c 3) _) $$ [Hs2 Hq2 HO HtS2 HtP2]
  · isplitr; · iexact HIs2
    isplitr; · iexact HIp2
    isplitl [Hs2]; · iexact Hs2
    isplitl [Hq2]
    · isplitl [Hq2]; · iexact Hq2
      ipureintro; exact (writes_whole1 cc0_scratch2 _ hz2 _ _).trans rfl
    isplitl [HO]; · iexact HO
    isplitl [HtS2]; · iexact HtS2
    isplitr; · iexact HrS2
    isplitl [HtP2]; · iexact HtP2
    iexact HrP2
  iintro ⟨HcS2, HO⟩
  sl_exec
  -- slot 3's block goes to its peer: the send cell's duty and the peer's receive cell's duty
  ihave Hs3 := (Entails.of_eq (pts_set c cc0_scratch3 _)) $$ Hs3
  ihave Hq3 := (Entails.of_eq (pts_set (tgt 3 c) cc0_scratch10 _)) $$ Hq3
  iapply (wp_snd m ρ K c _ 3 (dev_tgt3 c) (Memref.whole cc0_scratch3) (Memref.whole cc0_scratch10) _ fr3 _ rfl
      (pay_send3 m ρ c _) (pay_recv3 m ρ c _ fr3) (0 + tR c 6 + tR c 5 + tR c 4) _) $$ [Hs3 Hq3 HO HtS3 HtP3]
  · isplitr; · iexact HIs3
    isplitr; · iexact HIp3
    isplitl [Hs3]; · iexact Hs3
    isplitl [Hq3]
    · isplitl [Hq3]; · iexact Hq3
      ipureintro; exact (writes_whole1 cc0_scratch3 _ hz2 _ _).trans rfl
    isplitl [HO]; · iexact HO
    isplitl [HtS3]; · iexact HtS3
    isplitr; · iexact HrS3
    isplitl [HtP3]; · iexact HtP3
    iexact HrP3
  iintro ⟨HcS3, HO⟩
  sl_exec
  -- slot 4's block goes to its peer: the send cell's duty and the peer's receive cell's duty
  ihave Hs4 := (Entails.of_eq (pts_set c cc0_scratch4 _)) $$ Hs4
  ihave Hq4 := (Entails.of_eq (pts_set (tgt 4 c) cc0_scratch11 _)) $$ Hq4
  iapply (wp_snd m ρ K c _ 4 (dev_tgt4 c) (Memref.whole cc0_scratch4) (Memref.whole cc0_scratch11) _ fr4 _ rfl
      (pay_send4 m ρ c _) (pay_recv4 m ρ c _ fr4) (0 + tR c 6 + tR c 5) _) $$ [Hs4 Hq4 HO HtS4 HtP4]
  · isplitr; · iexact HIs4
    isplitr; · iexact HIp4
    isplitl [Hs4]; · iexact Hs4
    isplitl [Hq4]
    · isplitl [Hq4]; · iexact Hq4
      ipureintro; exact (writes_whole1 cc0_scratch4 _ hz2 _ _).trans rfl
    isplitl [HO]; · iexact HO
    isplitl [HtS4]; · iexact HtS4
    isplitr; · iexact HrS4
    isplitl [HtP4]; · iexact HtP4
    iexact HrP4
  iintro ⟨HcS4, HO⟩
  sl_exec
  -- slot 5's block goes to its peer: the send cell's duty and the peer's receive cell's duty
  ihave Hs5 := (Entails.of_eq (pts_set c cc0_scratch5 _)) $$ Hs5
  ihave Hq5 := (Entails.of_eq (pts_set (tgt 5 c) cc0_scratch12 _)) $$ Hq5
  iapply (wp_snd m ρ K c _ 5 (dev_tgt5 c) (Memref.whole cc0_scratch5) (Memref.whole cc0_scratch12) _ fr5 _ rfl
      (pay_send5 m ρ c _) (pay_recv5 m ρ c _ fr5) (0 + tR c 6) _) $$ [Hs5 Hq5 HO HtS5 HtP5]
  · isplitr; · iexact HIs5
    isplitr; · iexact HIp5
    isplitl [Hs5]; · iexact Hs5
    isplitl [Hq5]
    · isplitl [Hq5]; · iexact Hq5
      ipureintro; exact (writes_whole1 cc0_scratch5 _ hz2 _ _).trans rfl
    isplitl [HO]; · iexact HO
    isplitl [HtS5]; · iexact HtS5
    isplitr; · iexact HrS5
    isplitl [HtP5]; · iexact HtP5
    iexact HrP5
  iintro ⟨HcS5, HO⟩
  sl_exec
  -- slot 6's block goes to its peer: the send cell's duty and the peer's receive cell's duty
  ihave Hs6 := (Entails.of_eq (pts_set c cc0_scratch6 _)) $$ Hs6
  ihave Hq6 := (Entails.of_eq (pts_set (tgt 6 c) cc0_scratch13 _)) $$ Hq6
  iapply (wp_snd m ρ K c _ 6 (dev_tgt6 c) (Memref.whole cc0_scratch6) (Memref.whole cc0_scratch13) _ fr6 _ rfl
      (pay_send6 m ρ c _) (pay_recv6 m ρ c _ fr6) (0) _) $$ [Hs6 Hq6 HO HtS6 HtP6]
  · isplitr; · iexact HIs6
    isplitr; · iexact HIp6
    isplitl [Hs6]; · iexact Hs6
    isplitl [Hq6]
    · isplitl [Hq6]; · iexact Hq6
      ipureintro; exact (writes_whole1 cc0_scratch6 _ hz2 _ _).trans rfl
    isplitl [HO]; · iexact HO
    isplitl [HtS6]; · iexact HtS6
    isplitr; · iexact HrS6
    isplitl [HtP6]; · iexact HtP6
    iexact HrP6
  iintro ⟨HcS6, HO⟩
  sl_exec
  -- every transfer waited for: the fourteen own cells close, their counters at zero
  imod (Rounds.cell_close ER (sched m ρ) (Set.mem_univ (K (c, sIdx 0))) (fun h => h) (R := 1) (duties_later m ρ (sendCell c 0))) $$ [HatS0] with HzS0
  · isplitr; · iexact HIs0
    iexact HatS0
  imod (Rounds.cell_close ER (sched m ρ) (Set.mem_univ (K (c, sIdx 1))) (fun h => h) (R := 1) (duties_later m ρ (sendCell c 1))) $$ [HatS1] with HzS1
  · isplitr; · iexact HIs1
    iexact HatS1
  imod (Rounds.cell_close ER (sched m ρ) (Set.mem_univ (K (c, sIdx 2))) (fun h => h) (R := 1) (duties_later m ρ (sendCell c 2))) $$ [HatS2] with HzS2
  · isplitr; · iexact HIs2
    iexact HatS2
  imod (Rounds.cell_close ER (sched m ρ) (Set.mem_univ (K (c, sIdx 3))) (fun h => h) (R := 1) (duties_later m ρ (sendCell c 3))) $$ [HatS3] with HzS3
  · isplitr; · iexact HIs3
    iexact HatS3
  imod (Rounds.cell_close ER (sched m ρ) (Set.mem_univ (K (c, sIdx 4))) (fun h => h) (R := 1) (duties_later m ρ (sendCell c 4))) $$ [HatS4] with HzS4
  · isplitr; · iexact HIs4
    iexact HatS4
  imod (Rounds.cell_close ER (sched m ρ) (Set.mem_univ (K (c, sIdx 5))) (fun h => h) (R := 1) (duties_later m ρ (sendCell c 5))) $$ [HatS5] with HzS5
  · isplitr; · iexact HIs5
    iexact HatS5
  imod (Rounds.cell_close ER (sched m ρ) (Set.mem_univ (K (c, sIdx 6))) (fun h => h) (R := 1) (duties_later m ρ (sendCell c 6))) $$ [HatS6] with HzS6
  · isplitr; · iexact HIs6
    iexact HatS6
  imod (Rounds.cell_close ER (sched m ρ) (Set.mem_univ (K (c, rIdx 0))) (fun h => h) (R := 1) (duties_later m ρ (recvCell c 0))) $$ [HatR0] with HzR0
  · isplitr; · iexact HIr0
    iexact HatR0
  imod (Rounds.cell_close ER (sched m ρ) (Set.mem_univ (K (c, rIdx 1))) (fun h => h) (R := 1) (duties_later m ρ (recvCell c 1))) $$ [HatR1] with HzR1
  · isplitr; · iexact HIr1
    iexact HatR1
  imod (Rounds.cell_close ER (sched m ρ) (Set.mem_univ (K (c, rIdx 2))) (fun h => h) (R := 1) (duties_later m ρ (recvCell c 2))) $$ [HatR2] with HzR2
  · isplitr; · iexact HIr2
    iexact HatR2
  imod (Rounds.cell_close ER (sched m ρ) (Set.mem_univ (K (c, rIdx 3))) (fun h => h) (R := 1) (duties_later m ρ (recvCell c 3))) $$ [HatR3] with HzR3
  · isplitr; · iexact HIr3
    iexact HatR3
  imod (Rounds.cell_close ER (sched m ρ) (Set.mem_univ (K (c, rIdx 4))) (fun h => h) (R := 1) (duties_later m ρ (recvCell c 4))) $$ [HatR4] with HzR4
  · isplitr; · iexact HIr4
    iexact HatR4
  imod (Rounds.cell_close ER (sched m ρ) (Set.mem_univ (K (c, rIdx 5))) (fun h => h) (R := 1) (duties_later m ρ (recvCell c 5))) $$ [HatR5] with HzR5
  · isplitr; · iexact HIr5
    iexact HatR5
  imod (Rounds.cell_close ER (sched m ρ) (Set.mem_univ (K (c, rIdx 6))) (fun h => h) (R := 1) (duties_later m ρ (recvCell c 6))) $$ [HatR6] with HzR6
  · isplitr; · iexact HIr6
    iexact HatR6
  unfold sendPay
  ihave Hl0 := (Entails.of_eq (rPts_lit c (landed m ρ c 0)).1.symm) $$ HatR0_pay1
  ihave Hl1 := (Entails.of_eq (rPts_lit c (landed m ρ c 1)).2.1.symm) $$ HatR1_pay1
  ihave Hl2 := (Entails.of_eq (rPts_lit c (landed m ρ c 2)).2.2.1.symm) $$ HatR2_pay1
  ihave Hl3 := (Entails.of_eq (rPts_lit c (landed m ρ c 3)).2.2.2.1.symm) $$ HatR3_pay1
  ihave Hl4 := (Entails.of_eq (rPts_lit c (landed m ρ c 4)).2.2.2.2.1.symm) $$ HatR4_pay1
  ihave Hl5 := (Entails.of_eq (rPts_lit c (landed m ρ c 5)).2.2.2.2.2.1.symm) $$ HatR5_pay1
  ihave Hl6 := (Entails.of_eq (rPts_lit c (landed m ρ c 6)).2.2.2.2.2.2.symm) $$ HatR6_pay1
  sl_step
  iapply Hk
  unfold bodyPostX Dat.owesAt Pipeline.owesWithin
  rw [show (dats m ρ 0 c).owed t₀.succ = 0 from rfl]
  isplitr [HO Hx Hw Hout]
  · isplitl [HatS0_pay1 HatS1_pay1 HatS2_pay1 HatS3_pay1 HatS4_pay1 HatS5_pay1 HatS6_pay1]
    · isplitl [HatS0_pay1]; · iexact HatS0_pay1
      isplitl [HatS1_pay1]; · iexact HatS1_pay1
      isplitl [HatS2_pay1]; · iexact HatS2_pay1
      isplitl [HatS3_pay1]; · iexact HatS3_pay1
      isplitl [HatS4_pay1]; · iexact HatS4_pay1
      isplitl [HatS5_pay1]; · iexact HatS5_pay1
      iexact HatS6_pay1
    isplitl [Hl0 Hl1 Hl2 Hl3 Hl4 Hl5 Hl6]
    · isplitl [Hl0]; · (iexists _; iexact Hl0)
      isplitl [Hl1]; · (iexists _; iexact Hl1)
      isplitl [Hl2]; · (iexists _; iexact Hl2)
      isplitl [Hl3]; · (iexists _; iexact Hl3)
      isplitl [Hl4]; · (iexists _; iexact Hl4)
      isplitl [Hl5]; · (iexists _; iexact Hl5)
      iexists _; iexact Hl6
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists _
    isplitr
    on_goal 2 => iexact HO
    ipureintro; exact fun _ _ => Or.inl trivial
  isplitl [Hx]
  · iexists _; isplitr; · (ipureintro; rfl)
    iexact Hx
  isplitl [Hw]
  · iexists _; isplitr; · (ipureintro; rfl)
    iexact Hw
  iexists _; isplitr
  · ipureintro; exact out_final m ρ c g2
  iexact Hout

end Body

def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 8000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) cc0_scratch14 cc0_scratch15) (fun _ => bodyPost m ρ c)
  unfold bodyPre' Φ₀ start
  iintro ⟨⟨⟨⟨%K, Hg⟩, HcB, HcR, Hlev⟩, Hsb, Hrb⟩, Ho, Hx, Hw, Hout⟩
  iapply (sound_body m ρ K c fun _ => bodyPost m ρ c)
  unfold bodyPre
  isplitr []
  · isplitl [Hg HcB HcR Hlev Hsb Hrb]
    · isplitl [Hg]; · iexact Hg
      isplitl [HcB]; · iexact HcB
      isplitl [HcR]; · iexact HcR
      isplitl [Hlev]; · iexact Hlev
      isplitl [Hsb]; · iexact Hsb
      iexact Hrb
    isplitl [Ho]; · iexact Ho
    isplitl [Hx]; · iexact Hx
    isplitl [Hw]; · iexact Hw
    iexact Hout
  · iintro H
    iapply (Entails.of_eq (bodyPostX_eq m ρ c))
    iexact H

/-- info: 'Cert.KernelIdeal.A2A.body_obligation' depends on axioms: [propext, Classical.choice, Quot.sound] -/
#guard_msgs in #print axioms body_obligation

end Cert.KernelIdeal.A2A

end
-- ==== Proof.Value.lean ====
/-
  The value: each device's staged result is its column block of the whole product.

  The reference forms the whole product `X · W` of two 2048 × 2048 matrices.  Device `c` of the eight holds rows
  [256c, 256c + 256) of `X` and all of `W`, and must end holding columns [256c, 256c + 256) of the product.  At a
  row of its own row block it keeps its rows times its own column block.  At a row of a peer's row block `b` it
  stores what the peer sent it: the peer's rows times the column block the peer addressed to it, which is again
  the column block from `256 c` on, because the exchange of a slot is an involution of the devices.  Narrowing,
  widening and a shape cast to the same shape are the identity on extended reals, so in both cases the entry at
  `(i 0, i 1)` is `∑ k, X (i 0, k) · W (k, 256 c + i 1)`, the whole product's entry at that row and column
  `256 c + i 1`: term by term the same sum, so no law of arithmetic is used.
-/
import proofs.«900795_g7700000000000796_dist_gemm_a2a_m2048_k2048_n2048_f32_none_v7x_i8_1_alg».proof.Proof.KernelIdeal.Proto
import proofs.«900795_g7700000000000796_dist_gemm_a2a_m2048_k2048_n2048_f32_none_v7x_i8_1_alg».proof.Proof.Gen.ReferenceIdeal.Run
import proofs.«900795_g7700000000000796_dist_gemm_a2a_m2048_k2048_n2048_f32_none_v7x_i8_1_alg».proof.Proof.Gen.ReferenceIdeal.Read
import Idealize.ShloMosaic.Lib.Layout
import Idealize.ShloMosaic.PureOps.Ideal.Laws
import Idealize.ShloMosaic.Lib.ValueIdx
import Idealize.ShloMosaic.Lib.Pipeline.Value

noncomputable section

namespace Cert.A2AValue

open Idealize.ShloMosaic Idealize.SL.Sem Idealize.ShloMosaic.ValueIdx Cert.A2A

/-- The whole product the reference computes. -/
def refOut (X W : (⟨Cert.ReferenceIdeal.S2048x2048, .f32⟩ : BufTy).Contents (Elt Ideal)) : (⟨Cert.ReferenceIdeal.S2048x2048, .f32⟩ : BufTy).Contents (Elt Ideal) :=
  Cert.ReferenceIdeal.Read.val_main_v0 (F := Ideal) X W

section Blocks

open Cert.KernelIdeal Cert.KernelIdeal.Gen Cert.KernelIdeal.A2A

/-! ## A block of rows times a block of columns, at an index

The kernel's matrix product contracts axis 1 of a 256 × 2048 block with axis 0 of a 2048 × 256 block. Read at the
ideal values into a zero accumulator it is the plain sum over the contracted coordinate. -/

theorem lhs_mm_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhs_mm_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem rhs_mm_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem rhs_mm_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The exact product of a block of rows with a block of columns: entry `(p, q)` is `∑ k, xr (p, k) · wc (k, q)`. -/
def mm (xr : FVec Ideal S256x2048 .f32) (wc : FVec Ideal S2048x256 .f32) : S256x256.Idx → EReal :=
  fun j => ∑ k : Fin 2048, xr (ix2 (j 0) k) * wc (ix2 k (j 1))

/-- The kernel's matrix product into the zero accumulator is that product. -/
theorem matmul_blk (xr : FVec Ideal S256x2048 .f32) (wc : FVec Ideal S2048x256 .f32) :
    matmul dot_S256x2048_S2048x256_S256x256_1_0_0_1_n_n none xr wc (constant (F := Ideal) S256x256 .f32 0x00000000#32) = mm xr wc := by
  funext j
  obtain ⟨p, q, rfl⟩ : ∃ (p : Fin 256) (q : Fin 256), j = ix2 p q := ⟨j 0, j 1, eq_ix2 j⟩
  simp only [matmul]
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p q) ((contrEquiv1 dot_S256x2048_S2048x256_S256x256_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S256x2048_S2048x256_S256x256_1_0_0_1_n_n.rhsIdx (ix2 p q) ((contrEquiv1 dot_S256x2048_S2048x256_S256x256_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-! ## The payloads at the ideal values

A shape cast to the same shape, a narrowing and a widening are the identity on extended reals, so the payload a
send buffer receives, the payload kept, and a landed block widened are each that product or their argument. -/

theorem pay3_eq (xr : FVec Ideal S256x2048 .f32) (wc : Vec Ideal S2048x256 .f32) :
    k0_pay3 (F := Ideal) xr (k0_pay2 (F := Ideal) wc) = mm xr wc := by
  unfold k0_pay3 k0_pay2
  simp only [shapeCast_self]
  exact matmul_blk xr wc
theorem pay4_eq (xr : FVec Ideal S256x2048 .f32) (wc : Vec Ideal S2048x256 .f32) : k0_pay4 (F := Ideal) xr wc = mm xr wc := by
  unfold k0_pay4
  simp only [shapeCast_self]
  exact matmul_blk xr wc
theorem pay5_eq (xr : FVec Ideal S256x2048 .f32) (wc : Vec Ideal S2048x256 .f32) : k0_pay5 (F := Ideal) xr wc = mm xr wc := by
  unfold k0_pay5
  simp only [shapeCast_self]
  exact matmul_blk xr wc
theorem pay6_eq (xr : FVec Ideal S256x2048 .f32) (wc : Vec Ideal S2048x256 .f32) : k0_pay6 (F := Ideal) xr wc = mm xr wc := by
  unfold k0_pay6
  simp only [shapeCast_self]
  exact matmul_blk xr wc
theorem pay7_eq (xr : FVec Ideal S256x2048 .f32) (wc : Vec Ideal S2048x256 .f32) : k0_pay7 (F := Ideal) xr wc = mm xr wc := by
  unfold k0_pay7
  simp only [shapeCast_self]
  exact matmul_blk xr wc
theorem pay8_eq (xr : FVec Ideal S256x2048 .f32) (wc : Vec Ideal S2048x256 .f32) : k0_pay8 (F := Ideal) xr wc = mm xr wc := by
  unfold k0_pay8
  simp only [shapeCast_self]
  exact matmul_blk xr wc
theorem pay9_eq (xr : FVec Ideal S256x2048 .f32) (wc : Vec Ideal S2048x256 .f32) : k0_pay9 (F := Ideal) xr wc = mm xr wc := by
  unfold k0_pay9
  simp only [shapeCast_self]
  exact matmul_blk xr wc
theorem pay10_eq (xr : FVec Ideal S256x2048 .f32) (wc : Vec Ideal S2048x256 .f32) : k0_pay10 (F := Ideal) xr wc = mm xr wc := by
  unfold k0_pay10
  simp only [shapeCast_self]
  exact matmul_blk xr wc
theorem pay11_eq (v : Vec Ideal S256x256 .bf16) : k0_pay11 (F := Ideal) v = v := rfl
theorem pay12_eq (v : Vec Ideal S256x256 .bf16) : k0_pay12 (F := Ideal) v = v := rfl
theorem pay13_eq (v : Vec Ideal S256x256 .bf16) : k0_pay13 (F := Ideal) v = v := rfl
theorem pay14_eq (v : Vec Ideal S256x256 .bf16) : k0_pay14 (F := Ideal) v = v := rfl
theorem pay15_eq (v : Vec Ideal S256x256 .bf16) : k0_pay15 (F := Ideal) v = v := rfl
theorem pay16_eq (v : Vec Ideal S256x256 .bf16) : k0_pay16 (F := Ideal) v = v := rfl
theorem pay17_eq (v : Vec Ideal S256x256 .bf16) : k0_pay17 (F := Ideal) v = v := rfl

/-! ## The loads

A device stages its whole row block and its whole copy of `w`, so a staged array read back is the array; the body's first
load reads the whole staged row block, and a column-block load at offsets `o` reads entry `(k, q)` at `(k, o 1 + q)`
(`o 0 = 0`, the rectangle being as tall as the array). -/

variable (m : (ℓ : Loc nD τ sig) → Buf (Elt Ideal) ℓ) (ρ : Dev nD → PrngReg)

theorem hz2 : (![0, 0] : Fin 2 → Nat) = fun _ => 0 := funext fun a => by fin_cases a <;> rfl

theorem xstg_eq (c : Dev nD) : xstg m ρ c = m ((c.tc : Thread nD τ).loc main_arg0) := by
  unfold xstg
  exact Memref.read_access_unit_zero (Elt Ideal) main_arg0 (funext fun a => Nat.zero_mul _) _ _
theorem wstg_eq (c : Dev nD) : wstg m ρ c = m ((c.tc : Thread nD τ).loc main_arg1) := by
  unfold wstg
  exact Memref.read_access_unit_zero (Elt Ideal) main_arg1 (funext fun a => Nat.zero_mul _) _ _

theorem xv_eq (c : Dev nD) : xv m ρ c = m ((c.tc : Thread nD τ).loc main_arg0) := by
  unfold xv k0_pay1
  simp only [shapeCast_self]
  exact (Memref.readAt_unit_zero (Elt Ideal) cc0_stg0_0 hz2 _ _).trans (xstg_eq m ρ c)

theorem wcolAt_apply (c : Dev nD) (o : Fin 2 → ℕ) (h : ∀ a, o a + S2048x256.size a ≤ S2048x2048.size a)
    (k : Fin 2048) (q : Fin 256) (j : S2048x2048.Idx) (h0 : (j 0).val = k.val) (h1 : (j 1).val = o 1 + q.val) :
    wcolAt m ρ c o h (ix2 k q) = m ((c.tc : Thread nD τ).loc main_arg1) j := by
  have ho : o 0 + 2048 ≤ 2048 := h 0
  show wstg m ρ c ((Rect.unit (s := S2048x2048) o S2048x256.size h).toLoadRect.idx (ix2 k q)) = _
  rw [wstg_eq]
  refine congrArg _ (funext fun a => Fin.ext ?_)
  match a with
  | ⟨0, _⟩ => show o 0 + 1 * k.val = (j 0).val; omega
  | ⟨1, _⟩ => show o 1 + 1 * q.val = (j 1).val; omega

/-! ## What is sent, what lands, what is kept -/

/-- What device `b` sends on slot `σ`: its rows times its slot-`σ` column block. -/
theorem sent_eq (b : Dev nD) : ∀ σ : Fin 7, sent m ρ b σ = mm (xv m ρ b) (wcol m ρ b σ)
  | ⟨0, _⟩ => pay3_eq _ _
  | ⟨1, _⟩ => pay4_eq _ _
  | ⟨2, _⟩ => pay5_eq _ _
  | ⟨3, _⟩ => pay6_eq _ _
  | ⟨4, _⟩ => pay7_eq _ _
  | ⟨5, _⟩ => pay8_eq _ _
  | ⟨6, _⟩ => pay9_eq _ _
  | ⟨_ + 7, h⟩ => absurd h (Nat.not_lt.2 (Nat.le_add_left _ _))

/-- A landed block widened is the landed block. -/
theorem widened_eq (c : Dev nD) : ∀ σ : Fin 7, widened m ρ c σ = landed m ρ c σ
  | ⟨0, _⟩ => pay11_eq _
  | ⟨1, _⟩ => pay12_eq _
  | ⟨2, _⟩ => pay13_eq _
  | ⟨3, _⟩ => pay14_eq _
  | ⟨4, _⟩ => pay15_eq _
  | ⟨5, _⟩ => pay16_eq _
  | ⟨6, _⟩ => pay17_eq _
  | ⟨_ + 7, h⟩ => absurd h (Nat.not_lt.2 (Nat.le_add_left _ _))

/-- So what device `c` stores for slot `σ` is the peer's rows times the peer's slot-`σ` column block. -/
theorem widened_mm (c : Dev nD) (σ : Fin 7) :
    widened m ρ c σ = mm (xv m ρ (tgt σ c)) (wcol m ρ (tgt σ c) σ) :=
  (widened_eq m ρ c σ).trans (sent_eq m ρ (tgt σ c) σ)

/-- What device `c` keeps is its rows times its own column block. -/
theorem own_mm (c : Dev nD) : own m ρ c = mm (xv m ρ c) (wcolAt m ρ c (k0_off2 c) (k0_off2_inb c)) :=
  pay10_eq _ _

/-! ## An entry of such a product is an entry of the whole product -/

/-- Entry `i` (row `i 0` of the result, in row block `b`) of device `b`'s rows times the columns from `256 c` on is the
    whole product's entry at row `i 0` and column `256 c + i 1`: the same sum over the contracted coordinate, since
    `256 b + (i 0) % 256 = i 0`. -/
theorem entry (X W : (⟨Cert.ReferenceIdeal.S2048x2048, .f32⟩ : BufTy).Contents (Elt Ideal))
    (hx : ∀ c : Dev nD, m ((c.tc : Thread nD τ).loc main_arg0) = Layout.block ⟨2, ![256, 2048]⟩ ⟨2, ![2048, 2048]⟩ 0 8 c X)
    (hw : ∀ c : Dev nD, m ((c.tc : Thread nD τ).loc main_arg1) = W)
    (b c : Dev nD) (o : Fin 2 → ℕ) (h : ∀ a, o a + S2048x256.size a ≤ S2048x2048.size a) (ho : o 1 = 256 * c.val)
    (T : Layout.Tiles ⟨2, ![2048, 256]⟩ ⟨2, ![2048, 2048]⟩ 1 8) (i : S2048x256.Idx) (hb : (i 0).val / 256 = b.val) :
    mm (xv m ρ b) (wcolAt m ρ b o h) (inBlk i) = Cert.ReferenceIdeal.Read.val_main_v0 (F := Ideal) X W (T.idx c i) := by
  have hA : ∀ k : Fin 2048, xv m ρ b (ix2 ((inBlk i) 0) k) = X (Cert.ReferenceIdeal.Read.lidx_main_v0 (T.idx c i) k) := fun k =>
    (congrFun ((xv_eq m ρ b).trans (hx b)) _).trans (congrArg X (funext fun a => Fin.ext (by
      match a with
      | ⟨0, _⟩ => show b.val * 256 + (i 0).val % 256 = (i 0).val; omega
      | ⟨1, _⟩ => rfl)))
  have hB : ∀ k : Fin 2048, wcolAt m ρ b o h (ix2 k ((inBlk i) 1)) = W (Cert.ReferenceIdeal.Read.ridx_main_v0 (T.idx c i) k) := fun k =>
    (wcolAt_apply m ρ b o h k (i 1) (Cert.ReferenceIdeal.Read.ridx_main_v0 (T.idx c i) k) rfl
      (by show c.val * 256 + (i 1).val = o 1 + (i 1).val; omega)).trans (congrFun (hw b) _)
  rw [Cert.ReferenceIdeal.Read.val_main_v0_apply]
  show ∑ k : Fin 2048, xv m ρ b (ix2 ((inBlk i) 0) k) * wcolAt m ρ b o h (ix2 k ((inBlk i) 1)) = _
  exact Finset.sum_congr rfl fun k _ => by rw [hA k, hB k]

end Blocks

open Cert.KernelIdeal.Gen Cert.KernelIdeal.A2A

/-- Device `c`'s staged result is column block `c` of the whole product, when its rows are row block `c` of `X` and every device's copy of `w` is `W`. -/
theorem outAt_block (m : (ℓ : Loc Cert.KernelIdeal.nD Cert.KernelIdeal.τ Cert.KernelIdeal.sig) → Buf (Elt Ideal) ℓ) (ρ : Dev Cert.KernelIdeal.nD → PrngReg)
    (X W : (⟨Cert.ReferenceIdeal.S2048x2048, .f32⟩ : BufTy).Contents (Elt Ideal))
    (hx : ∀ c : Dev Cert.KernelIdeal.nD, m ((c.tc : Thread Cert.KernelIdeal.nD Cert.KernelIdeal.τ).loc Cert.KernelIdeal.main_arg0) = Layout.block ⟨2, ![256, 2048]⟩ ⟨2, ![2048, 2048]⟩ 0 8 c X)
    (hw : ∀ c : Dev Cert.KernelIdeal.nD, m ((c.tc : Thread Cert.KernelIdeal.nD Cert.KernelIdeal.τ).loc Cert.KernelIdeal.main_arg1) = W)
    (c : Dev Cert.KernelIdeal.nD) :
    Cert.KernelIdeal.A2A.outAt (F := Ideal) m ρ c = Layout.block ⟨2, ![2048, 256]⟩ ⟨2, ![2048, 2048]⟩ 1 8 c (refOut X W) := by
  funext i
  show (if rowBlk i = c then own m ρ c (inBlk i) else widened m ρ c (slotTo c (rowBlk i)) (inBlk i)) = _
  by_cases hb : rowBlk i = c
  · rw [if_pos hb, own_mm]
    exact entry m ρ X W hx hw c c _ _ (congrFun (k0_off2_eq c) 1) _ i (congrArg Fin.val hb)
  · rw [if_neg hb, widened_mm]
    have ht : tgt (slotTo c (rowBlk i)) c = rowBlk i := tgt_slotTo c (rowBlk i) hb
    exact entry m ρ X W hx hw (tgt (slotTo c (rowBlk i)) c) c _ _
      ((congrFun (off1_eq (tgt (slotTo c (rowBlk i)) c) (slotTo c (rowBlk i))) 1).trans
        (by show 256 * (tgt (slotTo c (rowBlk i)) (tgt (slotTo c (rowBlk i)) c)).val = 256 * c.val; rw [tgt_tgt]))
      _ i (congrArg Fin.val ht).symm

/-- The reference's run: its result is the whole product of its arguments, which end unchanged. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v0)
          = refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run (Cert.ReferenceIdeal.defs (F := Ideal)) _ _).mono (fun _ h => h 0) (Cert.ReferenceIdeal.Value.run (F := Ideal) m' g')

/-- info: 'Cert.A2AValue.outAt_block' depends on axioms: [propext, Classical.choice, Quot.sound] -/
#guard_msgs in #print axioms outAt_block

end Cert.A2AValue

end
-- ==== Proof.lean ====
/- The claim: the product of two 2048 × 2048 matrices computed by eight devices exchanging blocks, against the one-device product.
   Each kernel's run — at the machine's floats and at the ideal values — terminates and leaves its two argument arrays as they
   were, and so does the reference's; at the ideal values device `c`, holding row block `c` of `X` and a copy of `W`, ends with
   column block `c` of the reference's `X · W` in its result array. -/
import proofs.«900795_g7700000000000796_dist_gemm_a2a_m2048_k2048_n2048_f32_none_v7x_i8_1_alg».proof.Defs
import proofs.«900795_g7700000000000796_dist_gemm_a2a_m2048_k2048_n2048_f32_none_v7x_i8_1_alg».proof.Proof.Gen.Kernel
import proofs.«900795_g7700000000000796_dist_gemm_a2a_m2048_k2048_n2048_f32_none_v7x_i8_1_alg».proof.Proof.Gen.Kernel.Skeleton
import proofs.«900795_g7700000000000796_dist_gemm_a2a_m2048_k2048_n2048_f32_none_v7x_i8_1_alg».proof.Proof.Gen.Kernel.Launch
import proofs.«900795_g7700000000000796_dist_gemm_a2a_m2048_k2048_n2048_f32_none_v7x_i8_1_alg».proof.Proof.Gen.Kernel.Points
import proofs.«900795_g7700000000000796_dist_gemm_a2a_m2048_k2048_n2048_f32_none_v7x_i8_1_alg».proof.Proof.Gen.Kernel.Frame
import proofs.«900795_g7700000000000796_dist_gemm_a2a_m2048_k2048_n2048_f32_none_v7x_i8_1_alg».proof.Proof.Gen.KernelIdeal
import proofs.«900795_g7700000000000796_dist_gemm_a2a_m2048_k2048_n2048_f32_none_v7x_i8_1_alg».proof.Proof.Gen.KernelIdeal.Skeleton
import proofs.«900795_g7700000000000796_dist_gemm_a2a_m2048_k2048_n2048_f32_none_v7x_i8_1_alg».proof.Proof.Gen.KernelIdeal.Launch
import proofs.«900795_g7700000000000796_dist_gemm_a2a_m2048_k2048_n2048_f32_none_v7x_i8_1_alg».proof.Proof.Gen.KernelIdeal.Points
import proofs.«900795_g7700000000000796_dist_gemm_a2a_m2048_k2048_n2048_f32_none_v7x_i8_1_alg».proof.Proof.Gen.KernelIdeal.Frame
import proofs.«900795_g7700000000000796_dist_gemm_a2a_m2048_k2048_n2048_f32_none_v7x_i8_1_alg».proof.Proof.Gen.ReferenceIdeal
import proofs.«900795_g7700000000000796_dist_gemm_a2a_m2048_k2048_n2048_f32_none_v7x_i8_1_alg».proof.Proof.Gen.Pre_finite_inputs_Kernel
import proofs.«900795_g7700000000000796_dist_gemm_a2a_m2048_k2048_n2048_f32_none_v7x_i8_1_alg».proof.Proof.Gen.Pre_finite_inputs_ReferenceIdeal
import Idealize.ShloMosaic.Adequacy
import Idealize.ShloMosaic.Init
import proofs.«900795_g7700000000000796_dist_gemm_a2a_m2048_k2048_n2048_f32_none_v7x_i8_1_alg».proof.Proof.Kernel.Launch
import proofs.«900795_g7700000000000796_dist_gemm_a2a_m2048_k2048_n2048_f32_none_v7x_i8_1_alg».proof.Proof.Kernel.Body
import proofs.«900795_g7700000000000796_dist_gemm_a2a_m2048_k2048_n2048_f32_none_v7x_i8_1_alg».proof.Proof.KernelIdeal.Launch
import proofs.«900795_g7700000000000796_dist_gemm_a2a_m2048_k2048_n2048_f32_none_v7x_i8_1_alg».proof.Proof.KernelIdeal.Body
import proofs.«900795_g7700000000000796_dist_gemm_a2a_m2048_k2048_n2048_f32_none_v7x_i8_1_alg».proof.Proof.Value

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts, by
  refine ⟨?_, ?_, ?_, trivial, ?_⟩
  · -- the kernel at the machine's floats: its run, the result's clause dropped
    intro m g _
    exact (θ_run (Cert.Kernel.defs (F := Bits)) _ _).mono (fun _ h c => ⟨(h c).2.1, (h c).2.2⟩)
      (Cert.Kernel.A2A.kernel_run (F := Bits) m g (Cert.Kernel.A2A.body_obligation (F := Bits) m g))
  · -- the kernel at the ideal values: likewise
    intro m g _
    exact (θ_run (Cert.KernelIdeal.defs (F := Ideal)) _ _).mono (fun _ h c => ⟨(h c).2.1, (h c).2.2⟩)
      (Cert.KernelIdeal.A2A.kernel_run (F := Ideal) m g (Cert.KernelIdeal.A2A.body_obligation (F := Ideal) m g))
  · -- the reference: its run, the value dropped
    intro m' g' _
    exact (θ_run (Cert.ReferenceIdeal.defs (F := Ideal)) _ _).mono (fun _ h c => (h c).2)
      (Cert.ReferenceIdeal.Value.run (F := Ideal) m' g')
  · -- the value: the reference ends at the whole product, and each device's staged result is its column block of it
    intro m g m' g' _ hagree
    refine ⟨Cert.A2AValue.refOut (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)), ?_, Cert.A2AValue.ref_run m' g'⟩
    exact (θ_run (Cert.KernelIdeal.defs (F := Ideal)) _ _).mono
      (fun _ h c => ⟨(h c).1.trans (Cert.A2AValue.outAt_block m g (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
          (fun d => (hagree d).1) (fun d => (hagree d).2) c), (h c).2.1, (h c).2.2⟩)
      (Cert.KernelIdeal.A2A.kernel_run (F := Ideal) m g (Cert.KernelIdeal.A2A.body_obligation (F := Ideal) m g))⟩

end Cert.Proof

end
